-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S600000x32 : Shape := ⟨2, ![600000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S288x128 : Shape := ⟨2, ![288, 128]⟩
abbrev S128x24 : Shape := ⟨2, ![128, 24]⟩
abbrev S24 : Shape := ⟨1, ![24]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S288x128 : S_.BroadcastsInDim S288x128 (![] : Fin 0 → Fin S288x128.rank)
  reducesTo_S288x128_S_d0_1 : S288x128.ReducesTo [0, 1] S_
  bcast_S_S128x24 : S_.BroadcastsInDim S128x24 (![] : Fin 0 → Fin S128x24.rank)
  reducesTo_S128x24_S_d0_1 : S128x24.ReducesTo [0, 1] S_
  bcast_S_S24 : S_.BroadcastsInDim S24 (![] : Fin 0 → Fin S24.rank)
  reducesTo_S24_S_d0 : S24.ReducesTo [0] S_
  bcast_S_S2x600000 : S_.BroadcastsInDim S2x600000 (![] : Fin 0 → Fin S2x600000.rank)
  reducesTo_S2x600000_S_d0_1 : S2x600000.ReducesTo [0, 1] S_

variable [Facts]

def fn_part7 {F : FTy → Type} [FloatOps F] (main_arg1 : IVec S2x600000 32) (main_arg26 : FVec F S24 .f32) (main_v118 : IVec S_ 1) (main_v119 : FVec F S128x24 .f32) : IVec S_ 1 :=
  let main_cst_46 : FVec F S_ .f32 := constant S_ .f32 0x7F800000#32
  let main_v120 : FVec F S128x24 .f32 := broadcastInDim S128x24 ![] bcast_S_S128x24 main_cst_46
  let main_v121 : IVec S128x24 1 := cmpf .olt main_v119 main_v120
  let main_c_47 : IVec S_ 1 := constantI S_ 1 1#1
  let main_v122 : IVec S_ 1 := (fun x v => Host.reduce IntOp.andi x v reducesTo_S128x24_S_d0_1 h_S_) main_v121 main_c_47
  let main_v123 : IVec S_ 1 := andi main_v118 main_v122
  let main_v124 : FVec F S24 .f32 := Host.absf main_arg26
  let main_cst_48 : FVec F S_ .f32 := constant S_ .f32 0x7F800000#32
  let main_v125 : FVec F S24 .f32 := broadcastInDim S24 ![] bcast_S_S24 main_cst_48
  let main_v126 : IVec S24 1 := cmpf .olt main_v124 main_v125
  let main_c_49 : IVec S_ 1 := constantI S_ 1 1#1
  let main_v127 : IVec S_ 1 := (fun x v => Host.reduce IntOp.andi x v reducesTo_S24_S_d0 h_S_) main_v126 main_c_49
  let main_v128 : IVec S_ 1 := andi main_v123 main_v127
  let main_c_50 : IVec S_ 32 := constantI S_ 32 0#32
  let main_v129 : IVec S2x600000 32 := broadcastInDim S2x600000 ![] bcast_S_S2x600000 main_c_50
  let main_v130 : IVec S2x600000 1 := cmpi .sge main_arg1 main_v129
  let main_c_51 : IVec S_ 32 := constantI S_ 32 100000#32
  let main_v131 : IVec S2x600000 32 := broadcastInDim S2x600000 ![] bcast_S_S2x600000 main_c_51
  let main_v132 : IVec S2x600000 1 := cmpi .slt main_arg1 main_v131
  let main_v133 : IVec S2x600000 1 := andi main_v130 main_v132
  let main_c_52 : IVec S_ 1 := constantI S_ 1 1#1
  let main_v134 : IVec S_ 1 := (fun x v => Host.reduce IntOp.andi x v reducesTo_S2x600000_S_d0_1 h_S_) main_v133 main_c_52
  let main_v135 : IVec S_ 1 := andi main_v128 main_v134
  main_v135

def fn_part6 {F : FTy → Type} [FloatOps F] (main_arg1 : IVec S2x600000 32) (main_arg22 : FVec F S128 .f32) (main_arg23 : FVec F S288x128 .f32) (main_arg24 : FVec F S128 .f32) (main_arg25 : FVec F S128x24 .f32) (main_arg26 : FVec F S24 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S288x128 .f32 := Host.absf main_arg23
  let main_cst_42 : FVec F S_ .f32 := constant S_ .f32 0x7F800000#32
  let main_v110 : FVec F S288x128 .f32 := broadcastInDim S288x128 ![] bcast_S_S288x128 main_cst_42
  let main_v111 : IVec S288x128 1 := cmpf .olt main_v109 main_v110
  let main_c_43 : IVec S_ 1 := constantI S_ 1 1#1
  let main_v112 : IVec S_ 1 := (fun x v => Host.reduce IntOp.andi x v reducesTo_S288x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x24 .f32 := Host.absf main_arg25
  fn_part7 (F := F) main_arg1 main_arg26 main_v118 main_v119

def fn_part5 {F : FTy → Type} [FloatOps F] (main_arg1 : IVec S2x600000 32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg1 main_arg22 main_arg23 main_arg24 main_arg25 main_arg26 main_v98 main_v101 main_c_39

def fn_part4 {F : FTy → Type} [FloatOps F] (main_arg1 : IVec S2x600000 32) (main_arg15 : FVec F S128x128 .f32) (main_arg16 : FVec F S128 .f32) (main_arg17 : FVec F S32x128 .f32) (main_arg18 : FVec F S128 .f32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S32x128 .f32 := Host.absf main_arg17
  let main_cst_30 : FVec F S_ .f32 := constant S_ .f32 0x7F800000#32
  let main_v80 : FVec F S32x128 .f32 := broadcastInDim S32x128 ![] bcast_S_S32x128 main_cst_30
  let main_v81 : IVec S32x128 1 := cmpf .olt main_v79 main_v80
  let main_c_31 : IVec S_ 1 := constantI S_ 1 1#1
  let main_v82 : IVec S_ 1 := (fun x v => Host.reduce IntOp.andi x v reducesTo_S32x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_v83 main_v84 main_cst_32

def fn_part3 {F : FTy → Type} [FloatOps F] (main_arg1 : IVec S2x600000 32) (main_arg12 : FVec F S128 .f32) (main_arg13 : FVec F S128x128 .f32) (main_arg14 : FVec F S128 .f32) (main_arg15 : FVec F S128x128 .f32) (main_arg16 : FVec F S128 .f32) (main_arg17 : FVec F S32x128 .f32) (main_arg18 : FVec F S128 .f32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_arg21 main_arg22 main_arg23 main_arg24 main_arg25 main_arg26 main_v63 main_v67

def fn_part2 {F : FTy → Type} [FloatOps F] (main_arg1 : IVec S2x600000 32) (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S32x128 .f32) (main_arg18 : FVec F S128 .f32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg11
  let main_cst_18 : FVec F S_ .f32 := constant S_ .f32 0x7F800000#32
  let main_v50 : FVec F S32x128 .f32 := broadcastInDim S32x128 ![] bcast_S_S32x128 main_cst_18
  fn_part3 (F := F) main_arg1 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S2x600000 32) (main_arg5 : FVec F S32x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S32x128 .f32) (main_arg18 : FVec F S128 .f32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x64 .f32) (main_arg1 : IVec S2x600000 32) (main_arg2 : FVec F S600000x32 .f32) (main_arg3 : FVec F S64x128 .f32) (main_arg4 : FVec F S128 .f32) (main_arg5 : FVec F S32x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S32x128 .f32) (main_arg18 : FVec F S128 .f32) (main_arg19 : FVec F S128x128 .f32) (main_arg20 : FVec F S128 .f32) (main_arg21 : FVec F S128x128 .f32) (main_arg22 : FVec F S128 .f32) (main_arg23 : FVec F S288x128 .f32) (main_arg24 : FVec F S128 .f32) (main_arg25 : FVec F S128x24 .f32) (main_arg26 : FVec F S24 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x64 : Shape := ⟨2, ![100000, 64]⟩
abbrev S2x600000 : Shape := ⟨2, ![2, 600000]⟩
abbrev S600000x32 : Shape := ⟨2, ![600000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S288x128 : Shape := ⟨2, ![288, 128]⟩
abbrev S128x24 : Shape := ⟨2, ![128, 24]⟩
abbrev S24 : Shape := ⟨1, ![24]⟩
abbrev S1x600000 : Shape := ⟨2, ![1, 600000]⟩
abbrev S600000 : Shape := ⟨1, ![600000]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S600000x128 : Shape := ⟨2, ![600000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S15000x128 : Shape := ⟨2, ![15000, 128]⟩
abbrev S600000x24 : Shape := ⟨2, ![600000, 24]⟩

abbrev nBuf : Space → Nat
  | .hbm => 220
  | .vmem => 42
  | .smem => 0
  | _ => 0

abbrev hbmTy0_0 (i : Nat) : BufTy := match i % 128 with
  | 0 => ⟨S100000x64, .f32⟩
  | 1 => ⟨S2x600000, .i32⟩
  | 2 => ⟨S600000x32, .f32⟩
  | 3 => ⟨S64x128, .f32⟩
  | 4 => ⟨S128, .f32⟩
  | 5 => ⟨S32x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S32x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S32x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S288x128, .f32⟩
  | 24 => ⟨S128, .f32⟩
  | 25 => ⟨S128x24, .f32⟩
  | 26 => ⟨S24, .f32⟩
  | 27 => ⟨S1x600000, .i32⟩
  | 28 => ⟨S600000, .i32⟩
  | 29 => ⟨S1x600000, .i32⟩
  | 30 => ⟨S600000, .i32⟩
  | 31 => ⟨S1x128, .f32⟩
  | 32 => ⟨S100000x128, .f32⟩
  | 33 => ⟨S600000x128, .f32⟩
  | 34 => ⟨S1x128, .f32⟩
  | 35 => ⟨S600000x128, .f32⟩
  | 36 => ⟨S600000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S1, .i32⟩
  | 46 => ⟨S_, .i32⟩
  | 47 => ⟨S600000x1, .i32⟩
  | 48 => ⟨S600000x1, .i1⟩
  | 49 => ⟨S1x1, .i32⟩
  | 50 => ⟨S600000x1, .i32⟩
  | 51 => ⟨S600000x1, .i1⟩
  | 52 => ⟨S600000x1, .i1⟩
  | 53 => ⟨S_, .i1⟩
  | 54 => ⟨S600000, .i1⟩
  | 55 => ⟨S600000x128, .f32⟩
  | 56 => ⟨S600000x128, .i1⟩
  | 57 => ⟨S_, .f32⟩
  | 58 => ⟨S600000x128, .f32⟩
  | 59 => ⟨S600000x128, .f32⟩
  | 60 => ⟨S600000x128, .f32⟩
  | 61 => ⟨S_, .f32⟩
  | 62 => ⟨S600000x128, .f32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S1x128, .f32⟩
  | 69 => ⟨S1x128, .f32⟩
  | 70 => ⟨S100000x128, .f32⟩
  | 71 => ⟨S600000x128, .f32⟩
  | 72 => ⟨S1x128, .f32⟩
  | 73 => ⟨S600000x128, .f32⟩
  | 74 => ⟨S600000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S1, .i32⟩
  | 84 => ⟨S_, .i32⟩
  | 85 => ⟨S600000x1, .i32⟩
  | 86 => ⟨S600000x1, .i1⟩
  | 87 => ⟨S1x1, .i32⟩
  | 88 => ⟨S600000x1, .i32⟩
  | 89 => ⟨S600000x1, .i1⟩
  | 90 => ⟨S600000x1, .i1⟩
  | 91 => ⟨S_, .i1⟩
  | 92 => ⟨S600000, .i1⟩
  | 93 => ⟨S600000x128, .f32⟩
  | 94 => ⟨S600000x128, .i1⟩
  | 95 => ⟨S_, .f32⟩
  | 96 => ⟨S600000x128, .f32⟩
  | 97 => ⟨S600000x128, .f32⟩
  | 98 => ⟨S600000x128, .f32⟩
  | 99 => ⟨S_, .f32⟩
  | 100 => ⟨S600000x128, .f32⟩
  | 101 => ⟨S600000x128, .f32⟩
  | 102 => ⟨S_, .f32⟩
  | 103 => ⟨S100000x128, .f32⟩
  | 104 => ⟨S600000x1, .i32⟩
  | 105 => ⟨S100000x128, .f32⟩
  | 106 => ⟨S1x128, .f32⟩
  | 107 => ⟨S1x128, .f32⟩
  | 108 => ⟨S100000x128, .f32⟩
  | 109 => ⟨S600000x128, .f32⟩
  | 110 => ⟨S1x128, .f32⟩
  | 111 => ⟨S600000x128, .f32⟩
  | 112 => ⟨S600000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S1, .i32⟩
  | 122 => ⟨S_, .i32⟩
  | 123 => ⟨S600000x1, .i32⟩
  | 124 => ⟨S600000x1, .i1⟩
  | 125 => ⟨S1x1, .i32⟩
  | 126 => ⟨S600000x1, .i32⟩
  | 127 => ⟨S600000x1, .i1⟩
  | _ => ⟨S100000x64, .f32⟩

abbrev hbmTy0_1 (i : Nat) : BufTy := match i % 128 with
  | 0 => ⟨S600000x1, .i1⟩
  | 1 => ⟨S_, .i1⟩
  | 2 => ⟨S600000, .i1⟩
  | 3 => ⟨S600000x128, .f32⟩
  | 4 => ⟨S600000x128, .i1⟩
  | 5 => ⟨S_, .f32⟩
  | 6 => ⟨S600000x128, .f32⟩
  | 7 => ⟨S600000x128, .f32⟩
  | 8 => ⟨S600000x128, .f32⟩
  | 9 => ⟨S_, .f32⟩
  | 10 => ⟨S600000x128, .f32⟩
  | 11 => ⟨S600000x128, .f32⟩
  | 12 => ⟨S_, .f32⟩
  | 13 => ⟨S100000x128, .f32⟩
  | 14 => ⟨S600000x1, .i32⟩
  | 15 => ⟨S100000x128, .f32⟩
  | 16 => ⟨S1x128, .f32⟩
  | 17 => ⟨S1x128, .f32⟩
  | 18 => ⟨S100000x128, .f32⟩
  | 19 => ⟨S128x128, .f32⟩
  | 20 => ⟨S128x128, .f32⟩
  | 21 => ⟨S32x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S1, .i32⟩
  | 31 => ⟨S_, .i32⟩
  | 32 => ⟨S600000x1, .i32⟩
  | 33 => ⟨S600000x1, .i1⟩
  | 34 => ⟨S1x1, .i32⟩
  | 35 => ⟨S600000x1, .i32⟩
  | 36 => ⟨S600000x1, .i1⟩
  | 37 => ⟨S600000x1, .i1⟩
  | 38 => ⟨S_, .i1⟩
  | 39 => ⟨S600000, .i1⟩
  | 40 => ⟨S600000x128, .f32⟩
  | 41 => ⟨S600000x128, .i1⟩
  | 42 => ⟨S_, .f32⟩
  | 43 => ⟨S600000x128, .f32⟩
  | 44 => ⟨S600000x128, .f32⟩
  | 45 => ⟨S600000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S1, .i32⟩
  | 55 => ⟨S_, .i32⟩
  | 56 => ⟨S600000x1, .i32⟩
  | 57 => ⟨S600000x1, .i1⟩
  | 58 => ⟨S1x1, .i32⟩
  | 59 => ⟨S600000x1, .i32⟩
  | 60 => ⟨S600000x1, .i1⟩
  | 61 => ⟨S600000x1, .i1⟩
  | 62 => ⟨S_, .i1⟩
  | 63 => ⟨S600000, .i1⟩
  | 64 => ⟨S600000x128, .f32⟩
  | 65 => ⟨S600000x128, .i1⟩
  | 66 => ⟨S_, .f32⟩
  | 67 => ⟨S600000x128, .f32⟩
  | 68 => ⟨S600000x128, .f32⟩
  | 69 => ⟨S600000x128, .f32⟩
  | 70 => ⟨S600000x128, .f32⟩
  | 71 => ⟨S600000x128, .f32⟩
  | 72 => ⟨S600000x128, .f32⟩
  | 73 => ⟨S1x128, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S_, .f32⟩
  | 80 => ⟨S128x128, .f32⟩
  | 81 => ⟨S_, .i32⟩
  | 82 => ⟨S1, .i32⟩
  | 83 => ⟨S128x128, .f32⟩
  | 84 => ⟨S_, .f32⟩
  | 85 => ⟨S128, .f32⟩
  | 86 => ⟨S_, .i32⟩
  | 87 => ⟨S1, .i32⟩
  | 88 => ⟨S128, .f32⟩
  | 89 => ⟨S1x128, .f32⟩
  | 90 => ⟨S600000x128, .f32⟩
  | 91 => ⟨S600000x24, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S15000x128, .f32⟩
  | .local _ .vmem, ⟨37, _⟩ => ⟨S15000x128, .f32⟩
  | .local _ .vmem, ⟨38, _⟩ => ⟨S128x128, .f32⟩
  | .local _ .vmem, ⟨39, _⟩ => ⟨S1x128, .f32⟩
  | .local _ .vmem, ⟨40, _⟩ => ⟨S15000x128, .f32⟩
  | .local _ .vmem, ⟨41, _⟩ => ⟨S15000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v10 : Ref sig .tc := ⟨.hbm, 59, rfl⟩
abbrev main_v11 : Ref sig .tc := ⟨.hbm, 60, rfl⟩
abbrev main_call1_cst : Ref sig .tc := ⟨.hbm, 61, rfl⟩
abbrev main_call1_v0 : Ref sig .tc := ⟨.hbm, 62, rfl⟩
abbrev main_v12 : Ref sig .tc := ⟨.hbm, 63, rfl⟩
abbrev main_cst : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v23 : Ref sig .tc := ⟨.hbm, 97, rfl⟩
abbrev main_v24 : Ref sig .tc := ⟨.hbm, 98, rfl⟩
abbrev main_call3_cst : Ref sig .tc := ⟨.hbm, 99, rfl⟩
abbrev main_call3_v0 : Ref sig .tc := ⟨.hbm, 100, rfl⟩
abbrev main_v25 : Ref sig .tc := ⟨.hbm, 101, rfl⟩
abbrev main_cst_0 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v36 : Ref sig .tc := ⟨.hbm, 135, rfl⟩
abbrev main_v37 : Ref sig .tc := ⟨.hbm, 136, rfl⟩
abbrev main_call5_cst : Ref sig .tc := ⟨.hbm, 137, rfl⟩
abbrev main_call5_v0 : Ref sig .tc := ⟨.hbm, 138, rfl⟩
abbrev main_v38 : Ref sig .tc := ⟨.hbm, 139, rfl⟩
abbrev main_cst_1 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_call6_c : Ref sig .tc := ⟨.hbm, 150, rfl⟩
abbrev main_call6_v0 : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_c_1 : Ref sig .tc := ⟨.hbm, 158, rfl⟩
abbrev main_call6_c_2 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_c_3 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_call6_cst : Ref sig .tc := ⟨.hbm, 170, rfl⟩
abbrev main_call6_v15 : Ref sig .tc := ⟨.hbm, 171, rfl⟩
abbrev main_v48 : Ref sig .tc := ⟨.hbm, 172, rfl⟩
abbrev main_v49 : Ref sig .tc := ⟨.hbm, 173, rfl⟩
abbrev main_call7_c : Ref sig .tc := ⟨.hbm, 174, rfl⟩
abbrev main_call7_v0 : Ref sig .tc := ⟨.hbm, 175, rfl⟩
abbrev main_call7_v1 : Ref sig .tc := ⟨.hbm, 176, rfl⟩
abbrev main_call7_c_0 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_c_1 : Ref sig .tc := ⟨.hbm, 182, rfl⟩
abbrev main_call7_c_2 : Ref sig .tc := ⟨.hbm, 183, rfl⟩
abbrev main_call7_v6 : Ref sig .tc := ⟨.hbm, 184, rfl⟩
abbrev main_call7_v7 : Ref sig .tc := ⟨.hbm, 185, rfl⟩
abbrev main_call7_v8 : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_c_3 : Ref sig .tc := ⟨.hbm, 190, rfl⟩
abbrev main_call7_v12 : Ref sig .tc := ⟨.hbm, 191, rfl⟩
abbrev main_call7_v13 : Ref sig .tc := ⟨.hbm, 192, rfl⟩
abbrev main_call7_v14 : Ref sig .tc := ⟨.hbm, 193, rfl⟩
abbrev main_call7_cst : Ref sig .tc := ⟨.hbm, 194, rfl⟩
abbrev main_call7_v15 : Ref sig .tc := ⟨.hbm, 195, rfl⟩
abbrev main_v50 : Ref sig .tc := ⟨.hbm, 196, rfl⟩
abbrev main_v51 : Ref sig .tc := ⟨.hbm, 197, rfl⟩
abbrev main_v52 : Ref sig .tc := ⟨.hbm, 198, rfl⟩
abbrev main_v53 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_call8_cst : Ref sig .tc := ⟨.hbm, 204, rfl⟩
abbrev main_call8_v0 : Ref sig .tc := ⟨.hbm, 205, rfl⟩
abbrev main_v58 : Ref sig .tc := ⟨.hbm, 206, rfl⟩
abbrev main_cst_2 : Ref sig .tc := ⟨.hbm, 207, rfl⟩
abbrev main_v59 : Ref sig .tc := ⟨.hbm, 208, rfl⟩
abbrev main_c : Ref sig .tc := ⟨.hbm, 209, rfl⟩
abbrev main_v60 : Ref sig .tc := ⟨.hbm, 210, rfl⟩
abbrev main_v61 : Ref sig .tc := ⟨.hbm, 211, rfl⟩
abbrev main_cst_3 : Ref sig .tc := ⟨.hbm, 212, rfl⟩
abbrev main_v62 : Ref sig .tc := ⟨.hbm, 213, rfl⟩
abbrev main_c_4 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩
abbrev main_v67 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S15000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S15000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  slices_S288x128_S128x128_0_0 : S288x128.Slices ![0, 0] S128x128
  slices_S288x128_S128x128_128_0 : S288x128.Slices ![128, 0] S128x128
  slices_S288x128_S32x128_256_0 : S288x128.Slices ![256, 0] S32x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  inb_S15000x128_S15000x128_0_0 : ∀ a, (![0, 0] : Fin 2 → Nat) a + S15000x128.size a ≤ S15000x128.size a
  h_S15000x128 : 0 < S15000x128.numel
  shapeCasts_S15000x128_S15000x128 : S15000x128.ShapeCasts S15000x128
  shapeCasts_S128x128_S128x128 : S128x128.ShapeCasts S128x128
  broadcasts_S1x128_S15000x128 : S1x128.Broadcasts S15000x128
  slices_S600000x128_S600000x24_0_0 : S600000x128.Slices ![0, 0] S600000x24
  dot_S10000x64_S64x128_S10000x128_1_0_0_1_n_n_wf : DotDims.WF S10000x64 S64x128 S10000x128 [1] [0] [0] [1] [] []
  dot_S600000x32_S32x128_S600000x128_1_0_0_1_n_n_wf : DotDims.WF S600000x32 S32x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  dot_S600000x128_S128x128_S600000x128_1_0_0_1_n_n_wf : DotDims.WF S600000x128 S128x128 S600000x128 [1] [0] [0] [1] [] []
  scatter_S128x128_S1_S128x24_01_n_1_0_wf : ScatterDims.WF S128x128 S1 S128x24 [0, 1] [] [1] 0
  scatter_S128_S1_S24_0_n_0_0_wf : ScatterDims.WF S128 S1 S24 [0] [] [0] 0
  dot_S15000x128_S128x128_S15000x128_1_0_0_1_n_n_wf : DotDims.WF S15000x128 S128x128 S15000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S15000x128.size a ≤ S600000x128.size a
  hwx4_0 : ∀ i : grid4.Coords, EltTy.bits .f32 = 32 ∨ (Rect.block (s := S600000x128) S15000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S15000x128.size a ≤ S600000x128.size a
  hwx4_3 : ∀ i : grid4.Coords, EltTy.bits .f32 = 32 ∨ (Rect.block (s := S600000x128) S15000x128.size (cc4_transform_3 i) (hinb4_3 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S128x128_S1_S128x24_01_n_1_0 : ScatterDims S128x128 S1 S128x24 where
  updateWindowDims := [0, 1]
  insertedWindowDims := []
  scatterDimsToOperandDims := [1]
  indexVectorDim := 0
  wf := scatter_S128x128_S1_S128x24_01_n_1_0_wf
def scatter_S128_S1_S24_0_n_0_0 : ScatterDims S128 S1 S24 where
  updateWindowDims := [0]
  insertedWindowDims := []
  scatterDimsToOperandDims := [0]
  indexVectorDim := 0
  wf := scatter_S128_S1_S24_0_n_0_0_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v31) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg19) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v58) S15000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S15000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S600000x32 : Shape := ⟨2, ![600000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S288x128 : Shape := ⟨2, ![288, 128]⟩
abbrev S128x24 : Shape := ⟨2, ![128, 24]⟩
abbrev S24 : Shape := ⟨1, ![24]⟩
abbrev S1x600000 : Shape := ⟨2, ![1, 600000]⟩
abbrev S600000 : Shape := ⟨1, ![600000]⟩
abbrev S100000x128 : Shape := ⟨2, ![100000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S600000x288 : Shape := ⟨2, ![600000, 288]⟩
abbrev S600000x24 : Shape := ⟨2, ![600000, 24]⟩
abbrev S1x24 : Shape := ⟨2, ![1, 24]⟩

abbrev nBuf : Space → Nat
  | .hbm => 182
  | .vmem => 0
  | .smem => 0
  | _ => 0

abbrev hbmTy0_0 (i : Nat) : BufTy := match i % 128 with
  | 0 => ⟨S100000x64, .f32⟩
  | 1 => ⟨S2x600000, .i32⟩
  | 2 => ⟨S600000x32, .f32⟩
  | 3 => ⟨S64x128, .f32⟩
  | 4 => ⟨S128, .f32⟩
  | 5 => ⟨S32x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S32x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S32x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S288x128, .f32⟩
  | 24 => ⟨S128, .f32⟩
  | 25 => ⟨S128x24, .f32⟩
  | 26 => ⟨S24, .f32⟩
  | 27 => ⟨S1x600000, .i32⟩
  | 28 => ⟨S600000, .i32⟩
  | 29 => ⟨S1x600000, .i32⟩
  | 30 => ⟨S600000, .i32⟩
  | 31 => ⟨S100000x128, .f32⟩
  | 32 => ⟨S1x128, .f32⟩
  | 33 => ⟨S100000x128, .f32⟩
  | 34 => ⟨S100000x128, .f32⟩
  | 35 => ⟨S600000x128, .f32⟩
  | 36 => ⟨S1x128, .f32⟩
  | 37 => ⟨S600000x128, .f32⟩
  | 38 => ⟨S600000x128, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S600000x128, .f32⟩
  | 49 => ⟨S_, .f32⟩
  | 50 => ⟨S600000x128, .f32⟩
  | 51 => ⟨S600000x128, .f32⟩
  | 52 => ⟨S_, .f32⟩
  | 53 => ⟨S100000x128, .f32⟩
  | 54 => ⟨S600000x1, .i32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S600000x128, .f32⟩
  | 75 => ⟨S1x128, .f32⟩
  | 76 => ⟨S600000x128, .f32⟩
  | 77 => ⟨S600000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x128, .f32⟩
  | 88 => ⟨S_, .f32⟩
  | 89 => ⟨S600000x128, .f32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S600000x128, .f32⟩
  | 114 => ⟨S1x128, .f32⟩
  | 115 => ⟨S600000x128, .f32⟩
  | 116 => ⟨S600000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S600000x128, .f32⟩
  | 127 => ⟨S_, .f32⟩
  | _ => ⟨S100000x64, .f32⟩

abbrev hbmTy0_1 (i : Nat) : BufTy := match i % 128 with
  | 0 => ⟨S600000x128, .f32⟩
  | 1 => ⟨S600000x128, .f32⟩
  | 2 => ⟨S_, .f32⟩
  | 3 => ⟨S100000x128, .f32⟩
  | 4 => ⟨S600000x1, .i32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x288, .f32⟩
  | 43 => ⟨S600000x128, .f32⟩
  | 44 => ⟨S1x128, .f32⟩
  | 45 => ⟨S600000x128, .f32⟩
  | 46 => ⟨S600000x128, .f32⟩
  | 47 => ⟨S_, .f32⟩
  | 48 => ⟨S600000x128, .f32⟩
  | 49 => ⟨S600000x128, .f32⟩
  | 50 => ⟨S600000x24, .f32⟩
  | 51 => ⟨S1x24, .f32⟩
  | 52 => ⟨S600000x24, .f32⟩
  | 53 => ⟨S600000x24, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_c_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call0_cst : Ref sig .tc := ⟨.hbm, 49, rfl⟩
abbrev main_call0_v0 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call1_cst : Ref sig .tc := ⟨.hbm, 64, rfl⟩
abbrev main_call1_v0 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call2_cst : Ref sig .tc := ⟨.hbm, 71, rfl⟩
abbrev main_call2_v0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_2 : Ref sig .tc := ⟨.hbm, 78, rfl⟩
abbrev main_v41 : Ref sig .tc := ⟨.hbm, 79, rfl⟩
abbrev main_v42 : Ref sig .tc := ⟨.hbm, 80, rfl⟩
abbrev main_c_3 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call3_cst : Ref sig .tc := ⟨.hbm, 88, rfl⟩
abbrev main_call3_v0 : Ref sig .tc := ⟨.hbm, 89, rfl⟩
abbrev main_v49 : Ref sig .tc := ⟨.hbm, 90, rfl⟩
abbrev main_cst_4 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_5 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_call4_cst : Ref sig .tc := ⟨.hbm, 103, rfl⟩
abbrev main_call4_v0 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_call5_cst : Ref sig .tc := ⟨.hbm, 110, rfl⟩
abbrev main_call5_v0 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_6 : Ref sig .tc := ⟨.hbm, 117, rfl⟩
abbrev main_v70 : Ref sig .tc := ⟨.hbm, 118, rfl⟩
abbrev main_v71 : Ref sig .tc := ⟨.hbm, 119, rfl⟩
abbrev main_c_7 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call6_cst : Ref sig .tc := ⟨.hbm, 127, rfl⟩
abbrev main_call6_v0 : Ref sig .tc := ⟨.hbm, 128, rfl⟩
abbrev main_v78 : Ref sig .tc := ⟨.hbm, 129, rfl⟩
abbrev main_cst_8 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_9 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call7_cst : Ref sig .tc := ⟨.hbm, 142, rfl⟩
abbrev main_call7_v0 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_call8_cst : Ref sig .tc := ⟨.hbm, 149, rfl⟩
abbrev main_call8_v0 : Ref sig .tc := ⟨.hbm, 150, rfl⟩
abbrev main_v94 : Ref sig .tc := ⟨.hbm, 151, rfl⟩
abbrev main_c_10 : Ref sig .tc := ⟨.hbm, 152, rfl⟩
abbrev main_v95 : Ref sig .tc := ⟨.hbm, 153, rfl⟩
abbrev main_v96 : Ref sig .tc := ⟨.hbm, 154, rfl⟩
abbrev main_c_11 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_12 : Ref sig .tc := ⟨.hbm, 161, rfl⟩
abbrev main_v102 : Ref sig .tc := ⟨.hbm, 162, rfl⟩
abbrev main_v103 : Ref sig .tc := ⟨.hbm, 163, rfl⟩
abbrev main_c_13 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_call9_cst : Ref sig .tc := ⟨.hbm, 175, rfl⟩
abbrev main_call9_v0 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  concatenates_S600000x128_S600000x128_S600000x32_S600000x288_d1 : Shape.Concatenates [S600000x128, S600000x128, S600000x32] S600000x288 1
  bcast_S24_S1x24_1 : S24.BroadcastsInDim S1x24 (![1] : Fin 1 → Fin S1x24.rank)
  bcast_S1x24_S600000x24_0_1 : S1x24.BroadcastsInDim S600000x24 (![0, 1] : Fin 2 → Fin S600000x24.rank)
  dot_S100000x64_S64x128_S100000x128_1_0_0_1_n_n_wf : DotDims.WF S100000x64 S64x128 S100000x128 [1] [0] [0] [1] [] []
  dot_S600000x32_S32x128_S600000x128_1_0_0_1_n_n_wf : DotDims.WF S600000x32 S32x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S600000x288_S288x128_S600000x128_1_0_0_1_n_n_wf : DotDims.WF S600000x288 S288x128 S600000x128 [1] [0] [0] [1] [] []
  dot_S600000x128_S128x24_S600000x24_1_0_0_1_n_n_wf : DotDims.WF S600000x128 S128x24 S600000x24 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x288_S288x128_S600000x128_1_0_0_1_n_n : DotDims S600000x288 S288x128 S600000x128 where
  lhsContracting := [1]
  rhsContracting := [0]
  lhsNonContracting := [0]
  rhsNonContracting := [1]
  lhsBatch := []
  rhsBatch := []
  wf := dot_S600000x288_S288x128_S600000x128_1_0_0_1_n_n_wf
def dot_S600000x128_S128x24_S600000x24_1_0_0_1_n_n : DotDims S600000x128 S128x24 S600000x24 where
  lhsContracting := [1]
  rhsContracting := [0]
  lhsNonContracting := [0]
  rhsNonContracting := [1]
  lhsBatch := []
  rhsBatch := []
  wf := dot_S600000x128_S128x24_S600000x24_1_0_0_1_n_n_wf

class Facts : Prop extends Facts₀ where

variable [Facts]
-- ==== Proof.KOps.lean ====
/-
  The host-side stages of the kernel program between its regions, as functions of arrays: the index vector with negative
  entries wrapped, a row gather that fills with a not-a-number pattern where an index is out of range, the edge
  embedding, the rectifier, the accumulation of edge messages onto their destination nodes, and the classifier's first
  layer from two gathered arrays and the edge attributes. Each is the composition of the printed operations, in order.
-/
import proofs.«426136_j14405320310896_3_alg».proof.Proof.Gen.KernelIdeal

noncomputable section

namespace Cert.KernelIdeal.KOps

open Cert.KernelIdeal Cert.KernelIdeal.Facts₀ Cert.KernelIdeal.Facts Idealize.ShloMosaic Idealize.ShloMosaic.TcCoe

variable {F : FTy → Type} [FloatOps F]

/-- The source index vector: row 0 of the edge-index argument. -/
def srcOf (ei : IVec S2x600000 32) : IVec S600000 32 :=
  shapeCast S600000 (extractStridedSlice S1x600000 ![0, 0] ei slices_S2x600000_S1x600000_0_0) shapeCasts_S1x600000_S600000

/-- The destination index vector: row 1 of the edge-index argument. -/
def dstOf (ei : IVec S2x600000 32) : IVec S600000 32 :=
  shapeCast S600000 (extractStridedSlice S1x600000 ![1, 0] ei slices_S2x600000_S1x600000_1_0) shapeCasts_S1x600000_S600000

/-- A vector as a one-row matrix (the bias rows the regions read). -/
def rowV (b : FVec F S128 .f32) : FVec F S1x128 .f32 := shapeCast S1x128 b shapeCasts_S128_S1x128

/-- An index vector with its negative entries moved up by the number of nodes. -/
def wrap (src : IVec S600000 32) : IVec S600000 32 :=
  select (cmpi .slt src (broadcastInDim S600000 ![] bcast_S_S600000 (constantI S_ 32 0#32)))
    (addi src (broadcastInDim S600000 ![] bcast_S_S600000 (constantI S_ 32 100000#32))) src

/-- The wrapped index vector as a one-column matrix of start indices. -/
def col (src : IVec S600000 32) : IVec S600000x1 32 :=
  broadcastInDim S600000x1 ![0] bcast_S600000_S600000x1_0 (wrap src)

/-- Per edge, whether its wrapped index lies in `[0, 99999]`. -/
def inRange (src : IVec S600000 32) : IVec S600000 1 :=
  Host.reduce IntOp.andi
    (andi (cmpi .sge (col src) (broadcastInDim S600000x1 ![] bcast_S_S600000x1 (constantI S_ 32 0#32)))
      (cmpi .sle (col src) (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The rows of `h` at the wrapped indices. -/
def rows (h : FVec F S100000x128 .f32) (src : IVec S600000 32) : FVec F S600000x128 .f32 :=
  Host.gather gather_S100000x128_S600000x1_S600000x128_1_0_n_n_0_1_1128 h (col src)

/-- The rows of `h` at the wrapped indices where in range, a not-a-number pattern elsewhere. -/
def take (h : FVec F S100000x128 .f32) (src : IVec S600000 32) : FVec F S600000x128 .f32 :=
  select (broadcastInDim S600000x128 ![0] bcast_S600000_S600000x128_0 (inRange src)) (rows h src)
    (broadcastInDim S600000x128 ![] bcast_S_S600000x128 (constant S_ .f32 0x7FC00000#32))

/-- The edge embedding: edge attributes times a weight matrix plus a bias row. -/
def embed (ea : FVec F S600000x32 .f32) (ew : FVec F S32x128 .f32) (eb : FVec F S128 .f32) : FVec F S600000x128 .f32 :=
  addf (Host.dotGeneral dot_S600000x32_S32x128_S600000x128_1_0_0_1_n_n none ea ew)
    (broadcastInDim S600000x128 ![0, 1] bcast_S1x128_S600000x128_0_1 (broadcastInDim S1x128 ![1] bcast_S128_S1x128_1 eb))

/-- The rectifier on an edge array. -/
def reluE (x : FVec F S600000x128 .f32) : FVec F S600000x128 .f32 :=
  maximumf x (broadcastInDim S600000x128 ![] bcast_S_S600000x128 (constant S_ .f32 0x00000000#32))

/-- Edge messages accumulated onto their destination nodes, from zeros. -/
def aggregate (dst : IVec S600000 32) (msg : FVec F S600000x128 .f32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) msg

/-- One layer's aggregated messages: rectified (gathered source state plus edge embedding), summed per destination. -/
def messages (h : FVec F S100000x128 .f32) (src dst : IVec S600000 32) (ea : FVec F S600000x32 .f32)
    (ew : FVec F S32x128 .f32) (eb : FVec F S128 .f32) : FVec F S100000x128 .f32 :=
  aggregate dst (reluE (addf (take h src) (embed ea ew eb)))

/-- The classifier's first layer from two edge arrays of node states and the edge attributes: each times its slice of the
    weight matrix, summed, plus the bias row, rectified. -/
def hidden (A B : FVec F S600000x128 .f32) (ea : FVec F S600000x32 .f32) (w : FVec F S288x128 .f32) (b : FVec F S128 .f32) :
    FVec F S600000x128 .f32 :=
  reluE (addf (addf (addf
      (Host.dotGeneral dot_S600000x128_S128x128_S600000x128_1_0_0_1_n_n none A
        (extractStridedSlice S128x128 ![0, 0] w slices_S288x128_S128x128_0_0))
      (Host.dotGeneral dot_S600000x128_S128x128_S600000x128_1_0_0_1_n_n none B
        (extractStridedSlice S128x128 ![128, 0] w slices_S288x128_S128x128_128_0)))
      (Host.dotGeneral dot_S600000x32_S32x128_S600000x128_1_0_0_1_n_n none ea
        (extractStridedSlice S32x128 ![256, 0] w slices_S288x128_S32x128_256_0)))
    (broadcastInDim S600000x128 ![0, 1] bcast_S1x128_S600000x128_0_1 (broadcastInDim S1x128 ![1] bcast_S128_S1x128_1 b)))

/-- The classifier's first layer at the node states gathered at the source and at the destination indices. -/
def edgeHidden (h : FVec F S100000x128 .f32) (src dst : IVec S600000 32) (ea : FVec F S600000x32 .f32)
    (w : FVec F S288x128 .f32) (b : FVec F S128 .f32) : FVec F S600000x128 .f32 :=
  hidden (take h src) (take h dst) ea w b

/-- The second classifier weight, written into the first 24 columns of a 128-by-128 array of zeros. -/
def padW (w2 : FVec F S128x24 .f32) : FVec F S128x128 .f32 :=
  Host.scatter scatter_S128x128_S1_S128x24_01_n_1_0 (fun _ b => b)
    (broadcastInDim S128x128 ![] bcast_S_S128x128 (constant S_ .f32 0x00000000#32))
    (broadcastInDim S1 ![] bcast_S_S1 (constantI S_ 32 0#32)) w2

/-- The second classifier bias, written into the first 24 entries of 128 zeros, as a one-row matrix. -/
def padB (b2 : FVec F S24 .f32) : FVec F S1x128 .f32 :=
  shapeCast S1x128 (Host.scatter scatter_S128_S1_S24_0_n_0_0 (fun _ b => b)
    (broadcastInDim S128 ![] bcast_S_S128 (constant S_ .f32 0x00000000#32))
    (broadcastInDim S1 ![] bcast_S_S1 (constantI S_ 32 0#32)) b2) shapeCasts_S128_S1x128

end Cert.KernelIdeal.KOps

end
-- ==== Proof.Spec.lean ====
/-
  The stages of the network as functions of whole arrays, index by index, on the extended reals.

  A dense stage sends rows `x` (one row per node or per edge), a weight matrix `w` and a bias row `b` to the array whose
  entry `(r, j)` is `∑ k, x (r, k) · w (k, j) + b (0, j)`; the rectifier takes the larger of an entry and zero; a node
  update adds the aggregated messages to the node states, applies a dense stage, the rectifier, a second dense stage
  and the rectifier again. Sums are over `Fin K` for the contracted extent `K`; nothing here depends on a program.
-/
import Idealize.ShloMosaic.PureOps.Ideal
import Idealize.ShloMosaic.Lib.ValueIdx

noncomputable section

open scoped BigOperators

namespace Cert.GnnSpec

open Idealize.ShloMosaic Idealize.ShloMosaic.ValueIdx

/-- Rows times a weight matrix plus a bias row: entry `(r, j)` is `∑ k, x (r, k) · w (k, j) + b (0, j)`. -/
def dense {R K C : Nat} (x : (⟨2, ![R, K]⟩ : Shape).Idx → EReal) (w : (⟨2, ![K, C]⟩ : Shape).Idx → EReal)
    (b : (⟨2, ![1, C]⟩ : Shape).Idx → EReal) : (⟨2, ![R, C]⟩ : Shape).Idx → EReal :=
  fun i => (∑ k : Fin K, x (ix2 (i 0) k) * w (ix2 k (i 1))) + b (ix2 0 (i 1))

/-- A vector laid out as a one-row matrix: entry `(0, j)` is `v j`. -/
def rowOf {C : Nat} (v : (⟨1, ![C]⟩ : Shape).Idx → EReal) : (⟨2, ![1, C]⟩ : Shape).Idx → EReal := fun i => v (ix1 (i 1))

/-- The rectifier, entry by entry: the larger of the entry and zero. -/
def relu {s : Shape} (y : s.Idx → EReal) : s.Idx → EReal := fun i => max (y i) 0

/-- A node update: the node states plus the aggregated messages, through two dense stages, each followed by the
    rectifier. -/
def update {R H : Nat} (h a : (⟨2, ![R, H]⟩ : Shape).Idx → EReal)
    (w1 : (⟨2, ![H, H]⟩ : Shape).Idx → EReal) (b1 : (⟨2, ![1, H]⟩ : Shape).Idx → EReal)
    (w2 : (⟨2, ![H, H]⟩ : Shape).Idx → EReal) (b2 : (⟨2, ![1, H]⟩ : Shape).Idx → EReal) :
    (⟨2, ![R, H]⟩ : Shape).Idx → EReal :=
  relu (dense (relu (dense (fun i => h i + a i) w1 b1)) w2 b2)

theorem dense_apply {R K C : Nat} (x : (⟨2, ![R, K]⟩ : Shape).Idx → EReal) (w : (⟨2, ![K, C]⟩ : Shape).Idx → EReal)
    (b : (⟨2, ![1, C]⟩ : Shape).Idx → EReal) (r : Fin R) (j : Fin C) :
    dense x w b (ix2 r j) = (∑ k : Fin K, x (ix2 r k) * w (ix2 k j)) + b (ix2 0 j) := rfl

theorem relu_apply {s : Shape} (y : s.Idx → EReal) (i : s.Idx) : relu y i = max (y i) 0 := rfl

end Cert.GnnSpec

end
-- ==== Proof.Dense0.lean ====
import proofs.«426136_j14405320310896_3_alg».proof.Proof.Gen.KernelIdeal.Frame
import proofs.«426136_j14405320310896_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Dense0

open Cert.KernelIdeal Cert.KernelIdeal.Gen Idealize.ShloMosaic Idealize.ShloMosaic.TcCoe Idealize.SL.Sem Idealize.ShloMosaic.ValueIdx
open Idealize.ShloMosaic.Pipeline (Dat)

/-! ## The product's operand indices, axis by axis

At the output index `i` and the contraction index `q`, the left operand is read at `(i 0, q)` and the right operand
at `(q, i 1)`. -/

theorem lhs_axis0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl

theorem lhs_axis1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

theorem rhs_axis0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

theorem rhs_axis1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ## One tile of rows -/

/-- A tile of rows times the weights, from a zero accumulator, at `(p, q)`: the sum over `k` of `x (p, k) · w (k, q)`. -/
theorem product_apply (x : FVec Ideal S10000x64 .f32) (w : FVec Ideal S64x128 .f32) (p : Fin 10000) (q : Fin 128) :
    matmul dot_S10000x64_S64x128_S10000x128_1_0_0_1_n_n none x w (constant (F := Ideal) S10000x128 .f32 0x00000000#32) (ix2 p q)
      = ∑ k : Fin 64, x (ix2 p k) * w (ix2 k q) := by
  refine (Ideal.matmul_constant_zero_apply dot_S10000x64_S64x128_S10000x128_1_0_0_1_n_n none x w (ix2 p q)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores for one tile, at `(p, q)`: the tile's row `p` times the weights' column `q`, plus the bias
    row at `q`. -/
theorem tile_apply (x : Vec Ideal S10000x64 .f32) (w : Vec Ideal S64x128 .f32) (b : Vec Ideal S1x128 .f32) (p : Fin 10000) (q : Fin 128) :
    k0_pay1 x w b (ix2 p q) = (∑ k : Fin 64, x (ix2 p k) * w (ix2 k q)) + b (ix2 (0 : Fin 1) q) := by
  unfold k0_pay1
  refine (addf_apply _ _ _).trans ?_
  refine congrArg₂ (· + ·) (product_apply x w p q) ?_
  rw [shapeCast_self]
  exact broadcastTo_1b_ab_apply b _ p q

/-- Row `p` of a tile is a row `r` of the whole array, and the weights and the bias row are whole in every tile: then what
    the body stores at `(p, q)` is the dense stage of the whole arrays at `(r, q)`. The tile's entries are tied to the
    array's by their coordinates' values. -/
theorem tile_point (X : S100000x64.Idx → EReal) (W : S64x128.Idx → EReal) (B : S1x128.Idx → EReal)
    (x : Vec Ideal S10000x64 .f32) (w : Vec Ideal S64x128 .f32) (b : Vec Ideal S1x128 .f32)
    (j : S10000x128.Idx) (i : S100000x128.Idx)
    (hx : ∀ (y : S10000x64.Idx) (z : S100000x64.Idx), (y 0).val = (j 0).val → (z 0).val = (i 0).val → (z 1).val = (y 1).val → x y = X z)
    (hw : ∀ y : S64x128.Idx, w y = W y) (hb : ∀ y : S1x128.Idx, b y = B y)
    (hq : (i 1).val = (j 1).val) :
    k0_pay1 x w b j = Cert.GnnSpec.dense X W B i := by
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hq
  rw [tile_apply, Cert.GnnSpec.dense_apply, hb]
  refine congrArg (· + _) (Finset.sum_congr rfl fun k _ => ?_)
  rw [hx (ix2 p k) (ix2 r k) rfl rfl rfl, hw]

/-! ## From the tiles to the array

Tile `t` of the rows and of the result starts at row `10000 · t`; the weights and the bias row have one block, the
whole array. The ten tiles cover the result: row `r` lies in tile `r / 10000`. -/

theorem hz : (![0, 0] : Fin 2 → Nat) = fun _ => 0 := funext fun a => by fin_cases a <;> rfl

/-- The block indices at every grid point: the rows' and the result's tile is the point itself on axis 0, every other
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point `t` writes back is tile `t` of the dense stage of the arrays as the region finds them. -/
theorem flushed_eq (c : Dev nD) (t : Fin cfg0.N) :
    (dat0 (F := Ideal) V c).flushed 3 t = ((cfg0.win 3).blk t).view.read (Elt Ideal)
      (Cert.GnnSpec.dense (R := 100000) (K := 64) (C := 128) (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x128) hz, View.ld_unit_zero (S := S1x128) hz]
  obtain ⟨e0, e1, e2, e3, e4, e5, e6, e7⟩ := idx_facts t
  funext j
  refine tile_point (V c main_arg0) (V c main_arg3) (V c main_v4) (iblk0 V c 0 t) (iblk0 V c 1 t) (iblk0 V c 2 t) j
    (((cfg0.win 3).blk t).view.emb j) ?_ ?_ ?_ ?_
  · intro y z h0 h1 h2
    have h1' : (z 0).val = win0_3.index t (0 : Fin 2) * 10000 + 1 * (j 0).val := h1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 64 + 1 * (y 1).val = (z 1).val; omega
  · intro y
    show V c main_arg3 (((cfg0.win 1).blk t).view.emb y) = V c main_arg3 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · intro y
    show V c main_v4 (((cfg0.win 2).blk t).view.emb y) = V c main_v4 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (1 : Fin 2) * 128 + 1 * (j 1).val = (j 1).val
    omega

/-- An index of the result is in tile `t` iff each coordinate is in the tile's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v5).slice (win0_3.rect t)).set ↔ _
  rw [View.set_slice_whole, Rect.mem_set_unit]
  exact Iff.rfl

/-- Every index of the result is in some tile: row `r` is in tile `r / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the region: the dense stage of the rows, the weights and the bias row as the region finds
    them, index by index. -/
theorem final (c : Dev nD) :
    (dat0 (F := Ideal) V c).arrAt 3 cfg0.N = Cert.GnnSpec.dense (V c main_arg0) (V c main_arg3) (V c main_v4) :=
  (dat0 V c).arrAt_eq_of_cover 3 _ (fun t _ => flushed_eq V c t) cover

end Cert.KernelIdeal.Dense0

end
-- ==== Proof.ChainBase.lean ====
/-
  The kernel program's buffers up to the first region's exit, as functions of the launch memory: the operations before the
  first region write only the two index vectors and the first bias row, so every other buffer is as launched; the first
  region leaves the projected node features in its result buffer and nothing else changed.
-/
import proofs.«426136_j14405320310896_3_alg».proof.Proof.Gen.KernelIdeal.Frame
import proofs.«426136_j14405320310896_3_alg».proof.Proof.KOps
import proofs.«426136_j14405320310896_3_alg».proof.Proof.Dense0
import Idealize.ShloMosaic.Lib.StableHlo.Run

set_option maxRecDepth 65536

noncomputable section

namespace Cert.KernelIdeal.ChainBase

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers the operations before the first region write. -/
abbrev written0 : List (Ref sig .tc) := [main_v0, main_v1, main_v2, main_v3, main_v4]

theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer those operations do not write holds its launch contents at the first region's entry. -/
theorem W1_keep (c : Dev nD) (b : Ref sig .tc) (hb : b ∉ written0) :
    W1 m ρ c (Proc.devRef .tc b) = m ((c : Thread nD τ).loc b) :=
  (StableHlo.after_of_writes_sub hostOps0 _ writes0 hb).trans rfl

theorem W1_v1 (c : Dev nD) : W1 m ρ c (Proc.devRef .tc main_v1) = KOps.srcOf (m ((c : Thread nD τ).loc main_arg1)) := by
  simp only [W1, hostOps0]; after_results_simp
  rfl

theorem W1_v3 (c : Dev nD) : W1 m ρ c (Proc.devRef .tc main_v3) = KOps.dstOf (m ((c : Thread nD τ).loc main_arg1)) := by
  simp only [W1, hostOps0]; after_results_simp
  rfl

theorem W1_v4 (c : Dev nD) : W1 m ρ c (Proc.devRef .tc main_v4) = KOps.rowV (F := Ideal) (m ((c : Thread nD τ).loc main_arg4)) := by
  simp only [W1, hostOps0]; after_results_simp
  rfl

/-- The first region's result: the node features times the projection weights plus the bias row. -/
theorem W2_v5 (c : Dev nD) : W2 m ρ c (Proc.devRef .tc main_v5)
    = Cert.GnnSpec.dense (m ((c : Thread nD τ).loc main_arg0)) (m ((c : Thread nD τ).loc main_arg3))
        (KOps.rowV (F := Ideal) (m ((c : Thread nD τ).loc main_arg4))) := by
  refine (W2_arr m ρ c 3).trans ((Dense0.final (V1 m ρ) c).trans ?_)
  show Cert.GnnSpec.dense (W1 m ρ c (Proc.devRef .tc main_arg0)) (W1 m ρ c (Proc.devRef .tc main_arg3)) (W1 m ρ c (Proc.devRef .tc main_v4)) = _
  rw [W1_keep m ρ c main_arg0 (by decide), W1_keep m ρ c main_arg3 (by decide), W1_v4]

/-- A buffer that is neither one of the first region's arrays nor written before it holds its launch contents after it. -/
theorem W2_keep (c : Dev nD) (b : Ref sig .tc) (hr : ∀ w, Pipeline.arrRef spec0 w ≠ b) (hb : b ∉ written0) :
    W2 m ρ c (Proc.devRef .tc b) = m ((c : Thread nD τ).loc b) :=
  (W2_of_ne m ρ c b hr).trans (W1_keep m ρ c b hb)

theorem W2_v1 (c : Dev nD) : W2 m ρ c (Proc.devRef .tc main_v1) = KOps.srcOf (m ((c : Thread nD τ).loc main_arg1)) :=
  (W2_of_ne m ρ c main_v1 (by decide)).trans (W1_v1 m ρ c)

theorem W2_v3 (c : Dev nD) : W2 m ρ c (Proc.devRef .tc main_v3) = KOps.dstOf (m ((c : Thread nD τ).loc main_arg1)) :=
  (W2_of_ne m ρ c main_v3 (by decide)).trans (W1_v3 m ρ c)

end Cert.KernelIdeal.ChainBase

end
-- ==== Proof.Gine1.lean ====
/-
  The value of the first node-update region: after the region its result array holds, entry by entry, the node update
  of the arrays as the region finds them, `max (max ((h + agg) · w₁ + b₁) 0 · w₂ + b₂) 0`.

  First a product of a 10000-row block with a 128 × 128 matrix accumulated from zero, read at an entry as a sum over the
  128 contracted positions; then the body's result at an entry of a block; then the ten row tiles: the body's result on
  tile `t` is rows `10000 t … 10000 t + 9999` of the node update, and row `r` lies in tile `r / 10000`, so the tiles
  cover the array.
-/
import proofs.«426136_j14405320310896_3_alg».proof.Proof.Gen.KernelIdeal.Frame
import proofs.«426136_j14405320310896_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Gine1

open Cert.KernelIdeal Cert.KernelIdeal.Gen Idealize.ShloMosaic Idealize.ShloMosaic.TcCoe Idealize.SL.Sem
open Idealize.ShloMosaic.ValueIdx
open Idealize.ShloMosaic.Pipeline (Dat)

/-! ## A product of a block of rows with a square matrix, entry by entry -/

/-- The left operand's row coordinate is the result's. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the result's. -/
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A product accumulated from zero: entry `(p, q)` is `∑ k, l (p, k) · r (k, q)`. -/
theorem matmul_zero_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  show FloatOps.matmul dot_S10000x128_S128x128_S10000x128_1_0_0_1_n_n none l r (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's result at an entry -/

/-- The body's result at entry `(p, q)` of a block: both dense stages and both rectifiers, of the loaded blocks. -/
theorem pay_apply (v0 v2 : Vec Ideal S10000x128 .f32) (v5 v13 : Vec Ideal S128x128 .f32) (v7 v15 : Vec Ideal S1x128 .f32)
    (p : Fin 10000) (q : Fin 128) :
    k1_pay1 (F := Ideal) v0 v2 v5 v7 v13 v15 (ix2 p q)
      = max ((∑ k : Fin 128, max ((∑ k' : Fin 128, (v0 (ix2 p k') + v2 (ix2 p k')) * v5 (ix2 k' k)) + v7 (ix2 0 k)) 0 * v13 (ix2 k q)) + v15 (ix2 0 q)) 0 := by
  unfold k1_pay1
  simp only [shapeCast_self]
  rw [maximumf_apply, addf_apply, matmul_zero_apply, broadcastTo_1b_ab_apply, broadcast_apply, Ideal.ofBits_def, Ideal.ofBits_zero_f32]
  refine congrArg (fun s => max (s + v15 (ix2 0 q)) 0) (Finset.sum_congr rfl fun k _ => ?_)
  rw [maximumf_apply, addf_apply, matmul_zero_apply, broadcastTo_1b_ab_apply, broadcast_apply]
  refine congrArg (fun s => max (s + v7 (ix2 0 k)) 0 * v13 (ix2 k q)) (Finset.sum_congr rfl fun k' _ => ?_)
  rw [addf_apply]

/-! ## From the row tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the node arrays' and the result's blocks are row tile `t`, the weights' and the
    biases' the whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's result on row tile `n`: when the two node blocks are rows `10000 n + p` of the node arrays and the other
    four blocks are the weight and bias arrays, entry `y` of the result is the node update at the entry `i` of row
    `10000 n + y₀` and column `y₁`. -/
theorem tile_eq (x0 x1 : Vec Ideal S10000x128 .f32) (x2 x4 : Vec Ideal S128x128 .f32) (x3 x5 : Vec Ideal S1x128 .f32)
    (h a : S100000x128.Idx → EReal) (w1 w2 : S128x128.Idx → EReal) (b1 b2 : S1x128.Idx → EReal)
    (n : Nat) (hn : n < 10)
    (e0 : ∀ (p : Fin 10000) (k : Fin 128), x0 (ix2 p k) = h (ix2 (⟨10000 * n + p.val, by omega⟩ : Fin 100000) k))
    (e1 : ∀ (p : Fin 10000) (k : Fin 128), x1 (ix2 p k) = a (ix2 (⟨10000 * n + p.val, by omega⟩ : Fin 100000) k))
    (e2 : x2 = w1) (e3 : x3 = b1) (e4 : x4 = w2) (e5 : x5 = b2)
    (y : S10000x128.Idx) (i : S100000x128.Idx) (hi0 : (i 0).val = 10000 * n + (y 0).val) (hi1 : (i 1).val = (y 1).val) :
    k1_pay1 (F := Ideal) x0 x1 x2 x3 x4 x5 y = Cert.GnnSpec.update h a w1 b1 w2 b2 i := by
  subst e2 e3 e4 e5
  obtain ⟨p, q, rfl⟩ : ∃ (p : Fin 10000) (q : Fin 128), y = ix2 p q := ⟨y 0, y 1, eq_ix2 y⟩
  have hb : 10000 * n + p.val < 100000 := by have := p.isLt; omega
  obtain ⟨r, s, rfl⟩ : ∃ (r : Fin 100000) (s : Fin 128), i = ix2 r s := ⟨i 0, i 1, eq_ix2 i⟩
  obtain rfl : r = ⟨10000 * n + p.val, hb⟩ := Fin.ext hi0
  obtain rfl : s = q := Fin.ext hi1
  rw [pay_apply]
  show _ = max ((∑ k : Fin 128, max ((∑ k' : Fin 128, (h (ix2 _ k') + a (ix2 _ k')) * x2 (ix2 k' k)) + x3 (ix2 0 k)) 0 * x4 (ix2 k s)) + x5 (ix2 0 s)) 0
  simp only [e0, e1]

/-- A node block at point `t` is rows `10000 t + p` of its array. -/
theorem rows_apply (A : S100000x128.Idx → EReal) (n : Nat) (hn : n < 10) (e : S10000x128.Idx → S100000x128.Idx)
    (he0 : ∀ y, (e y 0).val = n * 10000 + 1 * (y 0).val) (he1 : ∀ y, (e y 1).val = 0 * 128 + 1 * (y 1).val)
    (p : Fin 10000) (k : Fin 128) : A (e (ix2 p k)) = A (ix2 (⟨10000 * n + p.val, by omega⟩ : Fin 100000) k) := by
  refine congrArg A (funext fun a => Fin.ext ?_)
  match a with
  | ⟨0, _⟩ => show (e (ix2 p k) 0).val = 10000 * n + p.val; rw [he0]; show n * 10000 + 1 * p.val = _; omega
  | ⟨1, _⟩ => show (e (ix2 p k) 1).val = k.val; rw [he1]; show 0 * 128 + 1 * k.val = _; omega

/-- WHAT POINT `t` WRITES BACK is row tile `t` of the node update of the arrays as the region finds them. -/
theorem flushed_eq (c : Dev nD) (t : Fin cfg1.N) :
    (dat1 (F := Ideal) V c).flushed 6 t = ((cfg1.win 6).blk t).view.read (Elt Ideal)
      (Cert.GnnSpec.update (V c main_v5) (V c main_v15) (V c main_arg7) (V c main_v16) (V c main_arg9) (V c main_v17)) := by
  show (cfg1.win 6).cut (grid1.coords t) ((dat1 V c).after 6 t) = _
  rw [after1_6]
  unfold out1_6
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51, e60, e61⟩ := idx_facts t
  have ht : t.val < 10 := t.isLt.trans_eq N_1
  funext j
  rw [View.read_apply]
  refine tile_eq _ _ _ _ _ _ _ _ _ _ _ _ t.val ht ?_ ?_ ?_ ?_ ?_ ?_ _ _ ?_ ?_
  · intro p k
    unfold iblk1
    rw [View.read_apply]
    exact rows_apply (V c main_v5) t.val ht (((cfg1.win 0).blk t).view.emb)
      (fun y => by show win1_0.index t (0 : Fin 2) * 10000 + 1 * (y 0).val = _; rw [e00])
      (fun y => by show win1_0.index t (1 : Fin 2) * 128 + 1 * (y 1).val = _; rw [e01]) p k
  · intro p k
    unfold iblk1
    rw [View.read_apply]
    exact rows_apply (V c main_v15) t.val ht (((cfg1.win 1).blk t).view.emb)
      (fun y => by show win1_1.index t (0 : Fin 2) * 10000 + 1 * (y 0).val = _; rw [e10])
      (fun y => by show win1_1.index t (1 : Fin 2) * 128 + 1 * (y 1).val = _; rw [e11]) p k
  · funext y
    unfold iblk1
    rw [View.read_apply]
    refine congrArg (V c main_arg7) (funext fun a => Fin.ext ?_)
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  · funext y
    unfold iblk1
    rw [View.read_apply]
    refine congrArg (V c main_v16) (funext fun a => Fin.ext ?_)
    match a with
    | ⟨0, _⟩ => show win1_3.index t (0 : Fin 2) * 1 + 1 * (y 0).val = (y 0).val; rw [e30]; omega
    | ⟨1, _⟩ => show win1_3.index t (1 : Fin 2) * 128 + 1 * (y 1).val = (y 1).val; rw [e31]; omega
  · funext y
    unfold iblk1
    rw [View.read_apply]
    refine congrArg (V c main_arg9) (funext fun a => Fin.ext ?_)
    match a with
    | ⟨0, _⟩ => show win1_4.index t (0 : Fin 2) * 128 + 1 * (y 0).val = (y 0).val; rw [e40]; omega
    | ⟨1, _⟩ => show win1_4.index t (1 : Fin 2) * 128 + 1 * (y 1).val = (y 1).val; rw [e41]; omega
  · funext y
    unfold iblk1
    rw [View.read_apply]
    refine congrArg (V c main_v17) (funext fun a => Fin.ext ?_)
    match a with
    | ⟨0, _⟩ => show win1_5.index t (0 : Fin 2) * 1 + 1 * (y 0).val = (y 0).val; rw [e50]; omega
    | ⟨1, _⟩ => show win1_5.index t (1 : Fin 2) * 128 + 1 * (y 1).val = (y 1).val; rw [e51]; omega
  · show win1_6.index t (0 : Fin 2) * 10000 + 1 * (j 0).val = 10000 * t.val + (j 0).val
    rw [e60]; omega
  · show win1_6.index t (1 : Fin 2) * 128 + 1 * (j 1).val = (j 1).val
    rw [e61]; omega

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v18).slice (win1_6.rect t)).set ↔ _
  rw [View.set_slice_whole, Rect.mem_set_unit]
  exact Iff.rfl

/-- Row `r` is in row tile `r / 10000`: the ten tiles cover the array. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, -, -, -, -, -, -, e60, e61⟩ := idx_facts t
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; rw [e60, ht]; omega
  | ⟨1, _⟩ => show win1_6.index t (1 : Fin 2) * 128 ≤ (i 1).val ∧ (i 1).val < win1_6.index t (1 : Fin 2) * 128 + 128; rw [e61]; omega

/-- THE ARRAY after the region: the node update of the arrays as the region finds them. -/
theorem final (c : Dev nD) :
    (dat1 (F := Ideal) V c).arrAt 6 cfg1.N
      = Cert.GnnSpec.update (V c main_v5) (V c main_v15) (V c main_arg7) (V c main_v16) (V c main_arg9) (V c main_v17) :=
  (dat1 (F := Ideal) V c).arrAt_eq_of_cover 6 _ (fun t _ => flushed_eq V c t) cover

end Cert.KernelIdeal.Gine1

end
-- ==== Proof.ChainL1.lean ====
/-
  One message-passing layer of the kernel program, from the contents at the previous region's exit to the contents at this
  layer's region exit: the host operations in between write only their own intermediate buffers, ending with the
  aggregated messages and the two bias rows; the region then leaves the updated node states in its result buffer.
-/
import proofs.«426136_j14405320310896_3_alg».proof.Proof.Gen.KernelIdeal.Frame
import proofs.«426136_j14405320310896_3_alg».proof.Proof.KOps
import proofs.«426136_j14405320310896_3_alg».proof.Proof.Gine1
import Idealize.ShloMosaic.Lib.StableHlo.Run

set_option maxRecDepth 65536

noncomputable section

namespace Cert.KernelIdeal.ChainL1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers this layer's host operations write. -/
abbrev written : List (Ref sig .tc) := [main_v6, main_v7, main_v8, main_v9, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v10, main_v11, main_call1_cst, main_call1_v0, main_v12, main_cst, main_v13, main_v14, main_v15, main_v16, main_v17]

theorem writes_a : (hostOps1 : List (HloOp τ sig (Elt Ideal))).Forall fun op =>
    op.writes ⊆ (written.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_b : (hostOps1_1 : List (HloOp τ sig (Elt Ideal))).Forall fun op =>
    op.writes ⊆ (written.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_c : (hostOps1_2 : List (HloOp τ sig (Elt Ideal))).Forall fun op =>
    op.writes ⊆ (written.map (Proc.devRef (τ := τ) .tc)).toFinset := by
  simp only [hostOps1_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_d : (hostOps1_3 : List (HloOp τ sig (Elt Ideal))).Forall fun op =>
    op.writes ⊆ (written.map (Proc.devRef (τ := τ) .tc)).toFinset := by
  simp only [hostOps1_3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_e : (hostOps1_4 : List (HloOp τ sig (Elt Ideal))).Forall fun op =>
    op.writes ⊆ (written.map (Proc.devRef (τ := τ) .tc)).toFinset := by
  simp only [hostOps1_4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer this layer's host operations do not write is, at the region's entry, as at the previous region's exit. -/
theorem host_keep (c : Dev nD) (b : Ref sig .tc) (hb : b ∉ written) :
    W7 m ρ c (Proc.devRef .tc b) = W2 m ρ c (Proc.devRef .tc b) :=
  (StableHlo.after_of_writes_sub hostOps1_4 _ writes_e hb).trans ((StableHlo.after_of_writes_sub hostOps1_3 _ writes_d hb).trans
    ((StableHlo.after_of_writes_sub hostOps1_2 _ writes_c hb).trans ((StableHlo.after_of_writes_sub hostOps1_1 _ writes_b hb).trans
      (StableHlo.after_of_writes_sub hostOps1 _ writes_a hb))))

/-- Reads a buffer after this layer's host operations. -/
macro "host_back" : tactic => `(tactic| (simp only [W3, W4, W5, W6, W7, hostOps1, hostOps1_1, hostOps1_2, hostOps1_3, hostOps1_4]; after_results_simp))

set_option maxHeartbeats 4000000 in
/-- The aggregated messages, from the previous node states, the index vectors, the edge attributes and this layer's edge
    weights. -/
theorem agg (c : Dev nD) : W7 m ρ c (Proc.devRef .tc main_v15)
    = KOps.messages (F := Ideal) (W2 m ρ c (Proc.devRef .tc main_v5)) (W2 m ρ c (Proc.devRef .tc main_v1)) (W2 m ρ c (Proc.devRef .tc main_v3))
        (W2 m ρ c (Proc.devRef .tc main_arg2)) (W2 m ρ c (Proc.devRef .tc main_arg5)) (W2 m ρ c (Proc.devRef .tc main_arg6)) := by
  host_back
  simp only [TRef.ofBuf, TRef.toBuf, cast_eq]
  rfl

set_option maxHeartbeats 4000000 in
theorem bias1 (c : Dev nD) : W7 m ρ c (Proc.devRef .tc main_v16) = KOps.rowV (F := Ideal) (W2 m ρ c (Proc.devRef .tc main_arg8)) := by
  host_back
  rfl

set_option maxHeartbeats 4000000 in
theorem bias2 (c : Dev nD) : W7 m ρ c (Proc.devRef .tc main_v17) = KOps.rowV (F := Ideal) (W2 m ρ c (Proc.devRef .tc main_arg10)) := by
  host_back
  rfl

/-- The region's result: the node update of the previous states and the aggregated messages. -/
theorem out (c : Dev nD) : W8 m ρ c (Proc.devRef .tc main_v18)
    = Cert.GnnSpec.update (W2 m ρ c (Proc.devRef .tc main_v5))
        (KOps.messages (F := Ideal) (W2 m ρ c (Proc.devRef .tc main_v5)) (W2 m ρ c (Proc.devRef .tc main_v1)) (W2 m ρ c (Proc.devRef .tc main_v3))
          (W2 m ρ c (Proc.devRef .tc main_arg2)) (W2 m ρ c (Proc.devRef .tc main_arg5)) (W2 m ρ c (Proc.devRef .tc main_arg6)))
        (W2 m ρ c (Proc.devRef .tc main_arg7)) (KOps.rowV (F := Ideal) (W2 m ρ c (Proc.devRef .tc main_arg8)))
        (W2 m ρ c (Proc.devRef .tc main_arg9)) (KOps.rowV (F := Ideal) (W2 m ρ c (Proc.devRef .tc main_arg10))) := by
  refine (W8_arr m ρ c 6).trans ((Gine1.final (V7 m ρ) c).trans ?_)
  show Cert.GnnSpec.update (W7 m ρ c (Proc.devRef .tc main_v5)) (W7 m ρ c (Proc.devRef .tc main_v15)) (W7 m ρ c (Proc.devRef .tc main_arg7))
    (W7 m ρ c (Proc.devRef .tc main_v16)) (W7 m ρ c (Proc.devRef .tc main_arg9)) (W7 m ρ c (Proc.devRef .tc main_v17)) = _
  rw [host_keep m ρ c main_v5 (by decide), agg, host_keep m ρ c main_arg7 (by decide), bias1, host_keep m ρ c main_arg9 (by decide), bias2]

/-- A buffer that is neither one of the region's arrays nor written by this layer's host operations is, at the region's
    exit, as at the previous region's exit. -/
theorem keep (c : Dev nD) (b : Ref sig .tc) (hr : ∀ w, Pipeline.arrRef spec1 w ≠ b) (hb : b ∉ written) :
    W8 m ρ c (Proc.devRef .tc b) = W2 m ρ c (Proc.devRef .tc b) :=
  (W8_of_ne m ρ c b hr).trans (host_keep m ρ c b hb)

end Cert.KernelIdeal.ChainL1

end
-- ==== Proof.Gine2.lean ====
/-
  The value of the second node-update region: after the region its result array holds, entry by entry, the node update
  of the arrays as the region finds them, `max (max ((h + agg) · w₁ + b₁) 0 · w₂ + b₂) 0`.

  First a product of a 10000-row block with a 128 × 128 matrix accumulated from zero, read at an entry as a sum over the
  128 contracted positions; then the body's result at an entry of a block; then the ten row tiles: the body's result on
  tile `t` is rows `10000 t … 10000 t + 9999` of the node update, and row `r` lies in tile `r / 10000`, so the tiles
  cover the array.
-/
import proofs.«426136_j14405320310896_3_alg».proof.Proof.Gen.KernelIdeal.Frame
import proofs.«426136_j14405320310896_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Gine2

open Cert.KernelIdeal Cert.KernelIdeal.Gen Idealize.ShloMosaic Idealize.ShloMosaic.TcCoe Idealize.SL.Sem
open Idealize.ShloMosaic.ValueIdx
open Idealize.ShloMosaic.Pipeline (Dat)

/-! ## A product of a block of rows with a square matrix, entry by entry -/

/-- The left operand's row coordinate is the result's. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the result's. -/
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A product accumulated from zero: entry `(p, q)` is `∑ k, l (p, k) · r (k, q)`. -/
theorem matmul_zero_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  show FloatOps.matmul dot_S10000x128_S128x128_S10000x128_1_0_0_1_n_n none l r (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's result at an entry -/

/-- The body's result at entry `(p, q)` of a block: both dense stages and both rectifiers, of the loaded blocks. -/
theorem pay_apply (v0 v2 : Vec Ideal S10000x128 .f32) (v5 v13 : Vec Ideal S128x128 .f32) (v7 v15 : Vec Ideal S1x128 .f32)
    (p : Fin 10000) (q : Fin 128) :
    k2_pay1 (F := Ideal) v0 v2 v5 v7 v13 v15 (ix2 p q)
      = max ((∑ k : Fin 128, max ((∑ k' : Fin 128, (v0 (ix2 p k') + v2 (ix2 p k')) * v5 (ix2 k' k)) + v7 (ix2 0 k)) 0 * v13 (ix2 k q)) + v15 (ix2 0 q)) 0 := by
  unfold k2_pay1
  simp only [shapeCast_self]
  rw [maximumf_apply, addf_apply, matmul_zero_apply, broadcastTo_1b_ab_apply, broadcast_apply, Ideal.ofBits_def, Ideal.ofBits_zero_f32]
  refine congrArg (fun s => max (s + v15 (ix2 0 q)) 0) (Finset.sum_congr rfl fun k _ => ?_)
  rw [maximumf_apply, addf_apply, matmul_zero_apply, broadcastTo_1b_ab_apply, broadcast_apply]
  refine congrArg (fun s => max (s + v7 (ix2 0 k)) 0 * v13 (ix2 k q)) (Finset.sum_congr rfl fun k' _ => ?_)
  rw [addf_apply]

/-! ## From the row tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the node arrays' and the result's blocks are row tile `t`, the weights' and the
    biases' the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The body's result on row tile `n`: when the two node blocks are rows `10000 n + p` of the node arrays and the other
    four blocks are the weight and bias arrays, entry `y` of the result is the node update at the entry `i` of row
    `10000 n + y₀` and column `y₁`. -/
theorem tile_eq (x0 x1 : Vec Ideal S10000x128 .f32) (x2 x4 : Vec Ideal S128x128 .f32) (x3 x5 : Vec Ideal S1x128 .f32)
    (h a : S100000x128.Idx → EReal) (w1 w2 : S128x128.Idx → EReal) (b1 b2 : S1x128.Idx → EReal)
    (n : Nat) (hn : n < 10)
    (e0 : ∀ (p : Fin 10000) (k : Fin 128), x0 (ix2 p k) = h (ix2 (⟨10000 * n + p.val, by omega⟩ : Fin 100000) k))
    (e1 : ∀ (p : Fin 10000) (k : Fin 128), x1 (ix2 p k) = a (ix2 (⟨10000 * n + p.val, by omega⟩ : Fin 100000) k))
    (e2 : x2 = w1) (e3 : x3 = b1) (e4 : x4 = w2) (e5 : x5 = b2)
    (y : S10000x128.Idx) (i : S100000x128.Idx) (hi0 : (i 0).val = 10000 * n + (y 0).val) (hi1 : (i 1).val = (y 1).val) :
    k2_pay1 (F := Ideal) x0 x1 x2 x3 x4 x5 y = Cert.GnnSpec.update h a w1 b1 w2 b2 i := by
  subst e2 e3 e4 e5
  obtain ⟨p, q, rfl⟩ : ∃ (p : Fin 10000) (q : Fin 128), y = ix2 p q := ⟨y 0, y 1, eq_ix2 y⟩
  have hb : 10000 * n + p.val < 100000 := by have := p.isLt; omega
  obtain ⟨r, s, rfl⟩ : ∃ (r : Fin 100000) (s : Fin 128), i = ix2 r s := ⟨i 0, i 1, eq_ix2 i⟩
  obtain rfl : r = ⟨10000 * n + p.val, hb⟩ := Fin.ext hi0
  obtain rfl : s = q := Fin.ext hi1
  rw [pay_apply]
  show _ = max ((∑ k : Fin 128, max ((∑ k' : Fin 128, (h (ix2 _ k') + a (ix2 _ k')) * x2 (ix2 k' k)) + x3 (ix2 0 k)) 0 * x4 (ix2 k s)) + x5 (ix2 0 s)) 0
  simp only [e0, e1]

/-- A node block at point `t` is rows `10000 t + p` of its array. -/
theorem rows_apply (A : S100000x128.Idx → EReal) (n : Nat) (hn : n < 10) (e : S10000x128.Idx → S100000x128.Idx)
    (he0 : ∀ y, (e y 0).val = n * 10000 + 1 * (y 0).val) (he1 : ∀ y, (e y 1).val = 0 * 128 + 1 * (y 1).val)
    (p : Fin 10000) (k : Fin 128) : A (e (ix2 p k)) = A (ix2 (⟨10000 * n + p.val, by omega⟩ : Fin 100000) k) := by
  refine congrArg A (funext fun a => Fin.ext ?_)
  match a with
  | ⟨0, _⟩ => show (e (ix2 p k) 0).val = 10000 * n + p.val; rw [he0]; show n * 10000 + 1 * p.val = _; omega
  | ⟨1, _⟩ => show (e (ix2 p k) 1).val = k.val; rw [he1]; show 0 * 128 + 1 * k.val = _; omega

/-- WHAT POINT `t` WRITES BACK is row tile `t` of the node update of the arrays as the region finds them. -/
theorem flushed_eq (c : Dev nD) (t : Fin cfg2.N) :
    (dat2 (F := Ideal) V c).flushed 6 t = ((cfg2.win 6).blk t).view.read (Elt Ideal)
      (Cert.GnnSpec.update (V c main_v18) (V c main_v28) (V c main_arg13) (V c main_v29) (V c main_arg15) (V c main_v30)) := by
  show (cfg2.win 6).cut (grid2.coords t) ((dat2 V c).after 6 t) = _
  rw [after2_6]
  unfold out2_6
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51, e60, e61⟩ := idx_facts t
  have ht : t.val < 10 := t.isLt.trans_eq N_2
  funext j
  rw [View.read_apply]
  refine tile_eq _ _ _ _ _ _ _ _ _ _ _ _ t.val ht ?_ ?_ ?_ ?_ ?_ ?_ _ _ ?_ ?_
  · intro p k
    unfold iblk2
    rw [View.read_apply]
    exact rows_apply (V c main_v18) t.val ht (((cfg2.win 0).blk t).view.emb)
      (fun y => by show win2_0.index t (0 : Fin 2) * 10000 + 1 * (y 0).val = _; rw [e00])
      (fun y => by show win2_0.index t (1 : Fin 2) * 128 + 1 * (y 1).val = _; rw [e01]) p k
  · intro p k
    unfold iblk2
    rw [View.read_apply]
    exact rows_apply (V c main_v28) t.val ht (((cfg2.win 1).blk t).view.emb)
      (fun y => by show win2_1.index t (0 : Fin 2) * 10000 + 1 * (y 0).val = _; rw [e10])
      (fun y => by show win2_1.index t (1 : Fin 2) * 128 + 1 * (y 1).val = _; rw [e11]) p k
  · funext y
    unfold iblk2
    rw [View.read_apply]
    refine congrArg (V c main_arg13) (funext fun a => Fin.ext ?_)
    match a with
    | ⟨0, _⟩ => show win2_2.index t (0 : Fin 2) * 128 + 1 * (y 0).val = (y 0).val; rw [e20]; omega
    | ⟨1, _⟩ => show win2_2.index t (1 : Fin 2) * 128 + 1 * (y 1).val = (y 1).val; rw [e21]; omega
  · funext y
    unfold iblk2
    rw [View.read_apply]
    refine congrArg (V c main_v29) (funext fun a => Fin.ext ?_)
    match a with
    | ⟨0, _⟩ => show win2_3.index t (0 : Fin 2) * 1 + 1 * (y 0).val = (y 0).val; rw [e30]; omega
    | ⟨1, _⟩ => show win2_3.index t (1 : Fin 2) * 128 + 1 * (y 1).val = (y 1).val; rw [e31]; omega
  · funext y
    unfold iblk2
    rw [View.read_apply]
    refine congrArg (V c main_arg15) (funext fun a => Fin.ext ?_)
    match a with
    | ⟨0, _⟩ => show win2_4.index t (0 : Fin 2) * 128 + 1 * (y 0).val = (y 0).val; rw [e40]; omega
    | ⟨1, _⟩ => show win2_4.index t (1 : Fin 2) * 128 + 1 * (y 1).val = (y 1).val; rw [e41]; omega
  · funext y
    unfold iblk2
    rw [View.read_apply]
    refine congrArg (V c main_v30) (funext fun a => Fin.ext ?_)
    match a with
    | ⟨0, _⟩ => show win2_5.index t (0 : Fin 2) * 1 + 1 * (y 0).val = (y 0).val; rw [e50]; omega
    | ⟨1, _⟩ => show win2_5.index t (1 : Fin 2) * 128 + 1 * (y 1).val = (y 1).val; rw [e51]; omega
  · show win2_6.index t (0 : Fin 2) * 10000 + 1 * (j 0).val = 10000 * t.val + (j 0).val
    rw [e60]; omega
  · show win2_6.index t (1 : Fin 2) * 128 + 1 * (j 1).val = (j 1).val
    rw [e61]; omega

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v31).slice (win2_6.rect t)).set ↔ _
  rw [View.set_slice_whole, Rect.mem_set_unit]
  exact Iff.rfl

/-- Row `r` is in row tile `r / 10000`: the ten tiles cover the array. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show _ < grid2.N; rw [N_2]; omega⟩, rfl⟩
  obtain ⟨-, -, -, -, -, -, -, -, -, -, -, -, e60, e61⟩ := idx_facts t
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; rw [e60, ht]; omega
  | ⟨1, _⟩ => show win2_6.index t (1 : Fin 2) * 128 ≤ (i 1).val ∧ (i 1).val < win2_6.index t (1 : Fin 2) * 128 + 128; rw [e61]; omega

/-- THE ARRAY after the region: the node update of the arrays as the region finds them. -/
theorem final (c : Dev nD) :
    (dat2 (F := Ideal) V c).arrAt 6 cfg2.N
      = Cert.GnnSpec.update (V c main_v18) (V c main_v28) (V c main_arg13) (V c main_v29) (V c main_arg15) (V c main_v30) :=
  (dat2 (F := Ideal) V c).arrAt_eq_of_cover 6 _ (fun t _ => flushed_eq V c t) cover

end Cert.KernelIdeal.Gine2

end
-- ==== Proof.ChainL2.lean ====
/-
  One message-passing layer of the kernel program, from the contents at the previous region's exit to the contents at this
  layer's region exit: the host operations in between write only their own intermediate buffers, ending with the
  aggregated messages and the two bias rows; the region then leaves the updated node states in its result buffer.
-/
import proofs.«426136_j14405320310896_3_alg».proof.Proof.Gen.KernelIdeal.Frame
import proofs.«426136_j14405320310896_3_alg».proof.Proof.KOps
import proofs.«426136_j14405320310896_3_alg».proof.Proof.Gine2
import Idealize.ShloMosaic.Lib.StableHlo.Run

set_option maxRecDepth 65536

noncomputable section

namespace Cert.KernelIdeal.ChainL2

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers this layer's host operations write. -/
abbrev written : List (Ref sig .tc) := [main_v19, main_v20, main_v21, main_v22, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v23, main_v24, main_call3_cst, main_call3_v0, main_v25, main_cst_0, main_v26, main_v27, main_v28, main_v29, main_v30]

theorem writes_a : (hostOps2 : List (HloOp τ sig (Elt Ideal))).Forall fun op =>
    op.writes ⊆ (written.map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_b : (hostOps2_1 : List (HloOp τ sig (Elt Ideal))).Forall fun op =>
    op.writes ⊆ (written.map (Proc.devRef (τ := τ) .tc)).toFinset := by
  simp only [hostOps2_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_c : (hostOps2_2 : List (HloOp τ sig (Elt Ideal))).Forall fun op =>
    op.writes ⊆ (written.map (Proc.devRef (τ := τ) .tc)).toFinset := by
  simp only [hostOps2_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_d : (hostOps2_3 : List (HloOp τ sig (Elt Ideal))).Forall fun op =>
    op.writes ⊆ (written.map (Proc.devRef (τ := τ) .tc)).toFinset := by
  simp only [hostOps2_3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_e : (hostOps2_4 : List (HloOp τ sig (Elt Ideal))).Forall fun op =>
    op.writes ⊆ (written.map (Proc.devRef (τ := τ) .tc)).toFinset := by
  simp only [hostOps2_4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer this layer's host operations do not write is, at the region's entry, as at the previous region's exit. -/
theorem host_keep (c : Dev nD) (b : Ref sig .tc) (hb : b ∉ written) :
    W13 m ρ c (Proc.devRef .tc b) = W8 m ρ c (Proc.devRef .tc b) :=
  (StableHlo.after_of_writes_sub hostOps2_4 _ writes_e hb).trans ((StableHlo.after_of_writes_sub hostOps2_3 _ writes_d hb).trans
    ((StableHlo.after_of_writes_sub hostOps2_2 _ writes_c hb).trans ((StableHlo.after_of_writes_sub hostOps2_1 _ writes_b hb).trans
      (StableHlo.after_of_writes_sub hostOps2 _ writes_a hb))))

/-- Reads a buffer after this layer's host operations. -/
macro "host_back" : tactic => `(tactic| (simp only [W9, W10, W11, W12, W13, hostOps2, hostOps2_1, hostOps2_2, hostOps2_3, hostOps2_4]; after_results_simp))

set_option maxHeartbeats 4000000 in
/-- The aggregated messages, from the previous node states, the index vectors, the edge attributes and this layer's edge
    weights. -/
theorem agg (c : Dev nD) : W13 m ρ c (Proc.devRef .tc main_v28)
    = KOps.messages (F := Ideal) (W8 m ρ c (Proc.devRef .tc main_v18)) (W8 m ρ c (Proc.devRef .tc main_v1)) (W8 m ρ c (Proc.devRef .tc main_v3))
        (W8 m ρ c (Proc.devRef .tc main_arg2)) (W8 m ρ c (Proc.devRef .tc main_arg11)) (W8 m ρ c (Proc.devRef .tc main_arg12)) := by
  host_back
  simp only [TRef.ofBuf, TRef.toBuf, cast_eq]
  rfl

set_option maxHeartbeats 4000000 in
theorem bias1 (c : Dev nD) : W13 m ρ c (Proc.devRef .tc main_v29) = KOps.rowV (F := Ideal) (W8 m ρ c (Proc.devRef .tc main_arg14)) := by
  host_back
  rfl

set_option maxHeartbeats 4000000 in
theorem bias2 (c : Dev nD) : W13 m ρ c (Proc.devRef .tc main_v30) = KOps.rowV (F := Ideal) (W8 m ρ c (Proc.devRef .tc main_arg16)) := by
  host_back
  rfl

/-- The region's result: the node update of the previous states and the aggregated messages. -/
theorem out (c : Dev nD) : W14 m ρ c (Proc.devRef .tc main_v31)
    = Cert.GnnSpec.update (W8 m ρ c (Proc.devRef .tc main_v18))
        (KOps.messages (F := Ideal) (W8 m ρ c (Proc.devRef .tc main_v18)) (W8 m ρ c (Proc.devRef .tc main_v1)) (W8 m ρ c (Proc.devRef .tc main_v3))
          (W8 m ρ c (Proc.devRef .tc main_arg2)) (W8 m ρ c (Proc.devRef .tc main_arg11)) (W8 m ρ c (Proc.devRef .tc main_arg12)))
        (W8 m ρ c (Proc.devRef .tc main_arg13)) (KOps.rowV (F := Ideal) (W8 m ρ c (Proc.devRef .tc main_arg14)))
        (W8 m ρ c (Proc.devRef .tc main_arg15)) (KOps.rowV (F := Ideal) (W8 m ρ c (Proc.devRef .tc main_arg16))) := by
  refine (W14_arr m ρ c 6).trans ((Gine2.final (V13 m ρ) c).trans ?_)
  show Cert.GnnSpec.update (W13 m ρ c (Proc.devRef .tc main_v18)) (W13 m ρ c (Proc.devRef .tc main_v28)) (W13 m ρ c (Proc.devRef .tc main_arg13))
    (W13 m ρ c (Proc.devRef .tc main_v29)) (W13 m ρ c (Proc.devRef .tc main_arg15)) (W13 m ρ c (Proc.devRef .tc main_v30)) = _
  rw [host_keep m ρ c main_v18 (by decide), agg, host_keep m ρ c main_arg13 (by decide), bias1, host_keep m ρ c main_arg15 (by decide), bias2]

/-- A buffer that is neither one of the region's arrays nor written by this layer's host operations is, at the region's
    exit, as at the previous region's exit. -/
theorem keep (c : Dev nD) (b : Ref sig .tc) (hr : ∀ w, Pipeline.arrRef spec2 w ≠ b) (hb : b ∉ written) :
    W14 m ρ c (Proc.devRef .tc b) = W8 m ρ c (Proc.devRef .tc b) :=
  (W14_of_ne m ρ c b hr).trans (host_keep m ρ c b hb)

end Cert.KernelIdeal.ChainL2

end
-- ==== Proof.Gine3.lean ====
/-
  The value of the third node-update region: after the region its result array holds, entry by entry, the node update
  of the arrays as the region finds them, `max (max ((h + agg) · w₁ + b₁) 0 · w₂ + b₂) 0`.

  First a product of a 10000-row block with a 128 × 128 matrix accumulated from zero, read at an entry as a sum over the
  128 contracted positions; then the body's result at an entry of a block; then the ten row tiles: the body's result on
  tile `t` is rows `10000 t … 10000 t + 9999` of the node update, and row `r` lies in tile `r / 10000`, so the tiles
  cover the array.
-/
import proofs.«426136_j14405320310896_3_alg».proof.Proof.Gen.KernelIdeal.Frame
import proofs.«426136_j14405320310896_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Gine3

open Cert.KernelIdeal Cert.KernelIdeal.Gen Idealize.ShloMosaic Idealize.ShloMosaic.TcCoe Idealize.SL.Sem
open Idealize.ShloMosaic.ValueIdx
open Idealize.ShloMosaic.Pipeline (Dat)

/-! ## A product of a block of rows with a square matrix, entry by entry -/

/-- The left operand's row coordinate is the result's. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the result's. -/
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A product accumulated from zero: entry `(p, q)` is `∑ k, l (p, k) · r (k, q)`. -/
theorem matmul_zero_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  show FloatOps.matmul dot_S10000x128_S128x128_S10000x128_1_0_0_1_n_n none l r (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's result at an entry -/

/-- The body's result at entry `(p, q)` of a block: both dense stages and both rectifiers, of the loaded blocks. -/
theorem pay_apply (v0 v2 : Vec Ideal S10000x128 .f32) (v5 v13 : Vec Ideal S128x128 .f32) (v7 v15 : Vec Ideal S1x128 .f32)
    (p : Fin 10000) (q : Fin 128) :
    k3_pay1 (F := Ideal) v0 v2 v5 v7 v13 v15 (ix2 p q)
      = max ((∑ k : Fin 128, max ((∑ k' : Fin 128, (v0 (ix2 p k') + v2 (ix2 p k')) * v5 (ix2 k' k)) + v7 (ix2 0 k)) 0 * v13 (ix2 k q)) + v15 (ix2 0 q)) 0 := by
  unfold k3_pay1
  simp only [shapeCast_self]
  rw [maximumf_apply, addf_apply, matmul_zero_apply, broadcastTo_1b_ab_apply, broadcast_apply, Ideal.ofBits_def, Ideal.ofBits_zero_f32]
  refine congrArg (fun s => max (s + v15 (ix2 0 q)) 0) (Finset.sum_congr rfl fun k _ => ?_)
  rw [maximumf_apply, addf_apply, matmul_zero_apply, broadcastTo_1b_ab_apply, broadcast_apply]
  refine congrArg (fun s => max (s + v7 (ix2 0 k)) 0 * v13 (ix2 k q)) (Finset.sum_congr rfl fun k' _ => ?_)
  rw [addf_apply]

/-! ## From the row tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the node arrays' and the result's blocks are row tile `t`, the weights' and the
    biases' the whole array. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The body's result on row tile `n`: when the two node blocks are rows `10000 n + p` of the node arrays and the other
    four blocks are the weight and bias arrays, entry `y` of the result is the node update at the entry `i` of row
    `10000 n + y₀` and column `y₁`. -/
theorem tile_eq (x0 x1 : Vec Ideal S10000x128 .f32) (x2 x4 : Vec Ideal S128x128 .f32) (x3 x5 : Vec Ideal S1x128 .f32)
    (h a : S100000x128.Idx → EReal) (w1 w2 : S128x128.Idx → EReal) (b1 b2 : S1x128.Idx → EReal)
    (n : Nat) (hn : n < 10)
    (e0 : ∀ (p : Fin 10000) (k : Fin 128), x0 (ix2 p k) = h (ix2 (⟨10000 * n + p.val, by omega⟩ : Fin 100000) k))
    (e1 : ∀ (p : Fin 10000) (k : Fin 128), x1 (ix2 p k) = a (ix2 (⟨10000 * n + p.val, by omega⟩ : Fin 100000) k))
    (e2 : x2 = w1) (e3 : x3 = b1) (e4 : x4 = w2) (e5 : x5 = b2)
    (y : S10000x128.Idx) (i : S100000x128.Idx) (hi0 : (i 0).val = 10000 * n + (y 0).val) (hi1 : (i 1).val = (y 1).val) :
    k3_pay1 (F := Ideal) x0 x1 x2 x3 x4 x5 y = Cert.GnnSpec.update h a w1 b1 w2 b2 i := by
  subst e2 e3 e4 e5
  obtain ⟨p, q, rfl⟩ : ∃ (p : Fin 10000) (q : Fin 128), y = ix2 p q := ⟨y 0, y 1, eq_ix2 y⟩
  have hb : 10000 * n + p.val < 100000 := by have := p.isLt; omega
  obtain ⟨r, s, rfl⟩ : ∃ (r : Fin 100000) (s : Fin 128), i = ix2 r s := ⟨i 0, i 1, eq_ix2 i⟩
  obtain rfl : r = ⟨10000 * n + p.val, hb⟩ := Fin.ext hi0
  obtain rfl : s = q := Fin.ext hi1
  rw [pay_apply]
  show _ = max ((∑ k : Fin 128, max ((∑ k' : Fin 128, (h (ix2 _ k') + a (ix2 _ k')) * x2 (ix2 k' k)) + x3 (ix2 0 k)) 0 * x4 (ix2 k s)) + x5 (ix2 0 s)) 0
  simp only [e0, e1]

/-- A node block at point `t` is rows `10000 t + p` of its array. -/
theorem rows_apply (A : S100000x128.Idx → EReal) (n : Nat) (hn : n < 10) (e : S10000x128.Idx → S100000x128.Idx)
    (he0 : ∀ y, (e y 0).val = n * 10000 + 1 * (y 0).val) (he1 : ∀ y, (e y 1).val = 0 * 128 + 1 * (y 1).val)
    (p : Fin 10000) (k : Fin 128) : A (e (ix2 p k)) = A (ix2 (⟨10000 * n + p.val, by omega⟩ : Fin 100000) k) := by
  refine congrArg A (funext fun a => Fin.ext ?_)
  match a with
  | ⟨0, _⟩ => show (e (ix2 p k) 0).val = 10000 * n + p.val; rw [he0]; show n * 10000 + 1 * p.val = _; omega
  | ⟨1, _⟩ => show (e (ix2 p k) 1).val = k.val; rw [he1]; show 0 * 128 + 1 * k.val = _; omega

/-- WHAT POINT `t` WRITES BACK is row tile `t` of the node update of the arrays as the region finds them. -/
theorem flushed_eq (c : Dev nD) (t : Fin cfg3.N) :
    (dat3 (F := Ideal) V c).flushed 6 t = ((cfg3.win 6).blk t).view.read (Elt Ideal)
      (Cert.GnnSpec.update (V c main_v31) (V c main_v41) (V c main_arg19) (V c main_v42) (V c main_arg21) (V c main_v43)) := by
  show (cfg3.win 6).cut (grid3.coords t) ((dat3 V c).after 6 t) = _
  rw [after3_6]
  unfold out3_6
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51, e60, e61⟩ := idx_facts t
  have ht : t.val < 10 := t.isLt.trans_eq N_3
  funext j
  rw [View.read_apply]
  refine tile_eq _ _ _ _ _ _ _ _ _ _ _ _ t.val ht ?_ ?_ ?_ ?_ ?_ ?_ _ _ ?_ ?_
  · intro p k
    unfold iblk3
    rw [View.read_apply]
    exact rows_apply (V c main_v31) t.val ht (((cfg3.win 0).blk t).view.emb)
      (fun y => by show win3_0.index t (0 : Fin 2) * 10000 + 1 * (y 0).val = _; rw [e00])
      (fun y => by show win3_0.index t (1 : Fin 2) * 128 + 1 * (y 1).val = _; rw [e01]) p k
  · intro p k
    unfold iblk3
    rw [View.read_apply]
    exact rows_apply (V c main_v41) t.val ht (((cfg3.win 1).blk t).view.emb)
      (fun y => by show win3_1.index t (0 : Fin 2) * 10000 + 1 * (y 0).val = _; rw [e10])
      (fun y => by show win3_1.index t (1 : Fin 2) * 128 + 1 * (y 1).val = _; rw [e11]) p k
  · funext y
    unfold iblk3
    rw [View.read_apply]
    refine congrArg (V c main_arg19) (funext fun a => Fin.ext ?_)
    match a with
    | ⟨0, _⟩ => show win3_2.index t (0 : Fin 2) * 128 + 1 * (y 0).val = (y 0).val; rw [e20]; omega
    | ⟨1, _⟩ => show win3_2.index t (1 : Fin 2) * 128 + 1 * (y 1).val = (y 1).val; rw [e21]; omega
  · funext y
    unfold iblk3
    rw [View.read_apply]
    refine congrArg (V c main_v42) (funext fun a => Fin.ext ?_)
    match a with
    | ⟨0, _⟩ => show win3_3.index t (0 : Fin 2) * 1 + 1 * (y 0).val = (y 0).val; rw [e30]; omega
    | ⟨1, _⟩ => show win3_3.index t (1 : Fin 2) * 128 + 1 * (y 1).val = (y 1).val; rw [e31]; omega
  · funext y
    unfold iblk3
    rw [View.read_apply]
    refine congrArg (V c main_arg21) (funext fun a => Fin.ext ?_)
    match a with
    | ⟨0, _⟩ => show win3_4.index t (0 : Fin 2) * 128 + 1 * (y 0).val = (y 0).val; rw [e40]; omega
    | ⟨1, _⟩ => show win3_4.index t (1 : Fin 2) * 128 + 1 * (y 1).val = (y 1).val; rw [e41]; omega
  · funext y
    unfold iblk3
    rw [View.read_apply]
    refine congrArg (V c main_v43) (funext fun a => Fin.ext ?_)
    match a with
    | ⟨0, _⟩ => show win3_5.index t (0 : Fin 2) * 1 + 1 * (y 0).val = (y 0).val; rw [e50]; omega
    | ⟨1, _⟩ => show win3_5.index t (1 : Fin 2) * 128 + 1 * (y 1).val = (y 1).val; rw [e51]; omega
  · show win3_6.index t (0 : Fin 2) * 10000 + 1 * (j 0).val = 10000 * t.val + (j 0).val
    rw [e60]; omega
  · show win3_6.index t (1 : Fin 2) * 128 + 1 * (j 1).val = (j 1).val
    rw [e61]; omega

/-- An index of the array is in point `t`'s block iff each coordinate is in the block's range on its axis. -/
theorem mem_blk (t : Fin cfg3.N) (i : S100000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v44).slice (win3_6.rect t)).set ↔ _
  rw [View.set_slice_whole, Rect.mem_set_unit]
  exact Iff.rfl

/-- Row `r` is in row tile `r / 10000`: the ten tiles cover the array. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by show _ < grid3.N; rw [N_3]; omega⟩, rfl⟩
  obtain ⟨-, -, -, -, -, -, -, -, -, -, -, -, e60, e61⟩ := idx_facts t
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; rw [e60, ht]; omega
  | ⟨1, _⟩ => show win3_6.index t (1 : Fin 2) * 128 ≤ (i 1).val ∧ (i 1).val < win3_6.index t (1 : Fin 2) * 128 + 128; rw [e61]; omega

/-- THE ARRAY after the region: the node update of the arrays as the region finds them. -/
theorem final (c : Dev nD) :
    (dat3 (F := Ideal) V c).arrAt 6 cfg3.N
      = Cert.GnnSpec.update (V c main_v31) (V c main_v41) (V c main_arg19) (V c main_v42) (V c main_arg21) (V c main_v43) :=
  (dat3 (F := Ideal) V c).arrAt_eq_of_cover 6 _ (fun t _ => flushed_eq V c t) cover

end Cert.KernelIdeal.Gine3

end
-- ==== Proof.ChainL3.lean ====
/-
  One message-passing layer of the kernel program, from the contents at the previous region's exit to the contents at this
  layer's region exit: the host operations in between write only their own intermediate buffers, ending with the
  aggregated messages and the two bias rows; the region then leaves the updated node states in its result buffer.
-/
import proofs.«426136_j14405320310896_3_alg».proof.Proof.Gen.KernelIdeal.Frame
import proofs.«426136_j14405320310896_3_alg».proof.Proof.KOps
import proofs.«426136_j14405320310896_3_alg».proof.Proof.Gine3
import Idealize.ShloMosaic.Lib.StableHlo.Run

set_option maxRecDepth 65536

noncomputable section

namespace Cert.KernelIdeal.ChainL3

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers this layer's host operations write. -/
abbrev written : List (Ref sig .tc) := [main_v32, main_v33, main_v34, main_v35, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v36, main_v37, main_call5_cst, main_call5_v0, main_v38, main_cst_1, main_v39, main_v40, main_v41, main_v42, main_v43]

theorem writes_a : (hostOps3 : List (HloOp τ sig (Elt Ideal))).Forall fun op =>
    op.writes ⊆ (written.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_b : (hostOps3_1 : List (HloOp τ sig (Elt Ideal))).Forall fun op =>
    op.writes ⊆ (written.map (Proc.devRef (τ := τ) .tc)).toFinset := by
  simp only [hostOps3_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_c : (hostOps3_2 : List (HloOp τ sig (Elt Ideal))).Forall fun op =>
    op.writes ⊆ (written.map (Proc.devRef (τ := τ) .tc)).toFinset := by
  simp only [hostOps3_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_d : (hostOps3_3 : List (HloOp τ sig (Elt Ideal))).Forall fun op =>
    op.writes ⊆ (written.map (Proc.devRef (τ := τ) .tc)).toFinset := by
  simp only [hostOps3_3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_e : (hostOps3_4 : List (HloOp τ sig (Elt Ideal))).Forall fun op =>
    op.writes ⊆ (written.map (Proc.devRef (τ := τ) .tc)).toFinset := by
  simp only [hostOps3_4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer this layer's host operations do not write is, at the region's entry, as at the previous region's exit. -/
theorem host_keep (c : Dev nD) (b : Ref sig .tc) (hb : b ∉ written) :
    W19 m ρ c (Proc.devRef .tc b) = W14 m ρ c (Proc.devRef .tc b) :=
  (StableHlo.after_of_writes_sub hostOps3_4 _ writes_e hb).trans ((StableHlo.after_of_writes_sub hostOps3_3 _ writes_d hb).trans
    ((StableHlo.after_of_writes_sub hostOps3_2 _ writes_c hb).trans ((StableHlo.after_of_writes_sub hostOps3_1 _ writes_b hb).trans
      (StableHlo.after_of_writes_sub hostOps3 _ writes_a hb))))

/-- Reads a buffer after this layer's host operations. -/
macro "host_back" : tactic => `(tactic| (simp only [W15, W16, W17, W18, W19, hostOps3, hostOps3_1, hostOps3_2, hostOps3_3, hostOps3_4]; after_results_simp))

set_option maxHeartbeats 4000000 in
/-- The aggregated messages, from the previous node states, the index vectors, the edge attributes and this layer's edge
    weights. -/
theorem agg (c : Dev nD) : W19 m ρ c (Proc.devRef .tc main_v41)
    = KOps.messages (F := Ideal) (W14 m ρ c (Proc.devRef .tc main_v31)) (W14 m ρ c (Proc.devRef .tc main_v1)) (W14 m ρ c (Proc.devRef .tc main_v3))
        (W14 m ρ c (Proc.devRef .tc main_arg2)) (W14 m ρ c (Proc.devRef .tc main_arg17)) (W14 m ρ c (Proc.devRef .tc main_arg18)) := by
  host_back
  simp only [TRef.ofBuf, TRef.toBuf, cast_eq]
  rfl

set_option maxHeartbeats 4000000 in
theorem bias1 (c : Dev nD) : W19 m ρ c (Proc.devRef .tc main_v42) = KOps.rowV (F := Ideal) (W14 m ρ c (Proc.devRef .tc main_arg20)) := by
  host_back
  rfl

set_option maxHeartbeats 4000000 in
theorem bias2 (c : Dev nD) : W19 m ρ c (Proc.devRef .tc main_v43) = KOps.rowV (F := Ideal) (W14 m ρ c (Proc.devRef .tc main_arg22)) := by
  host_back
  rfl

/-- The region's result: the node update of the previous states and the aggregated messages. -/
theorem out (c : Dev nD) : W20 m ρ c (Proc.devRef .tc main_v44)
    = Cert.GnnSpec.update (W14 m ρ c (Proc.devRef .tc main_v31))
        (KOps.messages (F := Ideal) (W14 m ρ c (Proc.devRef .tc main_v31)) (W14 m ρ c (Proc.devRef .tc main_v1)) (W14 m ρ c (Proc.devRef .tc main_v3))
          (W14 m ρ c (Proc.devRef .tc main_arg2)) (W14 m ρ c (Proc.devRef .tc main_arg17)) (W14 m ρ c (Proc.devRef .tc main_arg18)))
        (W14 m ρ c (Proc.devRef .tc main_arg19)) (KOps.rowV (F := Ideal) (W14 m ρ c (Proc.devRef .tc main_arg20)))
        (W14 m ρ c (Proc.devRef .tc main_arg21)) (KOps.rowV (F := Ideal) (W14 m ρ c (Proc.devRef .tc main_arg22))) := by
  refine (W20_arr m ρ c 6).trans ((Gine3.final (V19 m ρ) c).trans ?_)
  show Cert.GnnSpec.update (W19 m ρ c (Proc.devRef .tc main_v31)) (W19 m ρ c (Proc.devRef .tc main_v41)) (W19 m ρ c (Proc.devRef .tc main_arg19))
    (W19 m ρ c (Proc.devRef .tc main_v42)) (W19 m ρ c (Proc.devRef .tc main_arg21)) (W19 m ρ c (Proc.devRef .tc main_v43)) = _
  rw [host_keep m ρ c main_v31 (by decide), agg, host_keep m ρ c main_arg19 (by decide), bias1, host_keep m ρ c main_arg21 (by decide), bias2]

/-- A buffer that is neither one of the region's arrays nor written by this layer's host operations is, at the region's
    exit, as at the previous region's exit. -/
theorem keep (c : Dev nD) (b : Ref sig .tc) (hr : ∀ w, Pipeline.arrRef spec3 w ≠ b) (hb : b ∉ written) :
    W20 m ρ c (Proc.devRef .tc b) = W14 m ρ c (Proc.devRef .tc b) :=
  (W20_of_ne m ρ c b hr).trans (host_keep m ρ c b hb)

end Cert.KernelIdeal.ChainL3

end
-- ==== Proof.Dense4.lean ====
import proofs.«426136_j14405320310896_3_alg».proof.Proof.Gen.KernelIdeal.Frame
import proofs.«426136_j14405320310896_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Dense4

open Cert.KernelIdeal Cert.KernelIdeal.Gen Idealize.ShloMosaic Idealize.ShloMosaic.TcCoe Idealize.SL.Sem Idealize.ShloMosaic.ValueIdx
open Idealize.ShloMosaic.Pipeline (Dat)

/-! ## The product's operand indices, axis by axis

At the output index `i` and the contraction index `q`, the left operand is read at `(i 0, q)` and the right operand
at `(q, i 1)`. -/

theorem lhs_axis0 (i : S15000x128.Idx) (q : dot_S15000x128_S128x128_S15000x128_1_0_0_1_n_n.contr.Idx) :
    (dot_S15000x128_S128x128_S15000x128_1_0_0_1_n_n.lhsIdx i q 0).val = (i 0).val := by
  unfold DotDims.lhsIdx
  rw [dif_neg (show ¬(0 : Fin S15000x128.rank) ∈ dot_S15000x128_S128x128_S15000x128_1_0_0_1_n_n.lhsBatch by decide), dif_pos (show (0 : Fin S15000x128.rank) ∈ dot_S15000x128_S128x128_S15000x128_1_0_0_1_n_n.lhsNonContracting by decide)]
  rfl

theorem lhs_axis1 (i : S15000x128.Idx) (q : dot_S15000x128_S128x128_S15000x128_1_0_0_1_n_n.contr.Idx) :
    (dot_S15000x128_S128x128_S15000x128_1_0_0_1_n_n.lhsIdx i q 1).val = (q ⟨0, by decide⟩).val :=
  dot_S15000x128_S128x128_S15000x128_1_0_0_1_n_n.lhsIdx_val_of_single rfl i q

theorem rhs_axis0 (i : S15000x128.Idx) (q : dot_S15000x128_S128x128_S15000x128_1_0_0_1_n_n.contr.Idx) :
    (dot_S15000x128_S128x128_S15000x128_1_0_0_1_n_n.rhsIdx i q 0).val = (q ⟨0, by decide⟩).val :=
  dot_S15000x128_S128x128_S15000x128_1_0_0_1_n_n.rhsIdx_val_of_single rfl i q

theorem rhs_axis1 (i : S15000x128.Idx) (q : dot_S15000x128_S128x128_S15000x128_1_0_0_1_n_n.contr.Idx) :
    (dot_S15000x128_S128x128_S15000x128_1_0_0_1_n_n.rhsIdx i q 1).val = (i 1).val := by
  unfold DotDims.rhsIdx
  rw [dif_neg (show ¬(1 : Fin S128x128.rank) ∈ dot_S15000x128_S128x128_S15000x128_1_0_0_1_n_n.rhsBatch by decide), dif_pos (show (1 : Fin S128x128.rank) ∈ dot_S15000x128_S128x128_S15000x128_1_0_0_1_n_n.rhsNonContracting by decide)]
  rfl

/-! ## One tile of rows -/

/-- A tile of rows times the weights, from a zero accumulator, at `(p, q)`: the sum over `k` of `x (p, k) · w (k, q)`. -/
theorem product_apply (x : FVec Ideal S15000x128 .f32) (w : FVec Ideal S128x128 .f32) (p : Fin 15000) (q : Fin 128) :
    matmul dot_S15000x128_S128x128_S15000x128_1_0_0_1_n_n none x w (constant (F := Ideal) S15000x128 .f32 0x00000000#32) (ix2 p q)
      = ∑ k : Fin 128, x (ix2 p k) * w (ix2 k q) := by
  refine (Ideal.matmul_constant_zero_apply dot_S15000x128_S128x128_S15000x128_1_0_0_1_n_n none x w (ix2 p q)).trans ?_
  rw [← Equiv.sum_comp (contrEquiv1 dot_S15000x128_S128x128_S15000x128_1_0_0_1_n_n 128 rfl rfl).symm]
  refine Finset.sum_congr rfl fun k _ => ?_
  have hk := contrEquiv1_symm_val dot_S15000x128_S128x128_S15000x128_1_0_0_1_n_n 128 rfl rfl k
  have el : dot_S15000x128_S128x128_S15000x128_1_0_0_1_n_n.lhsIdx (ix2 p q) ((contrEquiv1 dot_S15000x128_S128x128_S15000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S15000x128_S128x128_S15000x128_1_0_0_1_n_n.rhsIdx (ix2 p q) ((contrEquiv1 dot_S15000x128_S128x128_S15000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- What the body stores for one tile, at `(p, q)`: the tile's row `p` times the weights' column `q`, plus the bias
    row at `q`. -/
theorem tile_apply (x : Vec Ideal S15000x128 .f32) (w : Vec Ideal S128x128 .f32) (b : Vec Ideal S1x128 .f32) (p : Fin 15000) (q : Fin 128) :
    k4_pay1 x w b (ix2 p q) = (∑ k : Fin 128, x (ix2 p k) * w (ix2 k q)) + b (ix2 (0 : Fin 1) q) := by
  unfold k4_pay1
  refine (addf_apply _ _ _).trans ?_
  rw [shapeCast_self, shapeCast_self, shapeCast_self]
  exact congrArg₂ (· + ·) (product_apply x w p q) (broadcastTo_1b_ab_apply b _ p q)

/-- Row `p` of a tile is a row `r` of the whole array, and the weights and the bias row are whole in every tile: then what
    the body stores at `(p, q)` is the dense stage of the whole arrays at `(r, q)`. The tile's entries are tied to the
    array's by their coordinates' values. -/
theorem tile_point (X : S600000x128.Idx → EReal) (W : S128x128.Idx → EReal) (B : S1x128.Idx → EReal)
    (x : Vec Ideal S15000x128 .f32) (w : Vec Ideal S128x128 .f32) (b : Vec Ideal S1x128 .f32)
    (j : S15000x128.Idx) (i : S600000x128.Idx)
    (hx : ∀ (y : S15000x128.Idx) (z : S600000x128.Idx), (y 0).val = (j 0).val → (z 0).val = (i 0).val → (z 1).val = (y 1).val → x y = X z)
    (hw : ∀ y : S128x128.Idx, w y = W y) (hb : ∀ y : S1x128.Idx, b y = B y)
    (hq : (i 1).val = (j 1).val) :
    k4_pay1 x w b j = Cert.GnnSpec.dense X W B i := by
  obtain ⟨p, q, rfl⟩ : ∃ (p : Fin 15000) (q : Fin 128), j = ix2 p q := ⟨j 0, j 1, eq_ix2 j⟩
  obtain ⟨r, s, rfl⟩ : ∃ (r : Fin 600000) (s : Fin 128), i = ix2 r s := ⟨i 0, i 1, eq_ix2 i⟩
  obtain rfl : s = q := Fin.ext hq
  rw [tile_apply, Cert.GnnSpec.dense_apply, hb]
  refine congrArg (· + _) (Finset.sum_congr rfl fun k _ => ?_)
  rw [hx (ix2 p k) (ix2 r k) rfl rfl rfl, hw]

/-! ## From the tiles to the array

Tile `t` of the rows and of the result starts at row `15000 · t`; the weights and the bias row have one block, the
whole array. The forty tiles cover the result: row `r` lies in tile `r / 15000`. -/

theorem hz : (![0, 0] : Fin 2 → Nat) = fun _ => 0 := funext fun a => by fin_cases a <;> rfl

/-- The block indices at every grid point: the rows' and the result's tile is the point itself on axis 0, every other
    index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What grid point `t` writes back is tile `t` of the dense stage of the arrays as the region finds them. -/
theorem flushed_eq (c : Dev nD) (t : Fin cfg4.N) :
    (dat4 (F := Ideal) V c).flushed 3 t = ((cfg4.win 3).blk t).view.read (Elt Ideal)
      (Cert.GnnSpec.dense (R := 600000) (K := 128) (C := 128) (V c main_v58) (V c main_v61) (V c main_v65)) := by
  show (cfg4.win 3).cut (grid4.coords t) ((dat4 V c).after 3 t) = _
  rw [after4_3]
  unfold out4_3
  rw [View.canon_unit_zero hz]
  simp only [View.ld_unit_zero (S := S15000x128) hz, View.ld_unit_zero (S := S128x128) hz, View.ld_unit_zero (S := S1x128) hz]
  obtain ⟨e0, e1, e2, e3, e4, e5, e6, e7⟩ := idx_facts t
  funext j
  refine tile_point (V c main_v58) (V c main_v61) (V c main_v65) (iblk4 V c 0 t) (iblk4 V c 1 t) (iblk4 V c 2 t) j
    (((cfg4.win 3).blk t).view.emb j) ?_ ?_ ?_ ?_
  · intro y z h0 h1 h2
    have h1' : (z 0).val = win4_3.index t (0 : Fin 2) * 15000 + 1 * (j 0).val := h1
    show V c main_v58 (((cfg4.win 0).blk t).view.emb y) = V c main_v58 z
    refine congrArg _ (funext fun a => Fin.ext ?_)
    match a with
    | ⟨0, _⟩ => show win4_0.index t (0 : Fin 2) * 15000 + 1 * (y 0).val = (z 0).val; omega
    | ⟨1, _⟩ => show win4_0.index t (1 : Fin 2) * 128 + 1 * (y 1).val = (z 1).val; omega
  · intro y
    show V c main_v61 (((cfg4.win 1).blk t).view.emb y) = V c main_v61 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · intro y
    show V c main_v65 (((cfg4.win 2).blk t).view.emb y) = V c main_v65 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  · show win4_3.index t (1 : Fin 2) * 128 + 1 * (j 1).val = (j 1).val
    omega

/-- An index of the result is in tile `t` iff each coordinate is in the tile's range on its axis. -/
theorem mem_blk (t : Fin cfg4.N) (i : S600000x128.Idx) :
    i ∈ ((cfg4.win 3).blk t).view.set ↔ ∀ a : Fin 2, win4_3.index t a * S15000x128.size a ≤ (i a).val
      ∧ (i a).val < win4_3.index t a * S15000x128.size a + S15000x128.size a := by
  show i ∈ ((View.whole main_v66).slice (win4_3.rect t)).set ↔ _
  rw [View.set_slice_whole, Rect.mem_set_unit]
  exact Iff.rfl

/-- Every index of the result is in some tile: row `r` is in tile `r / 15000`. -/
theorem cover (i : S600000x128.Idx) :
    ∃ t : Fin cfg4.N, (cfg4.win 3).flush t = true ∧ i ∈ ((cfg4.win 3).blk t).view.set := by
  have hi0 : (i 0).val < 600000 := (i 0).isLt
  have hi1 : (i 1).val < 128 := (i 1).isLt
  have hN : cfg4.N = 40 := N_4
  obtain ⟨t, ht⟩ : ∃ t : Fin cfg4.N, t.val = (i 0).val / 15000 := ⟨⟨(i 0).val / 15000, by rw [hN]; omega⟩, rfl⟩
  obtain ⟨e0, e1, e2, e3, e4, e5, e6, e7⟩ := idx_facts t
  refine ⟨t, flush4_3 t, ?_⟩
  rw [mem_blk]
  intro a
  match a with
  | ⟨0, _⟩ => show win4_3.index t (0 : Fin 2) * 15000 ≤ (i 0).val ∧ (i 0).val < win4_3.index t (0 : Fin 2) * 15000 + 15000; omega
  | ⟨1, _⟩ => show win4_3.index t (1 : Fin 2) * 128 ≤ (i 1).val ∧ (i 1).val < win4_3.index t (1 : Fin 2) * 128 + 128; omega

/-- The result array after the region: the dense stage of the rows, the weights and the bias row as the region finds
    them, index by index. -/
theorem final (c : Dev nD) :
    (dat4 (F := Ideal) V c).arrAt 3 cfg4.N = Cert.GnnSpec.dense (V c main_v58) (V c main_v61) (V c main_v65) :=
  (dat4 V c).arrAt_eq_of_cover 3 _ (fun t _ => flushed_eq V c t) cover

end Cert.KernelIdeal.Dense4

end
-- ==== Proof.ChainL4.lean ====
/-
  The classifier of the kernel program, from the contents at the last node update's exit to the result buffer: the host
  operations gather the node states at both ends of every edge and form the first layer, pad the second layer's weight
  and bias with zeros; the last region applies the padded second layer; the result keeps the first 24 columns.
-/
import proofs.«426136_j14405320310896_3_alg».proof.Proof.Gen.KernelIdeal.Frame
import proofs.«426136_j14405320310896_3_alg».proof.Proof.KOps
import proofs.«426136_j14405320310896_3_alg».proof.Proof.Dense4
import Idealize.ShloMosaic.Lib.StableHlo.Run

set_option maxRecDepth 65536

noncomputable section

namespace Cert.KernelIdeal.ChainL4

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers the classifier's host operations before the last region write. -/
abbrev written : List (Ref sig .tc) := [main_v45, main_v46, main_v47, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v48, main_v49, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v50, main_v51, main_v52, main_v53, main_v54, main_v55, main_v56, main_v57, main_call8_cst, main_call8_v0, main_v58, main_cst_2, main_v59, main_c, main_v60, main_v61, main_cst_3, main_v62, main_c_4, main_v63, main_v64, main_v65]

theorem writes_a : (hostOps4 : List (HloOp τ sig (Elt Ideal))).Forall fun op =>
    op.writes ⊆ (written.map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_b : (hostOps4_1 : List (HloOp τ sig (Elt Ideal))).Forall fun op =>
    op.writes ⊆ (written.map (Proc.devRef (τ := τ) .tc)).toFinset := by
  simp only [hostOps4_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_c : (hostOps4_2 : List (HloOp τ sig (Elt Ideal))).Forall fun op =>
    op.writes ⊆ (written.map (Proc.devRef (τ := τ) .tc)).toFinset := by
  simp only [hostOps4_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_d : (hostOps4_3 : List (HloOp τ sig (Elt Ideal))).Forall fun op =>
    op.writes ⊆ (written.map (Proc.devRef (τ := τ) .tc)).toFinset := by
  simp only [hostOps4_3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_e : (hostOps4_4 : List (HloOp τ sig (Elt Ideal))).Forall fun op =>
    op.writes ⊆ (written.map (Proc.devRef (τ := τ) .tc)).toFinset := by
  simp only [hostOps4_4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_f : (hostOps4_5 : List (HloOp τ sig (Elt Ideal))).Forall fun op =>
    op.writes ⊆ (written.map (Proc.devRef (τ := τ) .tc)).toFinset := by
  simp only [hostOps4_5, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem writes_g : (hostOps4_6 : List (HloOp τ sig (Elt Ideal))).Forall fun op =>
    op.writes ⊆ (written.map (Proc.devRef (τ := τ) .tc)).toFinset := by
  simp only [hostOps4_6, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer those operations do not write is, at the last region's entry, as at the last node update's exit. -/
theorem host_keep (c : Dev nD) (b : Ref sig .tc) (hb : b ∉ written) :
    W27 m ρ c (Proc.devRef .tc b) = W20 m ρ c (Proc.devRef .tc b) :=
  (StableHlo.after_of_writes_sub hostOps4_6 _ writes_g hb).trans ((StableHlo.after_of_writes_sub hostOps4_5 _ writes_f hb).trans
    ((StableHlo.after_of_writes_sub hostOps4_4 _ writes_e hb).trans ((StableHlo.after_of_writes_sub hostOps4_3 _ writes_d hb).trans
      ((StableHlo.after_of_writes_sub hostOps4_2 _ writes_c hb).trans ((StableHlo.after_of_writes_sub hostOps4_1 _ writes_b hb).trans
        (StableHlo.after_of_writes_sub hostOps4 _ writes_a hb))))))

/-- Reads a buffer after the classifier's host operations. -/
macro "host_back" : tactic => `(tactic| (simp only [W21, W22, W23, W24, W25, W26, W27, hostOps4, hostOps4_1, hostOps4_2, hostOps4_3, hostOps4_4, hostOps4_5, hostOps4_6]; after_results_simp))

set_option maxHeartbeats 8000000 in
/-- The classifier's first layer, from the final node states, the index vectors, the edge attributes and its weights. -/
theorem hid (c : Dev nD) : W27 m ρ c (Proc.devRef .tc main_v58)
    = KOps.edgeHidden (F := Ideal) (W20 m ρ c (Proc.devRef .tc main_v44)) (W20 m ρ c (Proc.devRef .tc main_v1)) (W20 m ρ c (Proc.devRef .tc main_v3))
        (W20 m ρ c (Proc.devRef .tc main_arg2)) (W20 m ρ c (Proc.devRef .tc main_arg23)) (W20 m ρ c (Proc.devRef .tc main_arg24)) := by
  host_back
  simp only [TRef.ofBuf, TRef.toBuf, cast_eq]
  rfl

set_option maxHeartbeats 8000000 in
theorem padw (c : Dev nD) : W27 m ρ c (Proc.devRef .tc main_v61) = KOps.padW (F := Ideal) (W20 m ρ c (Proc.devRef .tc main_arg25)) := by
  host_back
  rfl

set_option maxHeartbeats 8000000 in
theorem padb (c : Dev nD) : W27 m ρ c (Proc.devRef .tc main_v65) = KOps.padB (F := Ideal) (W20 m ρ c (Proc.devRef .tc main_arg26)) := by
  host_back
  rfl

/-- The last region's result: the first layer's output through the padded second layer. -/
theorem wide (c : Dev nD) : W28 m ρ c (Proc.devRef .tc main_v66)
    = Cert.GnnSpec.dense
        (KOps.edgeHidden (F := Ideal) (W20 m ρ c (Proc.devRef .tc main_v44)) (W20 m ρ c (Proc.devRef .tc main_v1)) (W20 m ρ c (Proc.devRef .tc main_v3))
          (W20 m ρ c (Proc.devRef .tc main_arg2)) (W20 m ρ c (Proc.devRef .tc main_arg23)) (W20 m ρ c (Proc.devRef .tc main_arg24)))
        (KOps.padW (F := Ideal) (W20 m ρ c (Proc.devRef .tc main_arg25))) (KOps.padB (F := Ideal) (W20 m ρ c (Proc.devRef .tc main_arg26))) := by
  refine (W28_arr m ρ c 3).trans ((Dense4.final (V27 m ρ) c).trans ?_)
  show Cert.GnnSpec.dense (W27 m ρ c (Proc.devRef .tc main_v58)) (W27 m ρ c (Proc.devRef .tc main_v61)) (W27 m ρ c (Proc.devRef .tc main_v65)) = _
  rw [hid, padw, padb]

/-- The result buffer at the end: the first 24 columns of the last region's result. -/
theorem out (c : Dev nD) : W29 m ρ c (Proc.devRef .tc main_v67)
    = extractStridedSlice S600000x24 ![0, 0] (W28 m ρ c (Proc.devRef .tc main_v66)) Facts₀.slices_S600000x128_S600000x24_0_0 := by
  simp only [W29, hostOps5]; after_results_simp

end Cert.KernelIdeal.ChainL4

end
-- ==== Proof.KVal.lean ====
/-
  The kernel program's result buffer at the end of its run as one function of the launch memory's argument arrays: the
  projected node features, three message-passing layers, and the classifier, each layer reading the index vectors, the
  edge attributes and its own weights, which no operation and no region ever writes.
-/
import proofs.«426136_j14405320310896_3_alg».proof.Proof.ChainBase
import proofs.«426136_j14405320310896_3_alg».proof.Proof.ChainL1
import proofs.«426136_j14405320310896_3_alg».proof.Proof.ChainL2
import proofs.«426136_j14405320310896_3_alg».proof.Proof.ChainL3
import proofs.«426136_j14405320310896_3_alg».proof.Proof.ChainL4
import Idealize.ShloMosaic.Lib.StableHlo.Run

set_option maxRecDepth 65536

noncomputable section

namespace Cert.KernelIdeal.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The projected node features. -/
def h0 (x0 : FVec Ideal S100000x64 .f32) (x3 : FVec Ideal S64x128 .f32) (x4 : FVec Ideal S128 .f32) : FVec Ideal S100000x128 .f32 :=
  Cert.GnnSpec.dense x0 x3 (KOps.rowV (F := Ideal) x4)

/-- One message-passing layer on node states `h`. -/
def layer (h : FVec Ideal S100000x128 .f32) (ei : IVec S2x600000 32) (ea : FVec Ideal S600000x32 .f32)
    (ew : FVec Ideal S32x128 .f32) (eb : FVec Ideal S128 .f32) (w1 : FVec Ideal S128x128 .f32) (b1 : FVec Ideal S128 .f32)
    (w2 : FVec Ideal S128x128 .f32) (b2 : FVec Ideal S128 .f32) : FVec Ideal S100000x128 .f32 :=
  Cert.GnnSpec.update h (KOps.messages (F := Ideal) h (KOps.srcOf ei) (KOps.dstOf ei) ea ew eb) w1 (KOps.rowV (F := Ideal) b1) w2 (KOps.rowV (F := Ideal) b2)

/-- The classifier on the final node states. -/
def result (h : FVec Ideal S100000x128 .f32) (ei : IVec S2x600000 32) (ea : FVec Ideal S600000x32 .f32)
    (w : FVec Ideal S288x128 .f32) (b : FVec Ideal S128 .f32) (w2 : FVec Ideal S128x24 .f32) (b2 : FVec Ideal S24 .f32) :
    FVec Ideal S600000x24 .f32 :=
  extractStridedSlice S600000x24 ![0, 0]
    (Cert.GnnSpec.dense (KOps.edgeHidden (F := Ideal) h (KOps.srcOf ei) (KOps.dstOf ei) ea w b) (KOps.padW (F := Ideal) w2) (KOps.padB (F := Ideal) b2))
    Facts₀.slices_S600000x128_S600000x24_0_0

/-! ## Buffers nothing writes, read at each region's exit -/

theorem at2 (c : Dev nD) (b : Ref sig .tc) (h0 : ∀ w, Pipeline.arrRef spec0 w ≠ b := by decide) (h0' : b ∉ ChainBase.written0 := by decide) :
    W2 m ρ c (Proc.devRef .tc b) = m ((c : Thread nD τ).loc b) := ChainBase.W2_keep m ρ c b h0 h0'

theorem at8 (c : Dev nD) (b : Ref sig .tc) (h1 : ∀ w, Pipeline.arrRef spec1 w ≠ b := by decide) (h1' : b ∉ ChainL1.written := by decide) :
    W8 m ρ c (Proc.devRef .tc b) = W2 m ρ c (Proc.devRef .tc b) := ChainL1.keep m ρ c b h1 h1'

theorem at14 (c : Dev nD) (b : Ref sig .tc) (h1 : ∀ w, Pipeline.arrRef spec1 w ≠ b := by decide) (h1' : b ∉ ChainL1.written := by decide)
    (h2 : ∀ w, Pipeline.arrRef spec2 w ≠ b := by decide) (h2' : b ∉ ChainL2.written := by decide) :
    W14 m ρ c (Proc.devRef .tc b) = W2 m ρ c (Proc.devRef .tc b) := (ChainL2.keep m ρ c b h2 h2').trans (at8 m ρ c b h1 h1')

theorem at20 (c : Dev nD) (b : Ref sig .tc) (h1 : ∀ w, Pipeline.arrRef spec1 w ≠ b := by decide) (h1' : b ∉ ChainL1.written := by decide)
    (h2 : ∀ w, Pipeline.arrRef spec2 w ≠ b := by decide) (h2' : b ∉ ChainL2.written := by decide)
    (h3 : ∀ w, Pipeline.arrRef spec3 w ≠ b := by decide) (h3' : b ∉ ChainL3.written := by decide) :
    W20 m ρ c (Proc.devRef .tc b) = W2 m ρ c (Proc.devRef .tc b) := (ChainL3.keep m ρ c b h3 h3').trans (at14 m ρ c b h1 h1' h2 h2')

/-! ## The node states after each region -/

theorem states0 (c : Dev nD) : W2 m ρ c (Proc.devRef .tc main_v5) = h0 (m ((c : Thread nD τ).loc main_arg0)) (m ((c : Thread nD τ).loc main_arg3)) (m ((c : Thread nD τ).loc main_arg4)) := ChainBase.W2_v5 m ρ c

theorem states1 (c : Dev nD) : W8 m ρ c (Proc.devRef .tc main_v18)
    = layer (h0 (m ((c : Thread nD τ).loc main_arg0)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [ChainL1.out, states0, ChainBase.W2_v1, ChainBase.W2_v3, at2 m ρ c main_arg2, at2 m ρ c main_arg5, at2 m ρ c main_arg6,
    at2 m ρ c main_arg7, at2 m ρ c main_arg8, at2 m ρ c main_arg9, at2 m ρ c main_arg10]
  rfl

theorem states2 (c : Dev nD) : W14 m ρ c (Proc.devRef .tc main_v31)
    = layer (W8 m ρ c (Proc.devRef .tc main_v18)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [ChainL2.out, at8 m ρ c main_v1, at8 m ρ c main_v3, ChainBase.W2_v1, ChainBase.W2_v3,
    at8 m ρ c main_arg2, at8 m ρ c main_arg11, at8 m ρ c main_arg12, at8 m ρ c main_arg13, at8 m ρ c main_arg14,
    at8 m ρ c main_arg15, at8 m ρ c main_arg16,
    at2 m ρ c main_arg2, at2 m ρ c main_arg11, at2 m ρ c main_arg12, at2 m ρ c main_arg13, at2 m ρ c main_arg14,
    at2 m ρ c main_arg15, at2 m ρ c main_arg16]
  rfl

theorem states3 (c : Dev nD) : W20 m ρ c (Proc.devRef .tc main_v44)
    = layer (W14 m ρ c (Proc.devRef .tc main_v31)) (m ((c : Thread nD τ).loc main_arg1)) (m ((c : Thread nD τ).loc main_arg2)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [ChainL3.out, at14 m ρ c main_v1, at14 m ρ c main_v3, ChainBase.W2_v1, ChainBase.W2_v3,
    at14 m ρ c main_arg2, at14 m ρ c main_arg17, at14 m ρ c main_arg18, at14 m ρ c main_arg19, at14 m ρ c main_arg20,
    at14 m ρ c main_arg21, at14 m ρ c main_arg22,
    at2 m ρ c main_arg2, at2 m ρ c main_arg17, at2 m ρ c main_arg18, at2 m ρ c main_arg19, at2 m ρ c main_arg20,
    at2 m ρ c main_arg21, at2 m ρ c main_arg22]
  rfl

/-- The result buffer at the end of the run. -/
theorem value (c : Dev nD) : W29 m ρ c (Proc.devRef .tc main_v67)
    = result (layer (layer (layer (h0 (m ((c : Thread nD τ).loc main_arg0)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
        (m ((c : Thread nD τ).loc main_arg1)) (m ((c : Thread nD τ).loc main_arg2)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))
      (m ((c : Thread nD τ).loc main_arg1)) (m ((c : Thread nD τ).loc main_arg2)) (m ((c : Thread nD τ).loc main_arg23)) (m ((c : Thread nD τ).loc main_arg24)) (m ((c : Thread nD τ).loc main_arg25)) (m ((c : Thread nD τ).loc main_arg26)) := by
  rw [ChainL4.out, ChainL4.wide, states3, states2, states1, at20 m ρ c main_v1, at20 m ρ c main_v3, ChainBase.W2_v1, ChainBase.W2_v3,
    at20 m ρ c main_arg2, at20 m ρ c main_arg23, at20 m ρ c main_arg24, at20 m ρ c main_arg25, at20 m ρ c main_arg26,
    at2 m ρ c main_arg2, at2 m ρ c main_arg23, at2 m ρ c main_arg24, at2 m ρ c main_arg25, at2 m ρ c main_arg26]
  rfl

end Cert.KernelIdeal.KVal

end
-- ==== Proof.ROps.lean ====
/-
  The reference program's stages as functions of arrays: the projection of the node features, the index vector with
  negative entries wrapped, the row gather, the edge embedding, the rectifier, the accumulation of edge messages onto
  their destination nodes, a node update (the state times one plus the messages, through two dense stages each followed
  by the rectifier), the classifier's first layer on the joined edge features, and its second layer. Each is the
  composition of the printed operations, in order.
-/
import proofs.«426136_j14405320310896_3_alg».proof.Proof.Gen.ReferenceIdeal

noncomputable section

namespace Cert.ReferenceIdeal.ROps

open Cert.ReferenceIdeal Cert.ReferenceIdeal.Facts₀ Cert.ReferenceIdeal.Facts Idealize.ShloMosaic Idealize.ShloMosaic.TcCoe

variable {F : FTy → Type} [FloatOps F]

/-- The node projection: features times a weight matrix plus a bias row. -/
def lin (x : FVec F S100000x64 .f32) (w : FVec F S64x128 .f32) (b : FVec F S128 .f32) : FVec F S100000x128 .f32 :=
  addf (Host.dotGeneral dot_S100000x64_S64x128_S100000x128_1_0_0_1_n_n none x w)
    (broadcastInDim S100000x128 ![0, 1] bcast_S1x128_S100000x128_0_1 (broadcastInDim S1x128 ![1] bcast_S128_S1x128_1 b))

/-- Row 0 of the edge-index argument. -/
def srcOf (ei : IVec S2x600000 32) : IVec S600000 32 :=
  shapeCast S600000 (extractStridedSlice S1x600000 ![0, 0] ei slices_S2x600000_S1x600000_0_0) shapeCasts_S1x600000_S600000

/-- Row 1 of the edge-index argument. -/
def dstOf (ei : IVec S2x600000 32) : IVec S600000 32 :=
  shapeCast S600000 (extractStridedSlice S1x600000 ![1, 0] ei slices_S2x600000_S1x600000_1_0) shapeCasts_S1x600000_S600000

/-- An index vector with its negative entries moved up by the number of nodes. -/
def wrap (src : IVec S600000 32) : IVec S600000 32 :=
  select (cmpi .slt src (broadcastInDim S600000 ![] bcast_S_S600000 (constantI S_ 32 0#32)))
    (addi src (broadcastInDim S600000 ![] bcast_S_S600000 (constantI S_ 32 100000#32))) src

/-- The rows of `h` at the wrapped indices. -/
def rows (h : FVec F S100000x128 .f32) (src : IVec S600000 32) : FVec F S600000x128 .f32 :=
  Host.gather gather_S100000x128_S600000x1_S600000x128_1_0_n_n_0_1_1128 h
    (broadcastInDim S600000x1 ![0] bcast_S600000_S600000x1_0 (wrap src))

/-- The edge embedding: edge attributes times a weight matrix plus a bias row. -/
def embed (ea : FVec F S600000x32 .f32) (ew : FVec F S32x128 .f32) (eb : FVec F S128 .f32) : FVec F S600000x128 .f32 :=
  addf (Host.dotGeneral dot_S600000x32_S32x128_S600000x128_1_0_0_1_n_n none ea ew)
    (broadcastInDim S600000x128 ![0, 1] bcast_S1x128_S600000x128_0_1 (broadcastInDim S1x128 ![1] bcast_S128_S1x128_1 eb))

/-- The rectifier on an edge array. -/
def reluE (x : FVec F S600000x128 .f32) : FVec F S600000x128 .f32 :=
  maximumf x (broadcastInDim S600000x128 ![] bcast_S_S600000x128 (constant S_ .f32 0x00000000#32))

/-- The rectifier on a node array. -/
def reluN (x : FVec F S100000x128 .f32) : FVec F S100000x128 .f32 :=
  maximumf x (broadcastInDim S100000x128 ![] bcast_S_S100000x128 (constant S_ .f32 0x00000000#32))

/-- Edge messages accumulated onto their destination nodes, from zeros. -/
def aggregate (dst : IVec S600000 32) (msg : FVec F S600000x128 .f32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) msg

/-- One layer's aggregated messages: rectified (gathered source state plus edge embedding), summed per destination. -/
def messages (h : FVec F S100000x128 .f32) (src dst : IVec S600000 32) (ea : FVec F S600000x32 .f32)
    (ew : FVec F S32x128 .f32) (eb : FVec F S128 .f32) : FVec F S100000x128 .f32 :=
  aggregate dst (reluE (addf (rows h src) (embed ea ew eb)))

/-- A dense stage on a node array: rows times a weight matrix plus a bias row. -/
def denseN (x : FVec F S100000x128 .f32) (w : FVec F S128x128 .f32) (b : FVec F S128 .f32) : FVec F S100000x128 .f32 :=
  addf (Host.dotGeneral dot_S100000x128_S128x128_S100000x128_1_0_0_1_n_n none x w)
    (broadcastInDim S100000x128 ![0, 1] bcast_S1x128_S100000x128_0_1 (broadcastInDim S1x128 ![1] bcast_S128_S1x128_1 b))

/-- A node update: one times the state plus the messages, through two dense stages, each followed by the rectifier. -/
def update (h a : FVec F S100000x128 .f32) (w1 : FVec F S128x128 .f32) (b1 : FVec F S128 .f32)
    (w2 : FVec F S128x128 .f32) (b2 : FVec F S128 .f32) : FVec F S100000x128 .f32 :=
  reluN (denseN (reluN (denseN
    (addf (mulf (broadcastInDim S100000x128 ![] bcast_S_S100000x128 (constant S_ .f32 0x3F800000#32)) h) a) w1 b1)) w2 b2)

/-- The classifier's first layer on the joined edge features. -/
def hidden (A B : FVec F S600000x128 .f32) (ea : FVec F S600000x32 .f32) (w : FVec F S288x128 .f32) (b : FVec F S128 .f32) :
    FVec F S600000x128 .f32 :=
  reluE (addf (Host.dotGeneral dot_S600000x288_S288x128_S600000x128_1_0_0_1_n_n none
      (concatenate S600000x288 1 [⟨S600000x128, A⟩, ⟨S600000x128, B⟩, ⟨S600000x32, ea⟩]
        concatenates_S600000x128_S600000x128_S600000x32_S600000x288_d1) w)
    (broadcastInDim S600000x128 ![0, 1] bcast_S1x128_S600000x128_0_1 (broadcastInDim S1x128 ![1] bcast_S128_S1x128_1 b)))

/-- The classifier's second layer. -/
def out (t : FVec F S600000x128 .f32) (w2 : FVec F S128x24 .f32) (b2 : FVec F S24 .f32) : FVec F S600000x24 .f32 :=
  addf (Host.dotGeneral dot_S600000x128_S128x24_S600000x24_1_0_0_1_n_n none t w2)
    (broadcastInDim S600000x24 ![0, 1] bcast_S1x24_S600000x24_0_1 (broadcastInDim S1x24 ![1] bcast_S24_S1x24_1 b2))

end Cert.ReferenceIdeal.ROps

end
-- ==== Proof.RefVal.lean ====
/-
  The reference program's stages, as the generated one-operation-at-a-time reading names them, are the compositions of
  stage functions: the projection, three message-passing layers (each reading the previous layer's states), and the
  classifier on the final states.
-/
import proofs.«426136_j14405320310896_3_alg».proof.Proof.Gen.ReferenceIdeal.Read
import proofs.«426136_j14405320310896_3_alg».proof.Proof.ROps

set_option maxRecDepth 65536

noncomputable section

namespace Cert.ReferenceIdeal.RefVal

open Cert.ReferenceIdeal Cert.ReferenceIdeal.Read Idealize.ShloMosaic Idealize.ShloMosaic.TcCoe Idealize.SL.Sem

variable {F : FTy → Type} [FloatOps F]

/-- One message-passing layer on node states `h`. -/
def layer (h : FVec F S100000x128 .f32) (ei : IVec S2x600000 32) (ea : FVec F S600000x32 .f32)
    (ew : FVec F S32x128 .f32) (eb : FVec F S128 .f32) (w1 : FVec F S128x128 .f32) (b1 : FVec F S128 .f32)
    (w2 : FVec F S128x128 .f32) (b2 : FVec F S128 .f32) : FVec F S100000x128 .f32 :=
  ROps.update h (ROps.messages h (ROps.srcOf ei) (ROps.dstOf ei) ea ew eb) w1 b1 w2 b2

/-- The classifier on the final node states. -/
def result (h : FVec F S100000x128 .f32) (ei : IVec S2x600000 32) (ea : FVec F S600000x32 .f32)
    (w : FVec F S288x128 .f32) (b : FVec F S128 .f32) (w2 : FVec F S128x24 .f32) (b2 : FVec F S24 .f32) : FVec F S600000x24 .f32 :=
  ROps.out (ROps.hidden (ROps.rows h (ROps.srcOf ei)) (ROps.rows h (ROps.dstOf ei)) ea w b) w2 b2

theorem v7_eq (x0 : FVec F S100000x64 .f32) (x3 : FVec F S64x128 .f32) (x4 : FVec F S128 .f32) : val_main_v7 (F := F) x0 x3 x4 = ROps.lin x0 x3 x4 := rfl

theorem v36_eq (x0 : FVec F S100000x64 .f32) (x1 : IVec S2x600000 32) (x2 : FVec F S600000x32 .f32) (x3 : FVec F S64x128 .f32) (x4 : FVec F S128 .f32) (x5 : FVec F S32x128 .f32) (x6 : FVec F S128 .f32) (x7 : FVec F S128x128 .f32) (x8 : FVec F S128 .f32) (x9 : FVec F S128x128 .f32) (x10 : FVec F S128 .f32) :
    val_main_v36 (F := F) x0 x1 x2 x3 x4 x5 x6 x7 x8 x9 x10 = layer (val_main_v7 (F := F) x0 x3 x4) x1 x2 x5 x6 x7 x8 x9 x10 := rfl

theorem v65_eq (x0 : FVec F S100000x64 .f32) (x1 : IVec S2x600000 32) (x2 : FVec F S600000x32 .f32) (x3 : FVec F S64x128 .f32) (x4 : FVec F S128 .f32) (x5 : FVec F S32x128 .f32) (x6 : FVec F S128 .f32) (x7 : FVec F S128x128 .f32) (x8 : FVec F S128 .f32) (x9 : FVec F S128x128 .f32) (x10 : FVec F S128 .f32) (x11 : FVec F S32x128 .f32) (x12 : FVec F S128 .f32) (x13 : FVec F S128x128 .f32) (x14 : FVec F S128 .f32) (x15 : FVec F S128x128 .f32) (x16 : FVec F S128 .f32) :
    val_main_v65 (F := F) x0 x1 x2 x3 x4 x5 x6 x7 x8 x9 x10 x11 x12 x13 x14 x15 x16 = layer (val_main_v36 (F := F) x0 x1 x2 x3 x4 x5 x6 x7 x8 x9 x10) x1 x2 x11 x12 x13 x14 x15 x16 := rfl

theorem v94_eq (x0 : FVec F S100000x64 .f32) (x1 : IVec S2x600000 32) (x2 : FVec F S600000x32 .f32) (x3 : FVec F S64x128 .f32) (x4 : FVec F S128 .f32) (x5 : FVec F S32x128 .f32) (x6 : FVec F S128 .f32) (x7 : FVec F S128x128 .f32) (x8 : FVec F S128 .f32) (x9 : FVec F S128x128 .f32) (x10 : FVec F S128 .f32) (x11 : FVec F S32x128 .f32) (x12 : FVec F S128 .f32) (x13 : FVec F S128x128 .f32) (x14 : FVec F S128 .f32) (x15 : FVec F S128x128 .f32) (x16 : FVec F S128 .f32) (x17 : FVec F S32x128 .f32) (x18 : FVec F S128 .f32) (x19 : FVec F S128x128 .f32) (x20 : FVec F S128 .f32) (x21 : FVec F S128x128 .f32) (x22 : FVec F S128 .f32) :
    val_main_v94 (F := F) x0 x1 x2 x3 x4 x5 x6 x7 x8 x9 x10 x11 x12 x13 x14 x15 x16 x17 x18 x19 x20 x21 x22 = layer (val_main_v65 (F := F) x0 x1 x2 x3 x4 x5 x6 x7 x8 x9 x10 x11 x12 x13 x14 x15 x16) x1 x2 x17 x18 x19 x20 x21 x22 := rfl

theorem v118_eq (x0 : FVec F S100000x64 .f32) (x1 : IVec S2x600000 32) (x2 : FVec F S600000x32 .f32) (x3 : FVec F S64x128 .f32) (x4 : FVec F S128 .f32) (x5 : FVec F S32x128 .f32) (x6 : FVec F S128 .f32) (x7 : FVec F S128x128 .f32) (x8 : FVec F S128 .f32) (x9 : FVec F S128x128 .f32) (x10 : FVec F S128 .f32) (x11 : FVec F S32x128 .f32) (x12 : FVec F S128 .f32) (x13 : FVec F S128x128 .f32) (x14 : FVec F S128 .f32) (x15 : FVec F S128x128 .f32) (x16 : FVec F S128 .f32) (x17 : FVec F S32x128 .f32) (x18 : FVec F S128 .f32) (x19 : FVec F S128x128 .f32) (x20 : FVec F S128 .f32) (x21 : FVec F S128x128 .f32) (x22 : FVec F S128 .f32) (x23 : FVec F S288x128 .f32) (x24 : FVec F S128 .f32) (x25 : FVec F S128x24 .f32) (x26 : FVec F S24 .f32) :
    val_main_v118 (F := F) x0 x1 x2 x3 x4 x5 x6 x7 x8 x9 x10 x11 x12 x13 x14 x15 x16 x17 x18 x19 x20 x21 x22 x23 x24 x25 x26 = result (val_main_v94 (F := F) x0 x1 x2 x3 x4 x5 x6 x7 x8 x9 x10 x11 x12 x13 x14 x15 x16 x17 x18 x19 x20 x21 x22) x1 x2 x23 x24 x25 x26 := rfl

/-- The reference's result as the stage functions composed, from the argument arrays. -/
theorem value (x0 : FVec F S100000x64 .f32) (x1 : IVec S2x600000 32) (x2 : FVec F S600000x32 .f32) (x3 : FVec F S64x128 .f32) (x4 : FVec F S128 .f32) (x5 : FVec F S32x128 .f32) (x6 : FVec F S128 .f32) (x7 : FVec F S128x128 .f32) (x8 : FVec F S128 .f32) (x9 : FVec F S128x128 .f32) (x10 : FVec F S128 .f32) (x11 : FVec F S32x128 .f32) (x12 : FVec F S128 .f32) (x13 : FVec F S128x128 .f32) (x14 : FVec F S128 .f32) (x15 : FVec F S128x128 .f32) (x16 : FVec F S128 .f32) (x17 : FVec F S32x128 .f32) (x18 : FVec F S128 .f32) (x19 : FVec F S128x128 .f32) (x20 : FVec F S128 .f32) (x21 : FVec F S128x128 .f32) (x22 : FVec F S128 .f32) (x23 : FVec F S288x128 .f32) (x24 : FVec F S128 .f32) (x25 : FVec F S128x24 .f32) (x26 : FVec F S24 .f32) :
    val_main_v118 (F := F) x0 x1 x2 x3 x4 x5 x6 x7 x8 x9 x10 x11 x12 x13 x14 x15 x16 x17 x18 x19 x20 x21 x22 x23 x24 x25 x26
      = result (layer (layer (layer (ROps.lin x0 x3 x4) x1 x2 x5 x6 x7 x8 x9 x10) x1 x2 x11 x12 x13 x14 x15 x16)
          x1 x2 x17 x18 x19 x20 x21 x22) x1 x2 x23 x24 x25 x26 := by
  rw [v118_eq, v94_eq, v65_eq, v36_eq, v7_eq]

end Cert.ReferenceIdeal.RefVal

end
-- ==== Proof.Take.lean ====
/-
  The filled row gather when every index is in range.

  The index vector is first wrapped (a negative entry moved up by the number of nodes, 100000), then each wrapped entry
  is tested against `[0, 99999]`, and the gathered row is kept where the test holds and replaced by a not-a-number
  pattern where it fails. For an index vector whose entries, read signed, all lie in `[0, 100000)`: no entry is negative,
  so wrapping changes nothing; every entry passes the test, so the conjunction over the one-column axis is 1 at every
  edge; and the select keeps the gathered row everywhere. The filled gather is then the plain gather at the indices.
-/
import proofs.«426136_j14405320310896_3_alg».proof.Proof.KOps
import Idealize.ShloMosaic.Lib.ValueIdx
import Idealize.ShloMosaic.Lib.Affine
import Idealize.ShloMosaic.PureOps.Contract

noncomputable section

namespace Cert.KernelIdeal.Take

open Cert.KernelIdeal Cert.KernelIdeal.Facts₀ Cert.KernelIdeal.Facts Idealize.ShloMosaic Idealize.ShloMosaic.TcCoe
open Idealize.ShloMosaic.ValueIdx

variable {F : FTy → Type} [FloatOps F]

/-! ## Signed compares of a word in range -/

/-- A word whose signed value is not negative is not below zero … -/
theorem cmpi_slt_zero (w : BitVec 32) (h : 0 ≤ w.toInt) : IntOp.cmpi .slt w 0#32 = 0#1 :=
  eq_zero_of_ne_one fun e => by
    have h0 : (0#32 : BitVec 32).toInt = 0 := by decide
    have := IntOp.cmpi_slt.1 e
    omega

/-- … and is at least zero. -/
theorem cmpi_sge_zero (w : BitVec 32) (h : 0 ≤ w.toInt) : IntOp.cmpi .sge w 0#32 = 1#1 :=
  IntOp.cmpi_sge.2 (by
    have h0 : (0#32 : BitVec 32).toInt = 0 := by decide
    omega)

/-- A word whose signed value is below 100000 is at most 99999. -/
theorem cmpi_sle_last (w : BitVec 32) (h : w.toInt < 100000) : IntOp.cmpi .sle w 99999#32 = 1#1 :=
  IntOp.cmpi_sle.2 (by
    have h0 : (99999#32 : BitVec 32).toInt = 99999 := by decide
    omega)

/-! ## A conjunction over an axis, all of whose operands hold -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) (f a) = 1#1 := by rw [hf a]; decide
    show l.foldl (fun r n => IntOp.andi r (f n)) (IntOp.andi 1#1 (f a)) = 1#1
    rw [e]
    exact foldl_andi_ones f hf l

/-- A reduction by `and`, from the constant 1, of an array that is 1 everywhere is 1 everywhere: whichever operand
    indices reduce into a result index, the fold over them meets only 1s. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  unfold Host.reduce
  exact foldl_andi_ones (fun n => x (s.rowMajor.symm n)) (fun n => hx _) _

/-! ## The wrapped index vector, the range test and the filled gather, all indices in range -/

/-- No entry is negative, so wrapping leaves the index vector as it is. -/
theorem wrap_id (src : IVec S600000 32) (hs : ∀ e, 0 ≤ (src e).toInt ∧ (src e).toInt < 100000) : KOps.wrap src = src := by
  funext e
  unfold KOps.wrap
  rw [select_apply]
  show Scalar.select (IntOp.cmpi .slt (src e) 0#32) _ _ = src e
  rw [cmpi_slt_zero _ (hs e).1]
  exact select_zero _ _

/-- The start indices are then the index vector itself laid out as one column. -/
theorem col_eq (src : IVec S600000 32) (hs : ∀ e, 0 ≤ (src e).toInt ∧ (src e).toInt < 100000) :
    KOps.col src = broadcastInDim S600000x1 ![0] bcast_S600000_S600000x1_0 src := by
  unfold KOps.col
  rw [wrap_id src hs]

/-- Every edge's index passes the range test: each entry of the one-column start indices is an entry of the index
    vector, which is at least 0 and at most 99999, and the conjunction over the column axis of 1s is 1. -/
theorem inRange_one (src : IVec S600000 32) (hs : ∀ e, 0 ≤ (src e).toInt ∧ (src e).toInt < 100000) (j : S600000.Idx) :
    KOps.inRange src j = 1#1 := by
  unfold KOps.inRange
  refine reduce_andi_ones _ _ _ (fun i => ?_) j
  show IntOp.andi (IntOp.cmpi .sge (KOps.col src i) 0#32) (IntOp.cmpi .sle (KOps.col src i) 99999#32) = 1#1
  obtain ⟨k, hk⟩ : ∃ k, KOps.col src i = src k := by
    rw [col_eq src hs]
    unfold broadcastInDim
    exact ⟨_, rfl⟩
  rw [hk, cmpi_sge_zero _ (hs k).1, cmpi_sle_last _ (hs k).2]
  decide

/-- THE FILLED GATHER IS THE GATHER: with every index in range the select keeps the gathered row at every element. -/
theorem take_eq (h : FVec F S100000x128 .f32) (src : IVec S600000 32)
    (hs : ∀ e, 0 ≤ (src e).toInt ∧ (src e).toInt < 100000) : KOps.take h src = KOps.rows h src := by
  funext i
  unfold KOps.take
  rw [select_apply]
  have hm : broadcastInDim S600000x128 ![0] bcast_S600000_S600000x128_0 (KOps.inRange src) i = 1#1 := by
    unfold broadcastInDim
    exact inRange_one src hs _
  rw [hm]
  exact select_one _ _

/-- The gathered rows are the rows of `h` at the index vector itself … -/
theorem rows_eq (h : FVec F S100000x128 .f32) (src : IVec S600000 32)
    (hs : ∀ e, 0 ≤ (src e).toInt ∧ (src e).toInt < 100000) :
    KOps.rows h src = Host.gather gather_S100000x128_S600000x1_S600000x128_1_0_n_n_0_1_1128 h
      (broadcastInDim S600000x1 ![0] bcast_S600000_S600000x1_0 src) := by
  unfold KOps.rows
  rw [col_eq src hs]

/-- … and so is the filled gather. -/
theorem take_eq_gather (h : FVec F S100000x128 .f32) (src : IVec S600000 32)
    (hs : ∀ e, 0 ≤ (src e).toInt ∧ (src e).toInt < 100000) :
    KOps.take h src = Host.gather gather_S100000x128_S600000x1_S600000x128_1_0_n_n_0_1_1128 h
      (broadcastInDim S600000x1 ![0] bcast_S600000_S600000x1_0 src) := by
  rw [take_eq h src hs, rows_eq h src hs]

end Cert.KernelIdeal.Take

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.Bridge.lean ====
/-
  The host-side stages of the two programs are the same functions of arrays.

  Both programs slice the two rows out of the edge-index array, wrap negative indices, gather rows of the node states,
  embed the edge attributes, rectify, and accumulate messages onto destination nodes, by the same operations with the
  same dimension numbers: stage by stage the two compositions are one term. The kernel program's gather also tests each
  wrapped index against the valid range and fills with a not-a-number pattern where the test fails; with every index in
  range the fill never happens, so its gather is the plain gather and a layer's messages, and the classifier's first
  layer, are stated over the plain gathers. A bias vector reshaped to one row is the vector read along the row.
-/
import proofs.«426136_j14405320310896_3_alg».proof.Proof.KOps
import proofs.«426136_j14405320310896_3_alg».proof.Proof.ROps
import proofs.«426136_j14405320310896_3_alg».proof.Proof.Take
import proofs.«426136_j14405320310896_3_alg».proof.Proof.Spec
import proofs.«426136_j14405320310896_3_alg».proof.Proof.LibSlice
import Idealize.ShloMosaic.Lib.ValueIdx

noncomputable section

namespace Cert.Bridge

open Idealize.ShloMosaic Idealize.ShloMosaic.ValueIdx
open Cert.KernelIdeal

variable {F : FTy → Type} [FloatOps F]

/-! ## The index vectors -/

/-- Row 0 of the edge-index array is the same vector in both programs. -/
theorem srcOf_eq (ei : IVec S2x600000 32) : KOps.srcOf ei = Cert.ReferenceIdeal.ROps.srcOf ei := rfl

/-- Row 1 of the edge-index array is the same vector in both programs. -/
theorem dstOf_eq (ei : IVec S2x600000 32) : KOps.dstOf ei = Cert.ReferenceIdeal.ROps.dstOf ei := rfl

/-- Wrapping the negative entries is the same map in both programs. -/
theorem wrap_eq (src : IVec S600000 32) : KOps.wrap src = Cert.ReferenceIdeal.ROps.wrap src := rfl

/-! ## The stages, one at a time: the two programs apply the same operations with the same dimension numbers -/

/-- The rows of `h` at the wrapped indices. -/
theorem rows_eq (h : FVec F S100000x128 .f32) (src : IVec S600000 32) :
    KOps.rows h src = Cert.ReferenceIdeal.ROps.rows h src := rfl

/-- The edge embedding. -/
theorem embed_eq (ea : FVec F S600000x32 .f32) (ew : FVec F S32x128 .f32) (eb : FVec F S128 .f32) :
    KOps.embed ea ew eb = Cert.ReferenceIdeal.ROps.embed ea ew eb := rfl

/-- The rectifier on an edge array. -/
theorem reluE_eq (x : FVec F S600000x128 .f32) : KOps.reluE x = Cert.ReferenceIdeal.ROps.reluE x := rfl

/-- The accumulation of edge messages onto their destination nodes. -/
theorem aggregate_eq (dst : IVec S600000 32) (msg : FVec F S600000x128 .f32) :
    KOps.aggregate dst msg = Cert.ReferenceIdeal.ROps.aggregate dst msg := rfl

/-! ## One layer's messages -/

/-- With every source index in range the filled gather is the gather, and the layer's aggregated messages are the
    reference's: rectified (rows of `h` at the source indices plus the edge embedding), summed per destination. -/
theorem messages_eq (h : FVec F S100000x128 .f32) (src dst : IVec S600000 32) (ea : FVec F S600000x32 .f32)
    (ew : FVec F S32x128 .f32) (eb : FVec F S128 .f32) (hs : ∀ e, 0 ≤ (src e).toInt ∧ (src e).toInt < 100000) :
    KOps.messages h src dst ea ew eb = Cert.ReferenceIdeal.ROps.messages h src dst ea ew eb := by
  unfold KOps.messages Cert.ReferenceIdeal.ROps.messages
  rw [Take.take_eq h src hs, rows_eq h src, embed_eq ea ew eb, reluE_eq, aggregate_eq]

/-! ## A bias vector as a one-row matrix -/

/-- The vector reshaped to one row has entry `(0, q)` equal to the vector's entry `q`. -/
theorem rowV_eq (b : FVec Ideal S128 .f32) : KOps.rowV (F := Ideal) b = Cert.GnnSpec.rowOf b := by
  funext i
  obtain ⟨p, q, rfl⟩ : ∃ (p : Fin 1) (q : Fin 128), i = ix2 p q := ⟨i 0, i 1, eq_ix2 i⟩
  obtain rfl : p = 0 := Subsingleton.elim _ _
  unfold KOps.rowV
  exact Cert.LibSlice.row_of_vec_apply b _ q

/-! ## The classifier's first layer -/

/-- With every source and destination index in range, the classifier's first layer reads the plain gathers of the node
    states at the two index vectors. -/
theorem hidden_rows_eq (h : FVec F S100000x128 .f32) (src dst : IVec S600000 32) (ea : FVec F S600000x32 .f32)
    (w : FVec F S288x128 .f32) (b : FVec F S128 .f32)
    (hs : ∀ e, 0 ≤ (src e).toInt ∧ (src e).toInt < 100000) (hd : ∀ e, 0 ≤ (dst e).toInt ∧ (dst e).toInt < 100000) :
    KOps.edgeHidden h src dst ea w b
      = KOps.hidden (Cert.ReferenceIdeal.ROps.rows h src) (Cert.ReferenceIdeal.ROps.rows h dst) ea w b := by
  unfold KOps.edgeHidden
  rw [Take.take_eq h src hs, Take.take_eq h dst hd, rows_eq h src, rows_eq h dst]

end Cert.Bridge

end
-- ==== Proof.RefSpec.lean ====
/-
  Two stages of the reference program, each a composition of its printed operations, are the index-by-index functions of
  the specification, on the extended reals. The node projection and a dense stage on a node array send `(x, w, b)` to the
  array whose entry `(r, j)` is `∑ k, x (r, k) · w (k, j) + b j`: a contraction over one axis is that sum over `Fin K`,
  and the bias, laid out as one row and repeated down the rows, reads `b j`. The rectifier is the larger of an entry and
  zero. A node update multiplies the state by the constant one, adds the messages, and passes the sum through two dense
  stages, each followed by the rectifier; one times an extended real is that extended real.
-/
import proofs.«426136_j14405320310896_3_alg».proof.Proof.ROps
import proofs.«426136_j14405320310896_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefSpec

open Cert.ReferenceIdeal Cert.ReferenceIdeal.Facts₀ Cert.ReferenceIdeal.Facts Idealize.ShloMosaic Idealize.ShloMosaic.TcCoe
open Idealize.ShloMosaic.ValueIdx

/-! ## The bias row, and a scalar, repeated over an array -/

/-- A vector laid out as a one-row matrix and then repeated down the rows reads, at `(r, j)`, the vector's entry `j`. -/
theorem bias_apply (b : FVec Ideal S128 .f32) (i : S100000x128.Idx) :
    broadcastInDim S100000x128 ![0, 1] bcast_S1x128_S100000x128_0_1 (broadcastInDim S1x128 ![1] bcast_S128_S1x128_1 b) i
      = b (ix1 (i 1)) := by
  generalize hy : broadcastInDim S1x128 ![1] bcast_S128_S1x128_1 b = y
  rw [broadcastInDim_apply _ bcast_S1x128_S100000x128_0_1 y i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])

/-- A scalar repeated over the whole array reads the scalar at every index. -/
theorem splat_apply (c : FVec Ideal S_ .f32) (i : S100000x128.Idx) :
    broadcastInDim S100000x128 ![] bcast_S_S100000x128 c i = c ix0 :=
  broadcastInDim_apply _ bcast_S_S100000x128 c i ix0 (fun a => a.elim0)

/-! ## The two contractions: one contracted axis, re-indexed to `Fin K` -/

/-- On the left operand's axis 0 the index read is the output's row. -/
theorem lhs64_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide),
    dif_pos (show (0 : Fin S100000x64.rank) ∈ dot_S100000x64_S64x128_S100000x128_1_0_0_1_n_n.lhsNonContracting by decide)]
  rfl
/-- On the left operand's axis 1 the index read is the contraction's. -/
theorem lhs64_1 (i : S100000x128.Idx) (q : dot_S100000x64_S64x128_S100000x128_1_0_0_1_n_n.contr.Idx) :
    (dot_S100000x64_S64x128_S100000x128_1_0_0_1_n_n.lhsIdx i q 1).val = (q ⟨0, by decide⟩).val :=
  dot_S100000x64_S64x128_S100000x128_1_0_0_1_n_n.lhsIdx_val_of_single rfl i q
/-- On the right operand's axis 0 the index read is the contraction's. -/
theorem rhs64_0 (i : S100000x128.Idx) (q : dot_S100000x64_S64x128_S100000x128_1_0_0_1_n_n.contr.Idx) :
    (dot_S100000x64_S64x128_S100000x128_1_0_0_1_n_n.rhsIdx i q 0).val = (q ⟨0, by decide⟩).val :=
  dot_S100000x64_S64x128_S100000x128_1_0_0_1_n_n.rhsIdx_val_of_single rfl i q
/-- On the right operand's axis 1 the index read is the output's column. -/
theorem rhs64_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide),
    dif_pos (show (1 : Fin S64x128.rank) ∈ dot_S100000x64_S64x128_S100000x128_1_0_0_1_n_n.rhsNonContracting by decide)]
  rfl

/-- The product of a 100000x64 array and a 64x128 array at `(r, j)` is `∑ k, x (r, k) · w (k, j)` over `Fin 64`. -/
theorem dot64_apply (x : FVec Ideal S100000x64 .f32) (w : FVec Ideal S64x128 .f32) (i : S100000x128.Idx) :
    Host.dotGeneral dot_S100000x64_S64x128_S100000x128_1_0_0_1_n_n none x w i = ∑ k : Fin 64, x (ix2 (i 0) k) * w (ix2 k (i 1)) := by
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx i ((ValueIdx.contrEquiv1 dot_S100000x64_S64x128_S100000x128_1_0_0_1_n_n 64 rfl rfl).symm k) = ix2 (i 0) k :=
    funext fun a => Fin.ext (by
      match a with
      | ⟨0, _⟩ => exact lhs64_0 _ _
      | ⟨1, _⟩ => exact (lhs64_1 _ _).trans hk)
  have er : dot_S100000x64_S64x128_S100000x128_1_0_0_1_n_n.rhsIdx i ((ValueIdx.contrEquiv1 dot_S100000x64_S64x128_S100000x128_1_0_0_1_n_n 64 rfl rfl).symm k) = ix2 k (i 1) :=
    funext fun a => Fin.ext (by
      match a with
      | ⟨0, _⟩ => exact (rhs64_0 _ _).trans hk
      | ⟨1, _⟩ => exact rhs64_1 _ _)
  rw [el, er]
  rfl

/-- On the left operand's axis 0 the index read is the output's row. -/
theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- On the left operand's axis 1 the index read is the contraction's. -/
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- On the right operand's axis 0 the index read is the contraction's. -/
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- On the right operand's axis 1 the index read is the output's column. -/
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The product of a 100000x128 array and a 128x128 array at `(r, j)` is `∑ k, x (r, k) · w (k, j)` over `Fin 128`. -/
theorem dot128_apply (x : FVec Ideal S100000x128 .f32) (w : FVec Ideal S128x128 .f32) (i : S100000x128.Idx) :
    Host.dotGeneral dot_S100000x128_S128x128_S100000x128_1_0_0_1_n_n none x w i = ∑ k : Fin 128, x (ix2 (i 0) k) * w (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k :=
    funext fun a => Fin.ext (by
      match a with
      | ⟨0, _⟩ => exact lhs128_0 _ _
      | ⟨1, _⟩ => exact (lhs128_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) :=
    funext fun a => Fin.ext (by
      match a with
      | ⟨0, _⟩ => exact (rhs128_0 _ _).trans hk
      | ⟨1, _⟩ => exact rhs128_1 _ _)
  rw [el, er]
  rfl

/-! ## The stages -/

/-- The node projection is the dense stage: entry `(r, j)` is `∑ k, x (r, k) · w (k, j) + b j`. -/
theorem lin_eq (x : FVec Ideal S100000x64 .f32) (w : FVec Ideal S64x128 .f32) (b : FVec Ideal S128 .f32) :
    ROps.lin (F := Ideal) x w b = Cert.GnnSpec.dense x w (Cert.GnnSpec.rowOf b) := by
  funext i
  unfold ROps.lin
  rw [addf_apply, dot64_apply, bias_apply]
  rfl

/-- A dense stage on a node array is the dense stage: entry `(r, j)` is `∑ k, x (r, k) · w (k, j) + b j`. -/
theorem denseN_eq (x : FVec Ideal S100000x128 .f32) (w : FVec Ideal S128x128 .f32) (b : FVec Ideal S128 .f32) :
    ROps.denseN (F := Ideal) x w b = Cert.GnnSpec.dense x w (Cert.GnnSpec.rowOf b) := by
  funext i
  unfold ROps.denseN
  rw [addf_apply, dot128_apply, bias_apply]
  rfl

/-- The rectifier on a node array takes the larger of each entry and zero. -/
theorem reluN_eq (x : FVec Ideal S100000x128 .f32) : ROps.reluN (F := Ideal) x = Cert.GnnSpec.relu x := by
  funext i
  unfold ROps.reluN
  rw [maximumf_apply, splat_apply, constant_apply, Ideal.ofBits_zero_f32]
  rfl

/-- One times the state, plus the messages, is the entrywise sum of the two. -/
theorem one_mul_add_eq (h a : FVec Ideal S100000x128 .f32) :
    addf (mulf (broadcastInDim S100000x128 ![] bcast_S_S100000x128 (constant (F := Ideal) S_ .f32 0x3F800000#32)) h) a
      = fun i => h i + a i := by
  funext i
  rw [addf_apply, mulf_apply, splat_apply, constant_apply, Ideal.ofBits_one_f32, one_mul]

/-- A node update is the update of the specification: the states plus the messages, through two dense stages, each
    followed by the rectifier. -/
theorem update_eq (h a : FVec Ideal S100000x128 .f32) (w1 : FVec Ideal S128x128 .f32) (b1 : FVec Ideal S128 .f32)
    (w2 : FVec Ideal S128x128 .f32) (b2 : FVec Ideal S128 .f32) :
    ROps.update (F := Ideal) h a w1 b1 w2 b2
      = Cert.GnnSpec.update h a w1 (Cert.GnnSpec.rowOf b1) w2 (Cert.GnnSpec.rowOf b2) := by
  unfold ROps.update
  rw [one_mul_add_eq, reluN_eq, denseN_eq, reluN_eq, denseN_eq]
  rfl

end Cert.ReferenceIdeal.RefSpec

end
-- ==== Proof.Classify.lean ====
/-
  The edge classifier's first layer, computed two ways, on the extended reals.

  One way multiplies each of two edge arrays of node states `A`, `B` (128 columns each) and the edge attributes `C`
  (32 columns) by its own block of rows of the weight `w` (rows 0–127, 128–255, 256–287), adds the three products and the
  bias row, and takes the larger of each entry and zero. The other joins `A`, `B`, `C` side by side into one array of
  288 columns, multiplies it by the whole weight, adds the bias row and takes the larger of each entry and zero.
  Entry `(e, c)` of both is
  `max (∑_{k<128} A(e,k)·w(k,c) + ∑_{k<128} B(e,k)·w(128+k,c) + ∑_{k<32} C(e,k)·w(256+k,c) + b(c)) 0`:
  a sum over 288 coordinates is the sum over its first 128, its next 128 and its last 32, and on each block the joined
  array is the block's own array. Only the associativity of addition is used.
-/
import proofs.«426136_j14405320310896_3_alg».proof.Proof.Gen.KernelIdeal
import proofs.«426136_j14405320310896_3_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin
import proofs.«426136_j14405320310896_3_alg».proof.Proof.KOps
import proofs.«426136_j14405320310896_3_alg».proof.Proof.ROps

noncomputable section

open scoped BigOperators

namespace Cert.Classify

open Idealize.ShloMosaic Idealize.ShloMosaic.ValueIdx

section KernelSide
open Cert.KernelIdeal Cert.KernelIdeal.Facts₀

theorem kdotN_lhs0 (i : S600000x128.Idx) (q : dot_S600000x128_S128x128_S600000x128_1_0_0_1_n_n.contr.Idx) :
    (dot_S600000x128_S128x128_S600000x128_1_0_0_1_n_n.lhsIdx i q 0).val = (i 0).val := by
  unfold DotDims.lhsIdx
  rw [dif_neg (show ¬(0 : Fin S600000x128.rank) ∈ dot_S600000x128_S128x128_S600000x128_1_0_0_1_n_n.lhsBatch by decide), dif_pos (show (0 : Fin S600000x128.rank) ∈ dot_S600000x128_S128x128_S600000x128_1_0_0_1_n_n.lhsNonContracting by decide)]
  rfl
theorem kdotN_lhs1 (i : S600000x128.Idx) (q : dot_S600000x128_S128x128_S600000x128_1_0_0_1_n_n.contr.Idx) :
    (dot_S600000x128_S128x128_S600000x128_1_0_0_1_n_n.lhsIdx i q 1).val = (q ⟨0, by decide⟩).val :=
  dot_S600000x128_S128x128_S600000x128_1_0_0_1_n_n.lhsIdx_val_of_single rfl i q
theorem kdotN_rhs0 (i : S600000x128.Idx) (q : dot_S600000x128_S128x128_S600000x128_1_0_0_1_n_n.contr.Idx) :
    (dot_S600000x128_S128x128_S600000x128_1_0_0_1_n_n.rhsIdx i q 0).val = (q ⟨0, by decide⟩).val :=
  dot_S600000x128_S128x128_S600000x128_1_0_0_1_n_n.rhsIdx_val_of_single rfl i q
theorem kdotN_rhs1 (i : S600000x128.Idx) (q : dot_S600000x128_S128x128_S600000x128_1_0_0_1_n_n.contr.Idx) :
    (dot_S600000x128_S128x128_S600000x128_1_0_0_1_n_n.rhsIdx i q 1).val = (i 1).val := by
  unfold DotDims.rhsIdx
  rw [dif_neg (show ¬(1 : Fin S128x128.rank) ∈ dot_S600000x128_S128x128_S600000x128_1_0_0_1_n_n.rhsBatch by decide), dif_pos (show (1 : Fin S128x128.rank) ∈ dot_S600000x128_S128x128_S600000x128_1_0_0_1_n_n.rhsNonContracting by decide)]
  rfl

/-- An entry of the product of an edge array of node states with a 128-row block of the weight: the sum over the 128 contracted coordinates. -/
theorem kdotN_apply (x : FVec Ideal S600000x128 .f32) (y : FVec Ideal S128x128 .f32) (i : S600000x128.Idx) :
    Host.dotGeneral dot_S600000x128_S128x128_S600000x128_1_0_0_1_n_n none x y i = ∑ k : Fin 128, x (ix2 (i 0) k) * y (ix2 k (i 1)) := by
  simp only [Host.dotGeneral]
  rw [Ideal.dotGeneral_apply, ← Equiv.sum_comp (ValueIdx.contrEquiv1 dot_S600000x128_S128x128_S600000x128_1_0_0_1_n_n 128 rfl rfl).symm]
  refine Finset.sum_congr rfl fun k _ => ?_
  have hk := ValueIdx.contrEquiv1_symm_val dot_S600000x128_S128x128_S600000x128_1_0_0_1_n_n 128 rfl rfl k
  have el : dot_S600000x128_S128x128_S600000x128_1_0_0_1_n_n.lhsIdx i ((ValueIdx.contrEquiv1 dot_S600000x128_S128x128_S600000x128_1_0_0_1_n_n 128 rfl rfl).symm k) = ix2 (i 0) k := funext fun a => Fin.ext (by
    match a with
    | ⟨0, _⟩ => exact kdotN_lhs0 _ _
    | ⟨1, _⟩ => exact (kdotN_lhs1 _ _).trans hk)
  have er : dot_S600000x128_S128x128_S600000x128_1_0_0_1_n_n.rhsIdx i ((ValueIdx.contrEquiv1 dot_S600000x128_S128x128_S600000x128_1_0_0_1_n_n 128 rfl rfl).symm k) = ix2 k (i 1) := funext fun a => Fin.ext (by
    match a with
    | ⟨0, _⟩ => exact (kdotN_rhs0 _ _).trans hk
    | ⟨1, _⟩ => exact kdotN_rhs1 _ _)
  rw [el, er]
  rfl

theorem kdotN_at (x : FVec Ideal S600000x128 .f32) (y : FVec Ideal S128x128 .f32) (e : Fin 600000) (c : Fin 128) :
    Host.dotGeneral dot_S600000x128_S128x128_S600000x128_1_0_0_1_n_n none x y (ix2 e c) = ∑ k : Fin 128, x (ix2 e k) * y (ix2 k c) :=
  kdotN_apply x y (ix2 e c)

theorem kdotE_lhs0 (i : S600000x128.Idx) (q : dot_S600000x32_S32x128_S600000x128_1_0_0_1_n_n.contr.Idx) :
    (dot_S600000x32_S32x128_S600000x128_1_0_0_1_n_n.lhsIdx i q 0).val = (i 0).val := by
  unfold DotDims.lhsIdx
  rw [dif_neg (show ¬(0 : Fin S600000x32.rank) ∈ dot_S600000x32_S32x128_S600000x128_1_0_0_1_n_n.lhsBatch by decide), dif_pos (show (0 : Fin S600000x32.rank) ∈ dot_S600000x32_S32x128_S600000x128_1_0_0_1_n_n.lhsNonContracting by decide)]
  rfl
theorem kdotE_lhs1 (i : S600000x128.Idx) (q : dot_S600000x32_S32x128_S600000x128_1_0_0_1_n_n.contr.Idx) :
    (dot_S600000x32_S32x128_S600000x128_1_0_0_1_n_n.lhsIdx i q 1).val = (q ⟨0, by decide⟩).val :=
  dot_S600000x32_S32x128_S600000x128_1_0_0_1_n_n.lhsIdx_val_of_single rfl i q
theorem kdotE_rhs0 (i : S600000x128.Idx) (q : dot_S600000x32_S32x128_S600000x128_1_0_0_1_n_n.contr.Idx) :
    (dot_S600000x32_S32x128_S600000x128_1_0_0_1_n_n.rhsIdx i q 0).val = (q ⟨0, by decide⟩).val :=
  dot_S600000x32_S32x128_S600000x128_1_0_0_1_n_n.rhsIdx_val_of_single rfl i q
theorem kdotE_rhs1 (i : S600000x128.Idx) (q : dot_S600000x32_S32x128_S600000x128_1_0_0_1_n_n.contr.Idx) :
    (dot_S600000x32_S32x128_S600000x128_1_0_0_1_n_n.rhsIdx i q 1).val = (i 1).val := by
  unfold DotDims.rhsIdx
  rw [dif_neg (show ¬(1 : Fin S32x128.rank) ∈ dot_S600000x32_S32x128_S600000x128_1_0_0_1_n_n.rhsBatch by decide), dif_pos (show (1 : Fin S32x128.rank) ∈ dot_S600000x32_S32x128_S600000x128_1_0_0_1_n_n.rhsNonContracting by decide)]
  rfl

/-- An entry of the product of the edge attributes with the 32-row block of the weight: the sum over the 32 contracted coordinates. -/
theorem kdotE_apply (x : FVec Ideal S600000x32 .f32) (y : FVec Ideal S32x128 .f32) (i : S600000x128.Idx) :
    Host.dotGeneral dot_S600000x32_S32x128_S600000x128_1_0_0_1_n_n none x y i = ∑ k : Fin 32, x (ix2 (i 0) k) * y (ix2 k (i 1)) := by
  simp only [Host.dotGeneral]
  rw [Ideal.dotGeneral_apply, ← Equiv.sum_comp (ValueIdx.contrEquiv1 dot_S600000x32_S32x128_S600000x128_1_0_0_1_n_n 32 rfl rfl).symm]
  refine Finset.sum_congr rfl fun k _ => ?_
  have hk := ValueIdx.contrEquiv1_symm_val dot_S600000x32_S32x128_S600000x128_1_0_0_1_n_n 32 rfl rfl k
  have el : dot_S600000x32_S32x128_S600000x128_1_0_0_1_n_n.lhsIdx i ((ValueIdx.contrEquiv1 dot_S600000x32_S32x128_S600000x128_1_0_0_1_n_n 32 rfl rfl).symm k) = ix2 (i 0) k := funext fun a => Fin.ext (by
    match a with
    | ⟨0, _⟩ => exact kdotE_lhs0 _ _
    | ⟨1, _⟩ => exact (kdotE_lhs1 _ _).trans hk)
  have er : dot_S600000x32_S32x128_S600000x128_1_0_0_1_n_n.rhsIdx i ((ValueIdx.contrEquiv1 dot_S600000x32_S32x128_S600000x128_1_0_0_1_n_n 32 rfl rfl).symm k) = ix2 k (i 1) := funext fun a => Fin.ext (by
    match a with
    | ⟨0, _⟩ => exact (kdotE_rhs0 _ _).trans hk
    | ⟨1, _⟩ => exact kdotE_rhs1 _ _)
  rw [el, er]
  rfl

theorem kdotE_at (x : FVec Ideal S600000x32 .f32) (y : FVec Ideal S32x128 .f32) (e : Fin 600000) (c : Fin 128) :
    Host.dotGeneral dot_S600000x32_S32x128_S600000x128_1_0_0_1_n_n none x y (ix2 e c) = ∑ k : Fin 32, x (ix2 e k) * y (ix2 k c) :=
  kdotE_apply x y (ix2 e c)

/-- The first 128 rows of the weight, entry by entry. -/
theorem slice0_at (w : FVec Ideal S288x128 .f32) (k : Fin 128) (c : Fin 128) :
    extractStridedSlice S128x128 ![0, 0] w slices_S288x128_S128x128_0_0 (ix2 k c) = w (ix2 ⟨k.val, by have := k.isLt; omega⟩ c) :=
  extractStridedSlice_apply _ _ _ _ _ fun a => by
    match a with
    | ⟨0, _⟩ => show k.val = 0 + k.val; omega
    | ⟨1, _⟩ => show c.val = 0 + c.val; omega

/-- Rows 128 to 255 of the weight, entry by entry. -/
theorem slice1_at (w : FVec Ideal S288x128 .f32) (k : Fin 128) (c : Fin 128) :
    extractStridedSlice S128x128 ![128, 0] w slices_S288x128_S128x128_128_0 (ix2 k c) = w (ix2 ⟨128 + k.val, by have := k.isLt; omega⟩ c) :=
  extractStridedSlice_apply _ _ _ _ _ fun a => by
    match a with
    | ⟨0, _⟩ => show 128 + k.val = 128 + k.val; rfl
    | ⟨1, _⟩ => show c.val = 0 + c.val; omega

/-- Rows 256 to 287 of the weight, entry by entry. -/
theorem slice2_at (w : FVec Ideal S288x128 .f32) (k : Fin 32) (c : Fin 128) :
    extractStridedSlice S32x128 ![256, 0] w slices_S288x128_S32x128_256_0 (ix2 k c) = w (ix2 ⟨256 + k.val, by have := k.isLt; omega⟩ c) :=
  extractStridedSlice_apply _ _ _ _ _ fun a => by
    match a with
    | ⟨0, _⟩ => show 256 + k.val = 256 + k.val; rfl
    | ⟨1, _⟩ => show c.val = 0 + c.val; omega

end KernelSide

section ReferenceSide
open Cert.ReferenceIdeal Cert.ReferenceIdeal.Facts₀

theorem rdot_lhs0 (i : S600000x128.Idx) (q : dot_S600000x288_S288x128_S600000x128_1_0_0_1_n_n.contr.Idx) :
    (dot_S600000x288_S288x128_S600000x128_1_0_0_1_n_n.lhsIdx i q 0).val = (i 0).val := by
  unfold DotDims.lhsIdx
  rw [dif_neg (show ¬(0 : Fin S600000x288.rank) ∈ dot_S600000x288_S288x128_S600000x128_1_0_0_1_n_n.lhsBatch by decide), dif_pos (show (0 : Fin S600000x288.rank) ∈ dot_S600000x288_S288x128_S600000x128_1_0_0_1_n_n.lhsNonContracting by decide)]
  rfl
theorem rdot_lhs1 (i : S600000x128.Idx) (q : dot_S600000x288_S288x128_S600000x128_1_0_0_1_n_n.contr.Idx) :
    (dot_S600000x288_S288x128_S600000x128_1_0_0_1_n_n.lhsIdx i q 1).val = (q ⟨0, by decide⟩).val :=
  dot_S600000x288_S288x128_S600000x128_1_0_0_1_n_n.lhsIdx_val_of_single rfl i q
theorem rdot_rhs0 (i : S600000x128.Idx) (q : dot_S600000x288_S288x128_S600000x128_1_0_0_1_n_n.contr.Idx) :
    (dot_S600000x288_S288x128_S600000x128_1_0_0_1_n_n.rhsIdx i q 0).val = (q ⟨0, by decide⟩).val :=
  dot_S600000x288_S288x128_S600000x128_1_0_0_1_n_n.rhsIdx_val_of_single rfl i q
theorem rdot_rhs1 (i : S600000x128.Idx) (q : dot_S600000x288_S288x128_S600000x128_1_0_0_1_n_n.contr.Idx) :
    (dot_S600000x288_S288x128_S600000x128_1_0_0_1_n_n.rhsIdx i q 1).val = (i 1).val := by
  unfold DotDims.rhsIdx
  rw [dif_neg (show ¬(1 : Fin S288x128.rank) ∈ dot_S600000x288_S288x128_S600000x128_1_0_0_1_n_n.rhsBatch by decide), dif_pos (show (1 : Fin S288x128.rank) ∈ dot_S600000x288_S288x128_S600000x128_1_0_0_1_n_n.rhsNonContracting by decide)]
  rfl

/-- An entry of the product of the joined edge array with the whole weight: the sum over the 288 contracted coordinates. -/
theorem rdot_apply (x : FVec Ideal S600000x288 .f32) (y : FVec Ideal S288x128 .f32) (i : S600000x128.Idx) :
    Host.dotGeneral dot_S600000x288_S288x128_S600000x128_1_0_0_1_n_n none x y i = ∑ k : Fin 288, x (ix2 (i 0) k) * y (ix2 k (i 1)) := by
  simp only [Host.dotGeneral]
  rw [Ideal.dotGeneral_apply, ← Equiv.sum_comp (ValueIdx.contrEquiv1 dot_S600000x288_S288x128_S600000x128_1_0_0_1_n_n 288 rfl rfl).symm]
  refine Finset.sum_congr rfl fun k _ => ?_
  have hk := ValueIdx.contrEquiv1_symm_val dot_S600000x288_S288x128_S600000x128_1_0_0_1_n_n 288 rfl rfl k
  have el : dot_S600000x288_S288x128_S600000x128_1_0_0_1_n_n.lhsIdx i ((ValueIdx.contrEquiv1 dot_S600000x288_S288x128_S600000x128_1_0_0_1_n_n 288 rfl rfl).symm k) = ix2 (i 0) k := funext fun a => Fin.ext (by
    match a with
    | ⟨0, _⟩ => exact rdot_lhs0 _ _
    | ⟨1, _⟩ => exact (rdot_lhs1 _ _).trans hk)
  have er : dot_S600000x288_S288x128_S600000x128_1_0_0_1_n_n.rhsIdx i ((ValueIdx.contrEquiv1 dot_S600000x288_S288x128_S600000x128_1_0_0_1_n_n 288 rfl rfl).symm k) = ix2 k (i 1) := funext fun a => Fin.ext (by
    match a with
    | ⟨0, _⟩ => exact (rdot_rhs0 _ _).trans hk
    | ⟨1, _⟩ => exact rdot_rhs1 _ _)
  rw [el, er]
  rfl

theorem rdot_at (x : FVec Ideal S600000x288 .f32) (y : FVec Ideal S288x128 .f32) (e : Fin 600000) (c : Fin 128) :
    Host.dotGeneral dot_S600000x288_S288x128_S600000x128_1_0_0_1_n_n none x y (ix2 e c) = ∑ k : Fin 288, x (ix2 e k) * y (ix2 k c) :=
  rdot_apply x y (ix2 e c)

/-- The joined array read in its first 128 columns is the first array. -/
theorem concat_left (A B : FVec Ideal S600000x128 .f32) (C : FVec Ideal S600000x32 .f32) (e : Fin 600000) (k : Fin 128) :
    concatenate S600000x288 1 [⟨S600000x128, A⟩, ⟨S600000x128, B⟩, ⟨S600000x32, C⟩] concatenates_S600000x128_S600000x128_S600000x32_S600000x288_d1
        (ix2 e ⟨k.val, by have := k.isLt; omega⟩) = A (ix2 e k) :=
  concatenate_apply_piece (t := S600000x288) 1 _ _ _ 0 (by show (0 : Nat) < 3; omega) S600000x128 A rfl rfl 0 rfl (ix2 e k)
    (fun b hb => by
      match b with
      | ⟨0, _⟩ => rfl
      | ⟨1, _⟩ => exact absurd rfl hb)
    (by show 0 + k.val = k.val; omega)

/-- The joined array read in columns 128 to 255 is the second array. -/
theorem concat_mid (A B : FVec Ideal S600000x128 .f32) (C : FVec Ideal S600000x32 .f32) (e : Fin 600000) (k : Fin 128) :
    concatenate S600000x288 1 [⟨S600000x128, A⟩, ⟨S600000x128, B⟩, ⟨S600000x32, C⟩] concatenates_S600000x128_S600000x128_S600000x32_S600000x288_d1
        (ix2 e ⟨128 + k.val, by have := k.isLt; omega⟩) = B (ix2 e k) :=
  concatenate_apply_piece (t := S600000x288) 1 _ _ _ 1 (by show (1 : Nat) < 3; omega) S600000x128 B rfl rfl 128 rfl (ix2 e k)
    (fun b hb => by
      match b with
      | ⟨0, _⟩ => rfl
      | ⟨1, _⟩ => exact absurd rfl hb)
    (by show 128 + k.val = 128 + k.val; rfl)

/-- The joined array read in columns 256 to 287 is the edge attributes. -/
theorem concat_right (A B : FVec Ideal S600000x128 .f32) (C : FVec Ideal S600000x32 .f32) (e : Fin 600000) (k : Fin 32) :
    concatenate S600000x288 1 [⟨S600000x128, A⟩, ⟨S600000x128, B⟩, ⟨S600000x32, C⟩] concatenates_S600000x128_S600000x128_S600000x32_S600000x288_d1
        (ix2 e ⟨256 + k.val, by have := k.isLt; omega⟩) = C (ix2 e k) :=
  concatenate_apply_piece (t := S600000x288) 1 _ _ _ 2 (by show (2 : Nat) < 3; omega) S600000x32 C rfl rfl 256 rfl (ix2 e k)
    (fun b hb => by
      match b with
      | ⟨0, _⟩ => rfl
      | ⟨1, _⟩ => exact absurd rfl hb)
    (by show 256 + k.val = 256 + k.val; rfl)

end ReferenceSide

/-- A sum over 288 coordinates is the sum over the first 128, plus the sum over the next 128, plus the sum over the last 32. -/
theorem sum_split (f : Fin 288 → EReal) :
    ∑ k, f k = ((∑ k : Fin 128, f ⟨k.val, by have := k.isLt; omega⟩) + ∑ k : Fin 128, f ⟨128 + k.val, by have := k.isLt; omega⟩)
      + ∑ k : Fin 32, f ⟨256 + k.val, by have := k.isLt; omega⟩ := by
  have h1 := Fin.sum_univ_add (a := 128 + 128) (b := 32) (f := (f : Fin (128 + 128 + 32) → EReal))
  have h2 := Fin.sum_univ_add (a := 128) (b := 128) (f := fun k => (f : Fin (128 + 128 + 32) → EReal) (Fin.castAdd 32 k))
  rw [h2] at h1
  exact h1

section Assembly
open Cert.KernelIdeal Cert.KernelIdeal.Facts₀

/-- Entry `(e, c)` of the kernel's first classifier layer and of the reference's: on both sides the larger of zero and
    `∑_{k<128} A(e,k)·w(k,c) + ∑_{k<128} B(e,k)·w(128+k,c) + ∑_{k<32} C(e,k)·w(256+k,c) + b(c)`. The reference's one
    sum over 288 coordinates of the joined array splits as 128 + 128 + 32, block by block the kernel's three sums. -/
theorem classify_at (A B : FVec Ideal S600000x128 .f32) (C : FVec Ideal S600000x32 .f32) (w : FVec Ideal S288x128 .f32)
    (b : FVec Ideal S128 .f32) (e : Fin 600000) (c : Fin 128) :
    Cert.KernelIdeal.KOps.hidden (F := Ideal) A B C w b (ix2 e c) = Cert.ReferenceIdeal.ROps.hidden (F := Ideal) A B C w b (ix2 e c) := by
  have hk : Host.dotGeneral dot_S600000x128_S128x128_S600000x128_1_0_0_1_n_n none A
          (extractStridedSlice S128x128 ![0, 0] w slices_S288x128_S128x128_0_0) (ix2 e c)
        + Host.dotGeneral dot_S600000x128_S128x128_S600000x128_1_0_0_1_n_n none B
          (extractStridedSlice S128x128 ![128, 0] w slices_S288x128_S128x128_128_0) (ix2 e c)
        + Host.dotGeneral dot_S600000x32_S32x128_S600000x128_1_0_0_1_n_n none C
          (extractStridedSlice S32x128 ![256, 0] w slices_S288x128_S32x128_256_0) (ix2 e c)
      = Host.dotGeneral Cert.ReferenceIdeal.dot_S600000x288_S288x128_S600000x128_1_0_0_1_n_n none
          (concatenate Cert.ReferenceIdeal.S600000x288 1
            [⟨Cert.ReferenceIdeal.S600000x128, A⟩, ⟨Cert.ReferenceIdeal.S600000x128, B⟩, ⟨Cert.ReferenceIdeal.S600000x32, C⟩]
            Cert.ReferenceIdeal.Facts₀.concatenates_S600000x128_S600000x128_S600000x32_S600000x288_d1) w (ix2 e c) := by
    rw [kdotN_at, kdotN_at, kdotE_at, rdot_at, sum_split]
    refine congrArg₂ (· + ·) (congrArg₂ (· + ·) (Finset.sum_congr rfl fun k _ => ?_) (Finset.sum_congr rfl fun k _ => ?_))
      (Finset.sum_congr rfl fun k _ => ?_)
    · rw [slice0_at, concat_left]
    · rw [slice1_at, concat_mid]
    · rw [slice2_at, concat_right]
  unfold Cert.KernelIdeal.KOps.hidden Cert.KernelIdeal.KOps.reluE Cert.ReferenceIdeal.ROps.hidden Cert.ReferenceIdeal.ROps.reluE
  simp only [maximumf_apply, addf_apply]
  rw [hk]

/-- The kernel's first classifier layer is the reference's, as whole arrays. -/
theorem classify_eq (A B : FVec Ideal S600000x128 .f32) (C : FVec Ideal S600000x32 .f32) (w : FVec Ideal S288x128 .f32)
    (b : FVec Ideal S128 .f32) :
    Cert.KernelIdeal.KOps.hidden (F := Ideal) A B C w b = Cert.ReferenceIdeal.ROps.hidden (F := Ideal) A B C w b :=
  funext fun i =>
    (congrArg (Cert.KernelIdeal.KOps.hidden (F := Ideal) A B C w b) (eq_ix2 i)).trans
      ((classify_at A B C w b (i 0) (i 1)).trans
        (congrArg (Cert.ReferenceIdeal.ROps.hidden (F := Ideal) A B C w b) (eq_ix2 i)).symm)

end Assembly

end Cert.Classify

end
-- ==== Proof.LibPairIndex.lean ====
/-
  Reading an element gather and an element-setting scatter of a two-axis operand at an index.
  An element gather takes, for every `t`, the ONE element of the operand whose row and column are the two components of
  the start index `idx[t, ·]`: each component is read signed and clamped into its axis. An element-setting scatter
  replaces, for every `t`, the operand's element at row `idx[t, 0]`, column `idx[t, 1]` (read signed, NOT clamped; an update
  whose position is outside the operand is dropped) by update `t`. When update `t` lands in row `t` for every `t`, no two
  updates meet, and the result at `(r, c)` is update `r` when its column is `c` and the operand's element otherwise.
-/
import Idealize.ShloMosaic.Lib.ValueIdx

noncomputable section

namespace Cert.LibPairIndex

open Idealize.ShloMosaic Idealize.ShloMosaic.ValueIdx

/-! ## The element gather -/

/-- The dimension numbers of an element gather: operand `[R, C]`, indices `[T, 2]`, result `[T]`; result entry `t` is the
    operand's element at row `idx[t, 0]`, column `idx[t, 1]` (slice sizes `[1, 1]`, both axes collapsed). -/
abbrev pairGatherDims (R C T : Nat)
    (wf : GatherDims.WF ⟨2, ![R, C]⟩ ⟨2, ![T, 2]⟩ ⟨1, ![T]⟩ [] [0, 1] [] [0, 1] [] 1 ![1, 1]) :
    GatherDims ⟨2, ![R, C]⟩ ⟨2, ![T, 2]⟩ ⟨1, ![T]⟩ where
  offsetDims := []
  collapsedSliceDims := [0, 1]
  operandBatchingDims := []
  startIndicesBatchingDims := []
  startIndexMap := [0, 1]
  indexVectorDim := 1
  sliceSizes := ![1, 1]
  wf := wf

section Gather
variable {R C T w : Nat}
  (wf : GatherDims.WF ⟨2, ![R, C]⟩ ⟨2, ![T, 2]⟩ ⟨1, ![T]⟩ [] [0, 1] [] [0, 1] [] 1 ![1, 1])

/-- Result position `t` reads component `c` of its start index at `(t, c)`: the result's one axis is a batch axis and
    supplies the indices' axis 0; the index vector lies along the indices' axis 1. -/
theorem pairGather_siIdx (t : Fin T) (c : Fin (pairGatherDims R C T wf).startIndexMap.length) :
    (pairGatherDims R C T wf).siIdx (ix1 t) c = ix2 t (⟨c.val, c.isLt⟩ : Fin 2) := by
  funext b
  refine Fin.ext ?_
  match b with
  | ⟨0, _⟩ => rfl
  | ⟨1, _⟩ => rfl

/-- On the row axis the slice starts at the first component of the start index, read signed and clamped into
    `[0, R - 1]`: the start index map sends component 0 to the row axis, and the slice there has one row. -/
theorem pairGather_row_start (idx : IVec ⟨2, ![T, 2]⟩ w) (t : Fin T) :
    (pairGatherDims R C T wf).start (ix1 t) idx 0 = min (idx (ix2 t (0 : Fin 2))).toInt.toNat (R - 1) := by
  unfold GatherDims.start
  rw [dif_pos (show (0 : Fin 2) ∈ (pairGatherDims R C T wf).startIndexMap from List.mem_cons_self),
    pairGather_siIdx]
  rfl

/-- On the column axis the slice starts at the second component of the start index, read signed and clamped into
    `[0, C - 1]`. -/
theorem pairGather_col_start (idx : IVec ⟨2, ![T, 2]⟩ w) (t : Fin T) :
    (pairGatherDims R C T wf).start (ix1 t) idx 1 = min (idx (ix2 t (1 : Fin 2))).toInt.toNat (C - 1) := by
  unfold GatherDims.start
  rw [dif_pos (show (1 : Fin 2) ∈ (pairGatherDims R C T wf).startIndexMap from
      List.mem_cons_of_mem _ List.mem_cons_self),
    pairGather_siIdx]
  rfl

/-- Both operand axes are collapsed, so the result gives neither an offset. -/
theorem pairGather_off (t : Fin T) (a : Fin 2) : (pairGatherDims R C T wf).offCoord (ix1 t) a = 0 :=
  GatherDims.offCoord_eq_zero _ _ _ (fun h => ((GatherDims.mem_sKept _ _).mp h).1 (by
    match a with
    | ⟨0, _⟩ => exact List.mem_cons_self
    | ⟨1, _⟩ => exact List.mem_cons_of_mem _ List.mem_cons_self))

end Gather

/-- THE ELEMENT GATHER READ AT `t`: the operand at row `idx[t, 0]` and column `idx[t, 1]`, each read signed and
    clamped into its axis. -/
theorem pairGather_apply {α : Type} {R C T w : Nat} (hR : 0 < R) (hC : 0 < C)
    (wf : GatherDims.WF ⟨2, ![R, C]⟩ ⟨2, ![T, 2]⟩ ⟨1, ![T]⟩ [] [0, 1] [] [0, 1] [] 1 ![1, 1])
    (x : (⟨2, ![R, C]⟩ : Shape).Idx → α) (idx : IVec ⟨2, ![T, 2]⟩ w) (t : Fin T) :
    Host.gather (pairGatherDims R C T wf) x idx (ix1 t)
      = x (ix2 (⟨min (idx (ix2 t (0 : Fin 2))).toInt.toNat (R - 1), by omega⟩ : Fin R)
               (⟨min (idx (ix2 t (1 : Fin 2))).toInt.toNat (C - 1), by omega⟩ : Fin C)) := by
  -- the gather reads the operand at the position whose coordinate on each axis is
  -- slice start + batching coordinate + offset; there is no batching axis and no offset axis
  have hb : ∀ a, (pairGatherDims R C T wf).batchCoord (ix1 t) a = 0 :=
    fun a => GatherDims.batchCoord_eq_zero _ _ a List.not_mem_nil
  unfold Host.gather
  congr 1
  funext a
  refine Fin.ext ?_
  match a with
  | ⟨0, _⟩ =>
    show (pairGatherDims R C T wf).start (ix1 t) idx 0 + (pairGatherDims R C T wf).batchCoord (ix1 t) 0
        + (pairGatherDims R C T wf).offCoord (ix1 t) 0 = min (idx (ix2 t (0 : Fin 2))).toInt.toNat (R - 1)
    rw [hb, pairGather_off, pairGather_row_start]
    rfl
  | ⟨1, _⟩ =>
    show (pairGatherDims R C T wf).start (ix1 t) idx 1 + (pairGatherDims R C T wf).batchCoord (ix1 t) 1
        + (pairGatherDims R C T wf).offCoord (ix1 t) 1 = min (idx (ix2 t (1 : Fin 2))).toInt.toNat (C - 1)
    rw [hb, pairGather_off, pairGather_col_start]
    rfl

/-! ## The element-setting scatter -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- One step of a scatter whose body returns the update: the update at `j` replaces the element at its landing
    position, when it has one, and changes nothing when it has none. -/
def setStep {α : Type} {s si u : Shape} {w : Nat} (d : ScatterDims s si u) (idx : IVec si w) (upd : u.Idx → α)
    (acc : s.Idx → α) (j : u.Idx) : s.Idx → α :=
  match d.resultIdx? j idx with
  | some i => fun i' => if i' = i then upd j else acc i'
  | none => acc

/-- A scatter whose body returns the update is the left fold of that step over the update positions in row-major
    order. -/
theorem scatter_set_eq_foldl {α : Type} {s si u : Shape} {w : Nat} (d : ScatterDims s si u) (x : s.Idx → α)
    (idx : IVec si w) (upd : u.Idx → α) :
    Host.scatter d (fun _ b => b) x idx upd
      = ((List.finRange u.numel).map u.rowMajor.symm).foldl (setStep d idx upd) x := by
  unfold Host.scatter
  rw [List.foldl_map]
  rfl

/-- The step read at a position `i'`: the update when it lands exactly there, the element before otherwise. -/
theorem setStep_of_lands {α : Type} {s si u : Shape} {w : Nat} (d : ScatterDims s si u) (idx : IVec si w)
    (upd : u.Idx → α) (acc : s.Idx → α) (j : u.Idx) (i' : s.Idx) (h : d.resultIdx? j idx = some i') :
    setStep d idx upd acc j i' = upd j := by
  unfold setStep
  rw [h]
  exact if_pos rfl

theorem setStep_of_not_lands {α : Type} {s si u : Shape} {w : Nat} (d : ScatterDims s si u) (idx : IVec si w)
    (upd : u.Idx → α) (acc : s.Idx → α) (j : u.Idx) (i' : s.Idx) (h : d.resultIdx? j idx ≠ some i') :
    setStep d idx upd acc j i' = acc i' := by
  unfold setStep
  cases hres : d.resultIdx? j idx with
  | none => rfl
  | some i =>
    have hne : i' ≠ i := fun he => h (by rw [hres, he])
    exact if_neg hne

/-- The dimension numbers of an element-setting scatter: operand `[R, C]`, indices `[T, 2]`, updates `[T]`; update `t`
    goes to the operand's row `idx[t, 0]`, column `idx[t, 1]` (both operand axes inserted: an update is one element). -/
abbrev pairScatterDims (R C T : Nat)
    (wf : ScatterDims.WF ⟨2, ![R, C]⟩ ⟨2, ![T, 2]⟩ ⟨1, ![T]⟩ [] [0, 1] [0, 1] 1) :
    ScatterDims ⟨2, ![R, C]⟩ ⟨2, ![T, 2]⟩ ⟨1, ![T]⟩ where
  updateWindowDims := []
  insertedWindowDims := [0, 1]
  scatterDimsToOperandDims := [0, 1]
  indexVectorDim := 1
  wf := wf

section PairScatter
variable {R C T w : Nat} (wf : ScatterDims.WF ⟨2, ![R, C]⟩ ⟨2, ![T, 2]⟩ ⟨1, ![T]⟩ [] [0, 1] [0, 1] 1)

/-- Update position `t` reads component `c` of its start index at `(t, c)`: the updates' only axis is a scatter axis and
    supplies the indices' axis 0; the index vector lies along the indices' axis 1. -/
theorem pairScatter_siIdx (t : Fin T) (c : Fin (pairScatterDims R C T wf).scatterDimsToOperandDims.length) :
    (pairScatterDims R C T wf).siIdx (ix1 t) c = ix2 t (⟨c.val, c.isLt⟩ : Fin 2) := by
  funext b
  refine Fin.ext ?_
  match b with
  | ⟨0, _⟩ => rfl
  | ⟨1, _⟩ => rfl

/-- On the row axis the window starts at the first component of the start index, read signed and left as it is. -/
theorem pairScatter_row_start (idx : IVec ⟨2, ![T, 2]⟩ w) (t : Fin T) :
    (pairScatterDims R C T wf).start (ix1 t) idx 0 = (idx (ix2 t (0 : Fin 2))).toInt := by
  unfold ScatterDims.start
  rw [dif_pos (show (0 : Fin 2) ∈ (pairScatterDims R C T wf).scatterDimsToOperandDims from List.mem_cons_self),
    pairScatter_siIdx]
  rfl

/-- On the column axis the window starts at the second component of the start index, read signed and left as it is. -/
theorem pairScatter_col_start (idx : IVec ⟨2, ![T, 2]⟩ w) (t : Fin T) :
    (pairScatterDims R C T wf).start (ix1 t) idx 1 = (idx (ix2 t (1 : Fin 2))).toInt := by
  unfold ScatterDims.start
  rw [dif_pos (show (1 : Fin 2) ∈ (pairScatterDims R C T wf).scatterDimsToOperandDims from
      List.mem_cons_of_mem _ List.mem_cons_self),
    pairScatter_siIdx]
  rfl

/-- Both operand axes are inserted (an update is a single element): the update has no window coordinate. -/
theorem pairScatter_window (t : Fin T) (a : Fin 2) : (pairScatterDims R C T wf).window (ix1 t) a = 0 := by
  match a with
  | ⟨0, _⟩ => rfl
  | ⟨1, _⟩ => rfl

/-- Update `t` lands on operand position `(r, c)` exactly when the two components of its start index, read signed, are
    `r` and `c`. -/
theorem pairScatter_lands_iff (idx : IVec ⟨2, ![T, 2]⟩ w) (t : Fin T) (r : Fin R) (c : Fin C) :
    (pairScatterDims R C T wf).resultIdx? (ix1 t) idx = some (ix2 r c)
      ↔ (idx (ix2 t (0 : Fin 2))).toInt = (r.val : Int) ∧ (idx (ix2 t (1 : Fin 2))).toInt = (c.val : Int) := by
  rw [resultIdx?_eq_some_iff]
  constructor
  · intro hall
    have h0 := hall 0
    have h1 := hall 1
    rw [pairScatter_row_start, pairScatter_window] at h0
    rw [pairScatter_col_start, pairScatter_window] at h1
    have h0' : (idx (ix2 t (0 : Fin 2))).toInt + ((0 : Nat) : Int) = (r.val : Int) := h0
    have h1' : (idx (ix2 t (1 : Fin 2))).toInt + ((0 : Nat) : Int) = (c.val : Int) := h1
    exact ⟨by omega, by omega⟩
  · rintro ⟨h0, h1⟩ a
    match a with
    | ⟨0, _⟩ =>
      show (pairScatterDims R C T wf).start (ix1 t) idx 0 + (((pairScatterDims R C T wf).window (ix1 t) 0 : Nat) : Int)
        = (r.val : Int)
      rw [pairScatter_row_start, pairScatter_window]
      omega
    | ⟨1, _⟩ =>
      show (pairScatterDims R C T wf).start (ix1 t) idx 1 + (((pairScatterDims R C T wf).window (ix1 t) 1 : Nat) : Int)
        = (c.val : Int)
      rw [pairScatter_col_start, pairScatter_window]
      omega

end PairScatter

section RowOwned
variable {α : Type} {R C w : Nat} (wf : ScatterDims.WF ⟨2, ![R, C]⟩ ⟨2, ![R, 2]⟩ ⟨1, ![R]⟩ [] [0, 1] [0, 1] 1)
  (idx : IVec ⟨2, ![R, 2]⟩ w) (upd : (⟨1, ![R]⟩ : Shape).Idx → α)
  (hrow : ∀ t : Fin R, (idx (ix2 t (0 : Fin 2))).toInt = (t.val : Int))
include hrow

/-- When update `t`'s row is `t`, it lands on `(r, c)` exactly when `t = r` and its column is `c`. -/
theorem pairScatter_lands_iff_of_row (t r : Fin R) (c : Fin C) :
    (pairScatterDims R C R wf).resultIdx? (ix1 t) idx = some (ix2 r c)
      ↔ t = r ∧ (idx (ix2 r (1 : Fin 2))).toInt = (c.val : Int) := by
  rw [pairScatter_lands_iff, hrow t]
  constructor
  · rintro ⟨h0, h1⟩
    have htr : t = r := Fin.ext (by omega)
    subst htr
    exact ⟨rfl, h1⟩
  · rintro ⟨rfl, h1⟩
    exact ⟨rfl, h1⟩

/-- The fold of the steps over ANY list of update positions, read at `(r, c)`: update `r` when it is in the list and its
    column is `c`; the starting element otherwise. Only update `r` can touch row `r`, and it always writes the same value,
    so neither the order of the list nor a repetition in it matters. -/
theorem pairScatter_foldl_apply (l : List (⟨1, ![R]⟩ : Shape).Idx) (acc : (⟨2, ![R, C]⟩ : Shape).Idx → α)
    (r : Fin R) (c : Fin C) :
    l.foldl (setStep (pairScatterDims R C R wf) idx upd) acc (ix2 r c)
      = if ix1 r ∈ l ∧ (idx (ix2 r (1 : Fin 2))).toInt = (c.val : Int) then upd (ix1 r) else acc (ix2 r c) := by
  induction l generalizing acc with
  | nil =>
    rw [List.foldl_nil, if_neg (fun h => List.not_mem_nil h.1)]
  | cons j l ih =>
    obtain ⟨t, rfl⟩ : ∃ t, j = ix1 t := ⟨j 0, eq_ix1 j⟩
    rw [List.foldl_cons, ih]
    by_cases hcol : (idx (ix2 r (1 : Fin 2))).toInt = (c.val : Int)
    · by_cases hmem : ix1 r ∈ l
      · rw [if_pos ⟨hmem, hcol⟩, if_pos ⟨List.mem_cons_of_mem _ hmem, hcol⟩]
      · rw [if_neg (fun h => hmem h.1)]
        by_cases htr : t = r
        · subst htr
          rw [if_pos ⟨List.mem_cons_self, hcol⟩]
          exact setStep_of_lands _ _ _ _ _ _ ((pairScatter_lands_iff_of_row wf idx hrow t t c).mpr ⟨rfl, hcol⟩)
        · have hnm : ¬ (ix1 r ∈ ix1 t :: l) := by
            intro h
            rcases List.mem_cons.mp h with h | h
            · exact htr (congrFun h 0).symm
            · exact hmem h
          rw [if_neg (fun h => hnm h.1)]
          exact setStep_of_not_lands _ _ _ _ _ _
            (fun h => htr ((pairScatter_lands_iff_of_row wf idx hrow t r c).mp h).1)
    · rw [if_neg (fun h => hcol h.2), if_neg (fun h => hcol h.2)]
      exact setStep_of_not_lands _ _ _ _ _ _
        (fun h => hcol ((pairScatter_lands_iff_of_row wf idx hrow t r c).mp h).2)

end RowOwned

/-- THE ELEMENT-SETTING SCATTER READ AT `(r, c)`, every update `t` landing in row `t` (its first index component, read
    signed, is `t`), so that no two updates meet: update `r` when its column `idx[r, 1]`, read signed, is `c`, and the
    operand's element otherwise. -/
theorem pairScatterSet_apply {α : Type} {R C w : Nat}
    (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ w) (upd : (⟨1, ![R]⟩ : Shape).Idx → α)
    (hrow : ∀ t : Fin R, (idx (ix2 t (0 : Fin 2))).toInt = (t.val : Int)) (r : Fin R) (c : Fin C) :
    Host.scatter (pairScatterDims R C R wf) (fun _ b => b) x idx upd (ix2 r c)
      = if (idx (ix2 r (1 : Fin 2))).toInt = (c.val : Int) then upd (ix1 r) else x (ix2 r c) := by
  rw [scatter_set_eq_foldl, pairScatter_foldl_apply wf idx upd hrow]
  -- every update position occurs in the row-major list of all of them
  have hmem : ix1 r ∈ (List.finRange (⟨1, ![R]⟩ : Shape).numel).map (⟨1, ![R]⟩ : Shape).rowMajor.symm :=
    List.mem_map.mpr ⟨(⟨1, ![R]⟩ : Shape).rowMajor (ix1 r), List.mem_finRange _, Equiv.symm_apply_apply _ _⟩
  by_cases hcol : (idx (ix2 r (1 : Fin 2))).toInt = (c.val : Int)
  · rw [if_pos ⟨hmem, hcol⟩, if_pos hcol]
  · rw [if_neg (fun h => hcol h.2), if_neg hcol]

end Cert.LibPairIndex

end
-- ==== Proof.OutPad.lean ====
/-
  The edge classifier's second layer, computed into a 128-column array and cut back to 24 columns, on the extended reals.

  The weight `w2` (128 × 24) is written into the first 24 columns of a 128 × 128 array of zeros, the bias `b2` (24 entries)
  into the first 24 entries of 128 zeros; a dense stage with the padded weight and bias gives a 128-column array, of which
  the first 24 columns are kept. Writing a window into zeros at offset 0 puts update `(k, c)` at position `(k, c)` and
  no two updates at one position, so the padded weight at `(k, c)`, `c < 24`, is `w2 (k, c)`, and the padded bias at
  `c < 24` is `b2 c`. Hence entry `(e, c)`, `c < 24`, of the kept columns is `∑_{k<128} t(e,k)·w2(k,c) + b2(c)`,
  which is the entry of the product of `t` with `w2` plus the bias row.
-/
import proofs.«426136_j14405320310896_3_alg».proof.Proof.Gen.KernelIdeal
import proofs.«426136_j14405320310896_3_alg».proof.Proof.Gen.ReferenceIdeal
import proofs.«426136_j14405320310896_3_alg».proof.Proof.KOps
import proofs.«426136_j14405320310896_3_alg».proof.Proof.Spec
import proofs.«426136_j14405320310896_3_alg».proof.Proof.LibPairIndex
import Idealize.ShloMosaic.Lib.ValueIdx
import Idealize.ShloMosaic.Lib.Pipeline.Value
import Idealize.ShloMosaic.Lib.ValueLayout
import Idealize.ShloMosaic.PureOps.Ideal.Laws
import proofs.«426136_j14405320310896_3_alg».proof.Proof.ROps

noncomputable section

open scoped BigOperators

namespace Cert.OutPad

open Idealize.ShloMosaic Idealize.ShloMosaic.ValueIdx Cert.LibPairIndex

/-! ## A set-scatter read where exactly one update lands -/

/-- The fold of the set steps over any list of update positions, read at a position `i` where update `j` lands and no
    other update does: update `j` once it is in the list, the starting element before. -/
theorem foldl_setStep_of_unique {α : Type} {s si u : Shape} {w : Nat} (d : ScatterDims s si u) (idx : IVec si w)
    (upd : u.Idx → α) (j : u.Idx) (i : s.Idx) (hj : d.resultIdx? j idx = some i)
    (huniq : ∀ j', d.resultIdx? j' idx = some i → j' = j) (l : List u.Idx) (acc : s.Idx → α) :
    l.foldl (setStep d idx upd) acc i = if j ∈ l then upd j else acc i := by
  induction l generalizing acc with
  | nil => rw [List.foldl_nil, if_neg List.not_mem_nil]
  | cons j0 l ih =>
    rw [List.foldl_cons, ih]
    by_cases hmem : j ∈ l
    · rw [if_pos hmem, if_pos (List.mem_cons_of_mem _ hmem)]
    · rw [if_neg hmem]
      by_cases h0 : j0 = j
      · rw [if_pos (h0 ▸ List.mem_cons_self), h0]
        exact setStep_of_lands d idx upd acc j i hj
      · have hnm : ¬ j ∈ j0 :: l := fun h => by
          rcases List.mem_cons.mp h with h | h
          · exact h0 h.symm
          · exact hmem h
        rw [if_neg hnm]
        exact setStep_of_not_lands d idx upd acc j0 i (fun h => h0 (huniq j0 h))

/-- A set-scatter read at a position where update `j` lands and no other update does is update `j`. -/
theorem scatter_set_apply_of_unique {α : Type} {s si u : Shape} {w : Nat} (d : ScatterDims s si u) (x : s.Idx → α)
    (idx : IVec si w) (upd : u.Idx → α) (j : u.Idx) (i : s.Idx) (hj : d.resultIdx? j idx = some i)
    (huniq : ∀ j', d.resultIdx? j' idx = some i → j' = j) :
    Host.scatter d (fun _ b => b) x idx upd i = upd j := by
  rw [scatter_set_eq_foldl, foldl_setStep_of_unique d idx upd j i hj huniq]
  exact if_pos (List.mem_map.mpr ⟨u.rowMajor j, List.mem_finRange _, Equiv.symm_apply_apply _ _⟩)

section KernelSide
open Cert.KernelIdeal Cert.KernelIdeal.Facts₀

/-! ## The weight written into the first 24 columns of zeros -/

/-- The row axis is not a scattered axis: every window starts at row 0. -/
theorem padW_start0 (j : S128x24.Idx) :
    scatter_S128x128_S1_S128x24_01_n_1_0.start j (broadcastInDim S1 ![] bcast_S_S1 (constantI S_ 32 0#32)) 0 = 0 := by
  unfold ScatterDims.start
  exact dif_neg (show ¬(0 : Fin S128x128.rank) ∈ scatter_S128x128_S1_S128x24_01_n_1_0.scatterDimsToOperandDims by decide)

/-- The one start index is zero: every window starts at column 0. -/
theorem padW_start1 (j : S128x24.Idx) :
    scatter_S128x128_S1_S128x24_01_n_1_0.start j (broadcastInDim S1 ![] bcast_S_S1 (constantI S_ 32 0#32)) 1 = 0 := by
  unfold ScatterDims.start
  rw [dif_pos (show (1 : Fin S128x128.rank) ∈ scatter_S128x128_S1_S128x24_01_n_1_0.scatterDimsToOperandDims by decide)]
  rfl

/-- The window coordinate of an update position on the row axis is its row. -/
theorem padW_window0 (j : S128x24.Idx) : scatter_S128x128_S1_S128x24_01_n_1_0.window j 0 = (j 0).val := by
  unfold ScatterDims.window
  rw [dif_pos (show (0 : Fin S128x128.rank) ∈ scatter_S128x128_S1_S128x24_01_n_1_0.sKept by decide)]
  rfl

/-- The window coordinate of an update position on the column axis is its column. -/
theorem padW_window1 (j : S128x24.Idx) : scatter_S128x128_S1_S128x24_01_n_1_0.window j 1 = (j 1).val := by
  unfold ScatterDims.window
  rw [dif_pos (show (1 : Fin S128x128.rank) ∈ scatter_S128x128_S1_S128x24_01_n_1_0.sKept by decide)]
  rfl

/-- Update `(k, c)` lands at `(k, c)`, and only there. -/
theorem padW_lands (j : S128x24.Idx) (i : S128x128.Idx) :
    scatter_S128x128_S1_S128x24_01_n_1_0.resultIdx? j (broadcastInDim S1 ![] bcast_S_S1 (constantI S_ 32 0#32)) = some i ↔ (j 0).val = (i 0).val ∧ (j 1).val = (i 1).val := by
  rw [resultIdx?_eq_some_iff]
  constructor
  · intro h
    have h0 := h 0
    have h1 := h 1
    rw [padW_start0, padW_window0] at h0
    rw [padW_start1, padW_window1] at h1
    exact ⟨by omega, by omega⟩
  · rintro ⟨h0, h1⟩ a
    match a with
    | ⟨0, _⟩ =>
      show scatter_S128x128_S1_S128x24_01_n_1_0.start j (broadcastInDim S1 ![] bcast_S_S1 (constantI S_ 32 0#32)) 0 + ((scatter_S128x128_S1_S128x24_01_n_1_0.window j 0 : Nat) : Int) = ((i 0).val : Int)
      rw [padW_start0, padW_window0]
      omega
    | ⟨1, _⟩ =>
      show scatter_S128x128_S1_S128x24_01_n_1_0.start j (broadcastInDim S1 ![] bcast_S_S1 (constantI S_ 32 0#32)) 1 + ((scatter_S128x128_S1_S128x24_01_n_1_0.window j 1 : Nat) : Int) = ((i 1).val : Int)
      rw [padW_start1, padW_window1]
      omega

/-- The padded weight in its first 24 columns is the weight. -/
theorem wpad_apply (w2 : FVec Ideal S128x24 .f32) (k : Fin 128) (c : Fin 24) :
    KOps.padW (F := Ideal) w2 (ix2 k ⟨c.val, by have := c.isLt; omega⟩) = w2 (ix2 k c) := by
  unfold KOps.padW
  refine scatter_set_apply_of_unique _ _ _ w2 (ix2 k c) _ ((padW_lands _ _).mpr ⟨rfl, rfl⟩) fun j' h => ?_
  have hh := (padW_lands j' _).mp h
  funext a
  match a with
  | ⟨0, _⟩ => exact Fin.ext hh.1
  | ⟨1, _⟩ => exact Fin.ext hh.2

/-! ## The bias written into the first 24 entries of zeros -/

/-- With the one start index zero, every window starts at entry 0. -/
theorem padB_start0 (j : S24.Idx) :
    scatter_S128_S1_S24_0_n_0_0.start j (broadcastInDim S1 ![] bcast_S_S1 (constantI S_ 32 0#32)) 0 = 0 := by
  unfold ScatterDims.start
  rw [dif_pos (show (0 : Fin S128.rank) ∈ scatter_S128_S1_S24_0_n_0_0.scatterDimsToOperandDims by decide)]
  rfl

/-- The window coordinate of an update position is its entry. -/
theorem padB_window0 (j : S24.Idx) : scatter_S128_S1_S24_0_n_0_0.window j 0 = (j 0).val := by
  unfold ScatterDims.window
  rw [dif_pos (show (0 : Fin S128.rank) ∈ scatter_S128_S1_S24_0_n_0_0.sKept by decide)]
  rfl

/-- Update `c` lands at `c`, and only there. -/
theorem padB_lands (j : S24.Idx) (i : S128.Idx) :
    scatter_S128_S1_S24_0_n_0_0.resultIdx? j (broadcastInDim S1 ![] bcast_S_S1 (constantI S_ 32 0#32)) = some i ↔ (j 0).val = (i 0).val := by
  rw [resultIdx?_eq_some_iff]
  constructor
  · intro h
    have h0 := h 0
    rw [padB_start0, padB_window0] at h0
    omega
  · intro h0 a
    match a with
    | ⟨0, _⟩ =>
      show scatter_S128_S1_S24_0_n_0_0.start j (broadcastInDim S1 ![] bcast_S_S1 (constantI S_ 32 0#32)) 0 + ((scatter_S128_S1_S24_0_n_0_0.window j 0 : Nat) : Int) = ((i 0).val : Int)
      rw [padB_start0, padB_window0]
      omega

/-- The padded bias row in its first 24 entries is the bias. -/
theorem bpad_apply (b2 : FVec Ideal S24 .f32) (c : Fin 24) :
    KOps.padB (F := Ideal) b2 (ix2 (0 : Fin 1) (⟨c.val, by have := c.isLt; omega⟩ : Fin 128)) = b2 (ix1 c) := by
  unfold KOps.padB
  refine (shapeCast_addUnit_apply ![128] _ _ _).trans ?_
  have e : (fun a : Fin 1 => (ix2 (0 : Fin 1) (⟨c.val, by have := c.isLt; omega⟩ : Fin 128)) a.succ)
      = ix1 (⟨c.val, by have := c.isLt; omega⟩ : Fin 128) := funext fun a => by
    match a with
    | ⟨0, _⟩ => rfl
  rw [e]
  refine scatter_set_apply_of_unique _ _ _ b2 (ix1 c) _ ((padB_lands _ _).mpr rfl) fun j' h => ?_
  have hh := (padB_lands j' _).mp h
  funext a
  match a with
  | ⟨0, _⟩ => exact Fin.ext hh

end KernelSide

section ReferenceSide
open Cert.ReferenceIdeal Cert.ReferenceIdeal.Facts₀

theorem rdotO_lhs0 (i : S600000x24.Idx) (q : dot_S600000x128_S128x24_S600000x24_1_0_0_1_n_n.contr.Idx) :
    (dot_S600000x128_S128x24_S600000x24_1_0_0_1_n_n.lhsIdx i q 0).val = (i 0).val := by
  unfold DotDims.lhsIdx
  rw [dif_neg (show ¬(0 : Fin S600000x128.rank) ∈ dot_S600000x128_S128x24_S600000x24_1_0_0_1_n_n.lhsBatch by decide), dif_pos (show (0 : Fin S600000x128.rank) ∈ dot_S600000x128_S128x24_S600000x24_1_0_0_1_n_n.lhsNonContracting by decide)]
  rfl
theorem rdotO_lhs1 (i : S600000x24.Idx) (q : dot_S600000x128_S128x24_S600000x24_1_0_0_1_n_n.contr.Idx) :
    (dot_S600000x128_S128x24_S600000x24_1_0_0_1_n_n.lhsIdx i q 1).val = (q ⟨0, by decide⟩).val :=
  dot_S600000x128_S128x24_S600000x24_1_0_0_1_n_n.lhsIdx_val_of_single rfl i q
theorem rdotO_rhs0 (i : S600000x24.Idx) (q : dot_S600000x128_S128x24_S600000x24_1_0_0_1_n_n.contr.Idx) :
    (dot_S600000x128_S128x24_S600000x24_1_0_0_1_n_n.rhsIdx i q 0).val = (q ⟨0, by decide⟩).val :=
  dot_S600000x128_S128x24_S600000x24_1_0_0_1_n_n.rhsIdx_val_of_single rfl i q
theorem rdotO_rhs1 (i : S600000x24.Idx) (q : dot_S600000x128_S128x24_S600000x24_1_0_0_1_n_n.contr.Idx) :
    (dot_S600000x128_S128x24_S600000x24_1_0_0_1_n_n.rhsIdx i q 1).val = (i 1).val := by
  unfold DotDims.rhsIdx
  rw [dif_neg (show ¬(1 : Fin S128x24.rank) ∈ dot_S600000x128_S128x24_S600000x24_1_0_0_1_n_n.rhsBatch by decide), dif_pos (show (1 : Fin S128x24.rank) ∈ dot_S600000x128_S128x24_S600000x24_1_0_0_1_n_n.rhsNonContracting by decide)]
  rfl

/-- An entry of the product of an edge array with the 24-column weight: the sum over the 128 contracted coordinates. -/
theorem rdotO_apply (x : FVec Ideal S600000x128 .f32) (y : FVec Ideal S128x24 .f32) (i : S600000x24.Idx) :
    Host.dotGeneral dot_S600000x128_S128x24_S600000x24_1_0_0_1_n_n none x y i = ∑ k : Fin 128, x (ix2 (i 0) k) * y (ix2 k (i 1)) := by
  simp only [Host.dotGeneral]
  rw [Ideal.dotGeneral_apply, ← Equiv.sum_comp (ValueIdx.contrEquiv1 dot_S600000x128_S128x24_S600000x24_1_0_0_1_n_n 128 rfl rfl).symm]
  refine Finset.sum_congr rfl fun k _ => ?_
  have hk := ValueIdx.contrEquiv1_symm_val dot_S600000x128_S128x24_S600000x24_1_0_0_1_n_n 128 rfl rfl k
  have el : dot_S600000x128_S128x24_S600000x24_1_0_0_1_n_n.lhsIdx i ((ValueIdx.contrEquiv1 dot_S600000x128_S128x24_S600000x24_1_0_0_1_n_n 128 rfl rfl).symm k) = ix2 (i 0) k := funext fun a => Fin.ext (by
    match a with
    | ⟨0, _⟩ => exact rdotO_lhs0 _ _
    | ⟨1, _⟩ => exact (rdotO_lhs1 _ _).trans hk)
  have er : dot_S600000x128_S128x24_S600000x24_1_0_0_1_n_n.rhsIdx i ((ValueIdx.contrEquiv1 dot_S600000x128_S128x24_S600000x24_1_0_0_1_n_n 128 rfl rfl).symm k) = ix2 k (i 1) := funext fun a => Fin.ext (by
    match a with
    | ⟨0, _⟩ => exact (rdotO_rhs0 _ _).trans hk
    | ⟨1, _⟩ => exact rdotO_rhs1 _ _)
  rw [el, er]
  rfl

theorem rdotO_at (x : FVec Ideal S600000x128 .f32) (y : FVec Ideal S128x24 .f32) (e : Fin 600000) (c : Fin 24) :
    Host.dotGeneral dot_S600000x128_S128x24_S600000x24_1_0_0_1_n_n none x y (ix2 e c) = ∑ k : Fin 128, x (ix2 e k) * y (ix2 k c) :=
  rdotO_apply x y (ix2 e c)

/-- The bias row spread over the rows, entry by entry. -/
theorem bias_at (b2 : FVec Ideal S24 .f32) (e : Fin 600000) (c : Fin 24) :
    broadcastInDim S600000x24 ![0, 1] bcast_S1x24_S600000x24_0_1 (broadcastInDim S1x24 ![1] bcast_S24_S1x24_1 b2) (ix2 e c)
      = b2 (ix1 c) :=
  (broadcastInDim_apply _ _ _ (ix2 e c) (ix2 (0 : Fin 1) c) fun a => by
    match a with
    | ⟨0, _⟩ => rfl
    | ⟨1, _⟩ => rfl).trans
  (broadcastInDim_apply _ _ _ (ix2 (0 : Fin 1) c) (ix1 c) fun a => by
    match a with
    | ⟨0, _⟩ => rfl)

end ReferenceSide

section Assembly
open Cert.KernelIdeal Cert.KernelIdeal.Facts₀

/-- Entry `(e, c)`, `c < 24`, of the dense stage with the padded weight and bias is the reference's second layer there:
    `∑_{k<128} t(e,k)·w2(k,c) + b2(c)`, the padded weight and bias being the weight and bias in their first 24 columns. -/
theorem outpad_at (t : FVec Ideal S600000x128 .f32) (w2 : FVec Ideal S128x24 .f32) (b2 : FVec Ideal S24 .f32)
    (e : Fin 600000) (c : Fin 24) :
    extractStridedSlice S600000x24 ![0, 0] (Cert.GnnSpec.dense t (KOps.padW (F := Ideal) w2) (KOps.padB (F := Ideal) b2))
        slices_S600000x128_S600000x24_0_0 (ix2 e c)
      = Cert.ReferenceIdeal.ROps.out (F := Ideal) t w2 b2 (ix2 e c) := by
  refine (extractStridedSlice_apply _ _ _ (ix2 e c) (ix2 e (⟨c.val, by have := c.isLt; omega⟩ : Fin 128)) fun a => ?_).trans ?_
  · match a with
    | ⟨0, _⟩ => show e.val = 0 + e.val; omega
    | ⟨1, _⟩ => show c.val = 0 + c.val; omega
  · rw [Cert.GnnSpec.dense_apply]
    unfold Cert.ReferenceIdeal.ROps.out
    rw [addf_apply, rdotO_at, bias_at]
    exact congrArg₂ (· + ·) (Finset.sum_congr rfl fun k _ => by rw [wpad_apply]) (bpad_apply b2 c)

/-- The dense stage with the padded weight and bias, cut to its first 24 columns, is the reference's second layer. -/
theorem outpad_eq (t : FVec Ideal S600000x128 .f32) (w2 : FVec Ideal S128x24 .f32) (b2 : FVec Ideal S24 .f32) :
    extractStridedSlice S600000x24 ![0, 0] (Cert.GnnSpec.dense t (KOps.padW (F := Ideal) w2) (KOps.padB (F := Ideal) b2))
        slices_S600000x128_S600000x24_0_0
      = Cert.ReferenceIdeal.ROps.out (F := Ideal) t w2 b2 := by
  funext i
  rw [eq_ix2 i]
  exact outpad_at t w2 b2 (i 0) (i 1)

end Assembly

end Cert.OutPad

end
-- ==== Proof.Equal.lean ====
/-
  The kernel program's result and the reference program's result are one function of the argument arrays when every edge
  endpoint is a node index: the projection and each node update are the same sums index by index, the gathered rows agree
  because the in-range mask is all ones, the classifier's first layer is the joined dot product split in three, and its
  second layer reads only the 24 columns the zero padding leaves untouched.
-/
import proofs.«426136_j14405320310896_3_alg».proof.Proof.KVal
import proofs.«426136_j14405320310896_3_alg».proof.Proof.RefVal
import proofs.«426136_j14405320310896_3_alg».proof.Proof.Bridge
import proofs.«426136_j14405320310896_3_alg».proof.Proof.RefSpec
import proofs.«426136_j14405320310896_3_alg».proof.Proof.Classify
import proofs.«426136_j14405320310896_3_alg».proof.Proof.OutPad

noncomputable section

namespace Cert.Equal

open Cert.KernelIdeal Idealize.ShloMosaic Idealize.ShloMosaic.TcCoe

/-- In range: every entry of an index vector is a node index. -/
def InRange (v : IVec S600000 32) : Prop := ∀ e, 0 ≤ (v e).toInt ∧ (v e).toInt < 100000

theorem h0_eq (x0 : FVec Ideal S100000x64 .f32) (x3 : FVec Ideal S64x128 .f32) (x4 : FVec Ideal S128 .f32) :
    KVal.h0 x0 x3 x4 = Cert.ReferenceIdeal.ROps.lin (F := Ideal) x0 x3 x4 := by
  unfold KVal.h0
  rw [Cert.Bridge.rowV_eq, ← Cert.ReferenceIdeal.RefSpec.lin_eq]

theorem layer_eq (h : FVec Ideal S100000x128 .f32) (ei : IVec S2x600000 32) (ea : FVec Ideal S600000x32 .f32)
    (ew : FVec Ideal S32x128 .f32) (eb : FVec Ideal S128 .f32) (w1 : FVec Ideal S128x128 .f32) (b1 : FVec Ideal S128 .f32)
    (w2 : FVec Ideal S128x128 .f32) (b2 : FVec Ideal S128 .f32) (hs : InRange (KOps.srcOf ei)) :
    KVal.layer h ei ea ew eb w1 b1 w2 b2 = Cert.ReferenceIdeal.RefVal.layer (F := Ideal) h ei ea ew eb w1 b1 w2 b2 := by
  unfold KVal.layer Cert.ReferenceIdeal.RefVal.layer
  rw [Cert.Bridge.messages_eq h (KOps.srcOf ei) (KOps.dstOf ei) ea ew eb hs, Cert.Bridge.srcOf_eq, Cert.Bridge.dstOf_eq,
    Cert.Bridge.rowV_eq, Cert.Bridge.rowV_eq, ← Cert.ReferenceIdeal.RefSpec.update_eq]

theorem result_eq (h : FVec Ideal S100000x128 .f32) (ei : IVec S2x600000 32) (ea : FVec Ideal S600000x32 .f32)
    (w : FVec Ideal S288x128 .f32) (b : FVec Ideal S128 .f32) (w2 : FVec Ideal S128x24 .f32) (b2 : FVec Ideal S24 .f32)
    (hs : InRange (KOps.srcOf ei)) (hd : InRange (KOps.dstOf ei)) :
    KVal.result h ei ea w b w2 b2 = Cert.ReferenceIdeal.RefVal.result (F := Ideal) h ei ea w b w2 b2 := by
  unfold KVal.result Cert.ReferenceIdeal.RefVal.result
  rw [Cert.Bridge.hidden_rows_eq h (KOps.srcOf ei) (KOps.dstOf ei) ea w b hs hd, Cert.Classify.classify_eq, Cert.Bridge.srcOf_eq,
    Cert.Bridge.dstOf_eq]
  exact Cert.OutPad.outpad_eq _ w2 b2

end Cert.Equal

end
-- ==== Proof.PreRange.lean ====
/-
  The index range read back from the precondition.

  The precondition is a conjunction of twenty-seven tests, each a conjunction over all the entries of one argument array;
  the last says of the edge-index array (two rows of 600000 signed 32-bit words) that every entry is at least 0 and below
  100000. When the precondition's word is 1, so is its last conjunct; a conjunction over every entry that is 1 is 1 at
  each entry; and the two signed compares at an entry say what they look like of its signed value.
-/
import proofs.«426136_j14405320310896_3_alg».proof.Pre_finite_inputs
import Idealize.ShloMosaic.Lib.ReduceAll
import Idealize.ShloMosaic.Lib.Affine
import Idealize.ShloMosaic.Lib.ValueIdx

noncomputable section

namespace Cert.PreRange

open Cert.Pre_finite_inputs Cert.Pre_finite_inputs.Facts Idealize.ShloMosaic Idealize.ShloMosaic.ValueIdx

variable {F : FTy → Type} [FloatOps F] [Cert.Pre_finite_inputs.Facts]

/-- The scalar shape has one index. -/
instance : Subsingleton S_.Idx := ⟨fun a b => funext fun d => d.elim0⟩

/-- The last window of the precondition ends in the range test: if its word is 1, every entry of the edge-index array,
    read signed, lies in `[0, 100000)`. -/
theorem range_of_part7 (a1 : IVec S2x600000 32) (a26 : FVec F S24 .f32) (v118 : IVec S_ 1) (v119 : FVec F S128x24 .f32)
    (h : fn_part7 (F := F) a1 a26 v118 v119 ix0 = 1#1) (i : S2x600000.Idx) :
    0 ≤ (a1 i).toInt ∧ (a1 i).toInt < 100000 := by
  have h1 : IntOp.andi _ (Host.reduce IntOp.andi
      (andi (cmpi .sge a1 (broadcastInDim S2x600000 ![] bcast_S_S2x600000 (constantI S_ 32 0#32)))
        (cmpi .slt a1 (broadcastInDim S2x600000 ![] bcast_S_S2x600000 (constantI S_ 32 100000#32))))
      (constantI S_ 1 1#1) reducesTo_S2x600000_S_d0_1 h_S_ ix0) = 1#1 := h
  have h2 := (IntOp.andi_eq_one.1 h1).2
  have h3 := Host.reduce_andi_all _ _ _ _ _ h2 i
  have h4 : IntOp.andi (IntOp.cmpi .sge (a1 i) 0#32) (IntOp.cmpi .slt (a1 i) 100000#32) = 1#1 := h3
  obtain ⟨h5, h6⟩ := IntOp.andi_eq_one.1 h4
  have z0 : (0#32 : BitVec 32).toInt = 0 := by decide
  have z1 : (100000#32 : BitVec 32).toInt = 100000 := by decide
  have g5 := IntOp.cmpi_sge.1 h5
  have g6 := IntOp.cmpi_slt.1 h6
  omega

/-- THE RANGE OF THE EDGE INDICES: the precondition all ones gives every entry of its second argument in `[0, 100000)`.
    The precondition's windows run one into the next, the last called on the same edge-index array. -/
theorem range_of_pre
    (a0 : FVec F S100000x64 .f32) (a1 : IVec S2x600000 32) (a2 : FVec F S600000x32 .f32)
    (a3 : FVec F S64x128 .f32) (a4 : FVec F S128 .f32) (a5 : FVec F S32x128 .f32) (a6 : FVec F S128 .f32)
    (a7 : FVec F S128x128 .f32) (a8 : FVec F S128 .f32) (a9 : FVec F S128x128 .f32) (a10 : FVec F S128 .f32)
    (a11 : FVec F S32x128 .f32) (a12 : FVec F S128 .f32) (a13 : FVec F S128x128 .f32) (a14 : FVec F S128 .f32)
    (a15 : FVec F S128x128 .f32) (a16 : FVec F S128 .f32) (a17 : FVec F S32x128 .f32) (a18 : FVec F S128 .f32)
    (a19 : FVec F S128x128 .f32) (a20 : FVec F S128 .f32) (a21 : FVec F S128x128 .f32) (a22 : FVec F S128 .f32)
    (a23 : FVec F S288x128 .f32) (a24 : FVec F S128 .f32) (a25 : FVec F S128x24 .f32) (a26 : FVec F S24 .f32)
    (h : fn (F := F) a0 a1 a2 a3 a4 a5 a6 a7 a8 a9 a10 a11 a12 a13 a14 a15 a16 a17 a18 a19 a20 a21 a22 a23 a24 a25 a26 = fun _ => 1#1) :
    ∀ i : S2x600000.Idx, 0 ≤ (a1 i).toInt ∧ (a1 i).toInt < 100000 := by
  obtain ⟨v118, v119, e⟩ : ∃ v118 v119,
      fn (F := F) a0 a1 a2 a3 a4 a5 a6 a7 a8 a9 a10 a11 a12 a13 a14 a15 a16 a17 a18 a19 a20 a21 a22 a23 a24 a25 a26 = fn_part7 a1 a26 v118 v119 := ⟨_, _, rfl⟩
  exact range_of_part7 a1 a26 v118 v119 (by rw [← e, h])

end Cert.PreRange

end
-- ==== Proof.RangeIdx.lean ====
/-
  The two rows of the edge-index array, read at an edge, and their range.

  The source index vector is row 0 of the two-row edge-index array, cut out as a one-row matrix and flattened; the
  destination index vector is row 1 likewise. Flattening a one-row matrix keeps the column as the position, and the cut
  adds the row offset to the row coordinate, so entry `e` of either vector is the array's entry `(0, e)`, respectively
  `(1, e)`. A bound that holds at every entry of the array therefore holds at every entry of each vector.
-/
import proofs.«426136_j14405320310896_3_alg».proof.Proof.KOps
import Idealize.ShloMosaic.Lib.Pipeline.Value
import Idealize.ShloMosaic.Lib.ValueIdx

noncomputable section

namespace Cert.KernelIdeal.RangeIdx

open Cert.KernelIdeal Cert.KernelIdeal.Facts₀ Cert.KernelIdeal.Facts Idealize.ShloMosaic Idealize.ShloMosaic.TcCoe
open Idealize.ShloMosaic.ValueIdx

/-- Entry `e` of the source index vector is the edge-index array's entry `(0, e)`. -/
theorem srcOf_apply (ei : IVec S2x600000 32) (e : Fin 600000) : KOps.srcOf ei (ix1 e) = ei (ix2 (0 : Fin 2) e) := by
  unfold KOps.srcOf
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![0, 0] ei slices_S2x600000_S1x600000_0_0 (ix2 (0 : Fin 1) e) (ix2 (0 : Fin 2) e)
      (fun a => match a with
        | ⟨0, _⟩ => by show 0 = 0 + 0; omega
        | ⟨1, _⟩ => by show e.val = 0 + e.val; omega)

/-- Entry `e` of the destination index vector is the edge-index array's entry `(1, e)`. -/
theorem dstOf_apply (ei : IVec S2x600000 32) (e : Fin 600000) : KOps.dstOf ei (ix1 e) = ei (ix2 (1 : Fin 2) e) := by
  unfold KOps.dstOf
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![1, 0] ei slices_S2x600000_S1x600000_1_0 (ix2 (0 : Fin 1) e) (ix2 (1 : Fin 2) e)
      (fun a => match a with
        | ⟨0, _⟩ => by show 1 = 1 + 0; omega
        | ⟨1, _⟩ => by show e.val = 0 + e.val; omega)

/-- Every entry of the edge-index array in `[0, 100000)` puts every source index there … -/
theorem src_range (ei : IVec S2x600000 32) (h : ∀ i : S2x600000.Idx, 0 ≤ (ei i).toInt ∧ (ei i).toInt < 100000) :
    ∀ e : S600000.Idx, 0 ≤ (KOps.srcOf ei e).toInt ∧ (KOps.srcOf ei e).toInt < 100000 := by
  intro e
  obtain ⟨a, rfl⟩ : ∃ a, e = ix1 a := ⟨e 0, eq_ix1 e⟩
  rw [srcOf_apply]
  exact h _

/-- … and every destination index. -/
theorem dst_range (ei : IVec S2x600000 32) (h : ∀ i : S2x600000.Idx, 0 ≤ (ei i).toInt ∧ (ei i).toInt < 100000) :
    ∀ e : S600000.Idx, 0 ≤ (KOps.dstOf ei e).toInt ∧ (KOps.dstOf ei e).toInt < 100000 := by
  intro e
  obtain ⟨a, rfl⟩ : ∃ a, e = ix1 a := ⟨e 0, eq_ix1 e⟩
  rw [dstOf_apply]
  exact h _
end Cert.KernelIdeal.RangeIdx

end
-- ==== Proof.lean ====
/-
  The certificate of a three-layer edge-conditioned message-passing network with an edge classifier, computed by five tiled
  dense kernels among host gathers and scatter-adds, against its plain reference.

  On the extended reals both programs compute: node states h = x·W + b; three times, messages
  relu(h[src] + (edge_attr·We + be)) summed onto their destination nodes and h ← relu(relu((h + agg)·W1 + b1)·W2 + b2)
  (the reference multiplies h by one first, which changes nothing); then per edge
  relu([h[src], h[dst], edge_attr]·Wc + bc)·Wo + bo. The kernel splits the joined product into three products with the
  three row blocks of Wc, and pads Wo and bo with zero columns to 128 and keeps the first 24 columns: only
  commutativity and associativity of the sum are used, so finiteness of the inputs is never needed. The kernel's
  gathers fill rows whose index is out of range with a not-a-number pattern where the reference clamps the index, so the
  two agree exactly where every edge endpoint is a node index: that is the precondition's last conjunct, and the only
  part of it the proof opens.

  The frames of the two kernel programs are the generated ones; the reference's frame is its generated run with the
  result dropped; the idealization rewrote nothing.
-/
import proofs.«426136_j14405320310896_3_alg».proof.Defs
import proofs.«426136_j14405320310896_3_alg».proof.Proof.Gen.Kernel
import proofs.«426136_j14405320310896_3_alg».proof.Proof.Gen.Kernel.Frame
import proofs.«426136_j14405320310896_3_alg».proof.Proof.Gen.KernelIdeal
import proofs.«426136_j14405320310896_3_alg».proof.Proof.Gen.KernelIdeal.Frame
import proofs.«426136_j14405320310896_3_alg».proof.Proof.Gen.ReferenceIdeal
import proofs.«426136_j14405320310896_3_alg».proof.Proof.Gen.ReferenceIdeal.Run
import proofs.«426136_j14405320310896_3_alg».proof.Proof.Gen.ReferenceIdeal.Read
import proofs.«426136_j14405320310896_3_alg».proof.Proof.Gen.Pre_finite_inputs
import proofs.«426136_j14405320310896_3_alg».proof.Proof.KernelRun
import proofs.«426136_j14405320310896_3_alg».proof.Proof.KVal
import proofs.«426136_j14405320310896_3_alg».proof.Proof.RefVal
import proofs.«426136_j14405320310896_3_alg».proof.Proof.Equal
import proofs.«426136_j14405320310896_3_alg».proof.Proof.PreRange
import proofs.«426136_j14405320310896_3_alg».proof.Proof.RangeIdx
import Idealize.ShloMosaic.Adequacy
import Idealize.ShloMosaic.Init

set_option maxRecDepth 65536

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with every edge endpoint a node index, both runs end with the same
    result: the kernel's boundary contents read back to the arguments, the reference's run read stage by stage, and the
    two compositions equal layer by layer. -/
theorem algebraic : Cert.algebraic_KernelIdeal_ReferenceIdeal := by
  intro m ρ m' ρ' hpre hagree
  have hr : ∀ c : Dev Cert.KernelIdeal.nD, ∀ i, 0 ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 100000 := fun c =>
    Cert.PreRange.range_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (hpre c)
  have key : ∀ c : Dev Cert.KernelIdeal.nD, Cert.ReferenceIdeal.Value.res_main_v118 m' c
      = Cert.KernelIdeal.KVal.result (Cert.KernelIdeal.KVal.layer (Cert.KernelIdeal.KVal.layer (Cert.KernelIdeal.KVal.layer (Cert.KernelIdeal.KVal.h0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) := by
    intro c
    have hs := Cert.KernelIdeal.RangeIdx.src_range _ (hr c)
    have hd := Cert.KernelIdeal.RangeIdx.dst_range _ (hr c)
    obtain ⟨e0, e1, e2, e3, e4, e5, e6, e7, e8, e9, e10, e11, e12, e13, e14, e15, e16, e17, e18, e19, e20, e21, e22, e23, e24, e25, e26⟩ := hagree c
    rw [Cert.ReferenceIdeal.Read.val_main_v118_eq, Cert.ReferenceIdeal.RefVal.value, e0, e1, e2, e3, e4, e5, e6, e7, e8, e9, e10, e11, e12, e13, e14, e15, e16, e17, e18, e19, e20, e21, e22, e23, e24, e25, e26,
      Cert.Equal.result_eq _ _ _ _ _ _ _ hs hd, Cert.Equal.layer_eq _ _ _ _ _ _ _ _ _ hs, Cert.Equal.layer_eq _ _ _ _ _ _ _ _ _ hs,
      Cert.Equal.layer_eq _ _ _ _ _ _ _ _ _ hs, Cert.Equal.h0_eq]
  refine ⟨fun c => Cert.KernelIdeal.KVal.result (Cert.KernelIdeal.KVal.layer (Cert.KernelIdeal.KVal.layer (Cert.KernelIdeal.KVal.layer (Cert.KernelIdeal.KVal.h0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run (Cert.KernelIdeal.defs (F := Ideal)) _ _).mono
      (fun r h c => ⟨(h c).1.trans (Cert.KernelIdeal.KVal.value m ρ c), (h c).2⟩) (Cert.KernelIdeal.Run.run (F := Ideal) m ρ)
  · exact (θ_run (Cert.ReferenceIdeal.defs (F := Ideal)) _ _).mono (fun r h c => ⟨(h c).1.trans (key c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
